-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S32000x4096 : Shape := ⟨2, ![32000, 4096]⟩
abbrev S32000 : Shape := ⟨1, ![32000]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S32000x4096 : S_.BroadcastsInDim S32000x4096 (![] : Fin 0 → Fin S32000x4096.rank)
  reducesTo_S32000x4096_S_d0_1 : S32000x4096.ReducesTo [0, 1] S_
  bcast_S_S32000 : S_.BroadcastsInDim S32000 (![] : Fin 0 → Fin S32000.rank)
  reducesTo_S32000_S_d0 : S32000.ReducesTo [0] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg6 : IVec S4096 32) (main_v28 : IVec S_ 1) (main_v30 : IVec S4096 1) (main_v32 : IVec S4096 1) (main_c_12 : IVec S_ 32) : IVec S_ 1 :=
  let main_v33 : IVec S4096 32 := broadcastInDim S4096 ![] bcast_S_S4096 main_c_12
  let main_v34 : IVec S4096 1 := cmpi .slt main_arg6 main_v33
  let main_v35 : IVec S4096 1 := andi main_v32 main_v34
  let main_v36 : IVec S4096 1 := ori main_v30 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v28 main_v37
  main_v38

def fn_part1 {F : FTy → Type} [FloatOps F] (main_arg4 : FVec F S32000x4096 .f32) (main_arg5 : FVec F S32000 .f32) (main_arg6 : IVec S4096 32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S32000x4096 .f32 := Host.absf main_arg4
  let main_cst_6 : FVec F S_ .f32 := constant S_ .f32 0x7F800000#32
  let main_v20 : FVec F S32000x4096 .f32 := broadcastInDim S32000x4096 ![] bcast_S_S32000x4096 main_cst_6
  let main_v21 : IVec S32000x4096 1 := cmpf .olt main_v19 main_v20
  let main_c_7 : IVec S_ 1 := constantI S_ 1 1#1
  let main_v22 : IVec S_ 1 := (fun x v => Host.reduce IntOp.andi x v reducesTo_S32000x4096_S_d0_1 h_S_) main_v21 main_c_7
  let main_v23 : IVec S_ 1 := andi main_v18 main_v22
  let main_v24 : FVec F S32000 .f32 := Host.absf main_arg5
  let main_cst_8 : FVec F S_ .f32 := constant S_ .f32 0x7F800000#32
  let main_v25 : FVec F S32000 .f32 := broadcastInDim S32000 ![] bcast_S_S32000 main_cst_8
  let main_v26 : IVec S32000 1 := cmpf .olt main_v24 main_v25
  let main_c_9 : IVec S_ 1 := constantI S_ 1 1#1
  let main_v27 : IVec S_ 1 := (fun x v => Host.reduce IntOp.andi x v reducesTo_S32000_S_d0 h_S_) main_v26 main_c_9
  let main_v28 : IVec S_ 1 := andi main_v23 main_v27
  let main_c_10 : IVec S_ 32 := constantI S_ 32 4294967196#32
  let main_v29 : IVec S4096 32 := broadcastInDim S4096 ![] bcast_S_S4096 main_c_10
  let main_v30 : IVec S4096 1 := cmpi .eq main_arg6 main_v29
  let main_c_11 : IVec S_ 32 := constantI S_ 32 0#32
  let main_v31 : IVec S4096 32 := broadcastInDim S4096 ![] bcast_S_S4096 main_c_11
  let main_v32 : IVec S4096 1 := cmpi .sge main_arg6 main_v31
  let main_c_12 : IVec S_ 32 := constantI S_ 32 32000#32
  fn_part2 (F := F) main_arg6 main_v28 main_v30 main_v32 main_c_12

def fn {F : FTy → Type} [FloatOps F] (main_arg0 : FVec F S4096x4096 .f32) (main_arg1 : FVec F S32000x4096 .f32) (main_arg2 : FVec F S32000 .f32) (main_arg3 : FVec F S4096x4096 .f32) (main_arg4 : FVec F S32000x4096 .f32) (main_arg5 : FVec F S32000 .f32) (main_arg6 : IVec S4096 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S32000x4096 .f32 := Host.absf main_arg1
  let main_cst_0 : FVec F S_ .f32 := constant S_ .f32 0x7F800000#32
  let main_v5 : FVec F S32000x4096 .f32 := broadcastInDim S32000x4096 ![] bcast_S_S32000x4096 main_cst_0
  let main_v6 : IVec S32000x4096 1 := cmpf .olt main_v4 main_v5
  let main_c_1 : IVec S_ 1 := constantI S_ 1 1#1
  let main_v7 : IVec S_ 1 := (fun x v => Host.reduce IntOp.andi x v reducesTo_S32000x4096_S_d0_1 h_S_) main_v6 main_c_1
  let main_v8 : IVec S_ 1 := andi main_v3 main_v7
  let main_v9 : FVec F S32000 .f32 := Host.absf main_arg2
  let main_cst_2 : FVec F S_ .f32 := constant S_ .f32 0x7F800000#32
  let main_v10 : FVec F S32000 .f32 := broadcastInDim S32000 ![] bcast_S_S32000 main_cst_2
  let main_v11 : IVec S32000 1 := cmpf .olt main_v9 main_v10
  let main_c_3 : IVec S_ 1 := constantI S_ 1 1#1
  let main_v12 : IVec S_ 1 := (fun x v => Host.reduce IntOp.andi x v reducesTo_S32000_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S4096x4096 : Shape := ⟨2, ![4096, 4096]⟩
abbrev S32000x4096 : Shape := ⟨2, ![32000, 4096]⟩
abbrev S32000 : Shape := ⟨1, ![32000]⟩
abbrev S4096 : Shape := ⟨1, ![4096]⟩
abbrev S1x4096x4096 : Shape := ⟨3, ![1, 4096, 4096]⟩
abbrev S2x4096x4096 : Shape := ⟨3, ![2, 4096, 4096]⟩
abbrev S1x32000x4096 : Shape := ⟨3, ![1, 32000, 4096]⟩
abbrev S2x32000x4096 : Shape := ⟨3, ![2, 32000, 4096]⟩
abbrev S1x32000 : Shape := ⟨2, ![1, 32000]⟩
abbrev S2x32000 : Shape := ⟨2, ![2, 32000]⟩
abbrev S2x1x32000 : Shape := ⟨3, ![2, 1, 32000]⟩
abbrev S1x4096 : Shape := ⟨2, ![1, 4096]⟩
abbrev S2x4096 : Shape := ⟨2, ![2, 4096]⟩
abbrev S2x4096x1 : Shape := ⟨3, ![2, 4096, 1]⟩
abbrev S1x512x4096 : Shape := ⟨3, ![1, 512, 4096]⟩
abbrev S1x1280x4096 : Shape := ⟨3, ![1, 1280, 4096]⟩
abbrev S1x1x1280 : Shape := ⟨3, ![1, 1, 1280]⟩
abbrev S1x512x1 : Shape := ⟨3, ![1, 512, 1]⟩
abbrev S512x1 : Shape := ⟨2, ![512, 1]⟩
abbrev S512x4096 : Shape := ⟨2, ![512, 4096]⟩
abbrev S1280x4096 : Shape := ⟨2, ![1280, 4096]⟩
abbrev S512x1280 : Shape := ⟨2, ![512, 1280]⟩
abbrev S1x1280 : Shape := ⟨2, ![1, 1280]⟩
abbrev S512 : Shape := ⟨1, ![512]⟩
abbrev S1x4096x1 : Shape := ⟨3, ![1, 4096, 1]⟩
abbrev S4096x1 : Shape := ⟨2, ![4096, 1]⟩
abbrev S8x512 : Shape := ⟨2, ![8, 512]⟩
abbrev S_ : Shape := ⟨0, ![]⟩
abbrev S8 : Shape := ⟨1, ![8]⟩
abbrev S4 : Shape := ⟨1, ![4]⟩

abbrev nBuf : Space → Nat
  | .hbm => 67
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S32000x4096, .f32⟩
  | .hbm, ⟨2, _⟩ => ⟨S32000, .f32⟩
  | .hbm, ⟨3, _⟩ => ⟨S4096x4096, .f32⟩
  | .hbm, ⟨4, _⟩ => ⟨S32000x4096, .f32⟩
  | .hbm, ⟨5, _⟩ => ⟨S32000, .f32⟩
  | .hbm, ⟨6, _⟩ => ⟨S4096, .i32⟩
  | .hbm, ⟨7, _⟩ => ⟨S1x4096x4096, .f32⟩
  | .hbm, ⟨8, _⟩ => ⟨S1x4096x4096, .f32⟩
  | .hbm, ⟨9, _⟩ => ⟨S2x4096x4096, .f32⟩
  | .hbm, ⟨10, _⟩ => ⟨S2x4096x4096, .bf16⟩
  | .hbm, ⟨11, _⟩ => ⟨S1x32000x4096, .f32⟩
  | .hbm, ⟨12, _⟩ => ⟨S1x32000x4096, .f32⟩
  | .hbm, ⟨13, _⟩ => ⟨S2x32000x4096, .f32⟩
  | .hbm, ⟨14, _⟩ => ⟨S2x32000x4096, .bf16⟩
  | .hbm, ⟨15, _⟩ => ⟨S1x32000, .f32⟩
  | .hbm, ⟨16, _⟩ => ⟨S1x32000, .f32⟩
  | .hbm, ⟨17, _⟩ => ⟨S2x32000, .f32⟩
  | .hbm, ⟨18, _⟩ => ⟨S2x1x32000, .f32⟩
  | .hbm, ⟨19, _⟩ => ⟨S1x4096, .i32⟩
  | .hbm, ⟨20, _⟩ => ⟨S1x4096, .i32⟩
  | .hbm, ⟨21, _⟩ => ⟨S2x4096, .i32⟩
  | .hbm, ⟨22, _⟩ => ⟨S2x4096x1, .i32⟩
  | .hbm, ⟨23, _⟩ => ⟨S2x4096x1, .f32⟩
  | .hbm, ⟨24, _⟩ => ⟨S1x4096x1, .f32⟩
  | .hbm, ⟨25, _⟩ => ⟨S4096x1, .f32⟩
  | .hbm, ⟨26, _⟩ => ⟨S4096, .f32⟩
  | .hbm, ⟨27, _⟩ => ⟨S1x4096x1, .f32⟩
  | .hbm, ⟨28, _⟩ => ⟨S4096x1, .f32⟩
  | .hbm, ⟨29, _⟩ => ⟨S4096, .f32⟩
  | .hbm, ⟨30, _⟩ => ⟨S8x512, .f32⟩
  | .hbm, ⟨31, _⟩ => ⟨S_, .f32⟩
  | .hbm, ⟨32, _⟩ => ⟨S8, .f32⟩
  | .hbm, ⟨33, _⟩ => ⟨S8x512, .f32⟩
  | .hbm, ⟨34, _⟩ => ⟨S_, .f32⟩
  | .hbm, ⟨35, _⟩ => ⟨S8, .f32⟩
  | .hbm, ⟨36, _⟩ => ⟨S4, .f32⟩
  | .hbm, ⟨37, _⟩ => ⟨S4, .f32⟩
  | .hbm, ⟨38, _⟩ => ⟨S4, .f32⟩
  | .hbm, ⟨39, _⟩ => ⟨S4, .f32⟩
  | .hbm, ⟨40, _⟩ => ⟨S4, .f32⟩
  | .hbm, ⟨41, _⟩ => ⟨S4, .f32⟩
  | .hbm, ⟨42, _⟩ => ⟨S4, .f32⟩
  | .hbm, ⟨43, _⟩ => ⟨S_, .f32⟩
  | .hbm, ⟨44, _⟩ => ⟨S4, .f32⟩
  | .hbm, ⟨45, _⟩ => ⟨S4, .f32⟩
  | .hbm, ⟨46, _⟩ => ⟨S4, .f32⟩
  | .hbm, ⟨47, _⟩ => ⟨S_, .f32⟩
  | .hbm, ⟨48, _⟩ => ⟨S4, .f32⟩
  | .hbm, ⟨49, _⟩ => ⟨S4, .f32⟩
  | .hbm, ⟨50, _⟩ => ⟨S4, .f32⟩
  | .hbm, ⟨51, _⟩ => ⟨S4, .f32⟩
  | .hbm, ⟨52, _⟩ => ⟨S4, .i1⟩
  | .hbm, ⟨53, _⟩ => ⟨S4, .f32⟩
  | .hbm, ⟨54, _⟩ => ⟨S4, .f32⟩
  | .hbm, ⟨55, _⟩ => ⟨S4, .f32⟩
  | .hbm, ⟨56, _⟩ => ⟨S4, .f32⟩
  | .hbm, ⟨57, _⟩ => ⟨S4, .f32⟩
  | .hbm, ⟨58, _⟩ => ⟨S4, .f32⟩
  | .hbm, ⟨59, _⟩ => ⟨S4, .f32⟩
  | .hbm, ⟨60, _⟩ => ⟨S4, .f32⟩
  | .hbm, ⟨61, _⟩ => ⟨S4, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .local _ .vmem, ⟨0, _⟩ => ⟨S1x512x4096, .bf16⟩
  | .local _ .vmem, ⟨1, _⟩ => ⟨S1x512x4096, .bf16⟩
  | .local _ .vmem, ⟨2, _⟩ => ⟨S1x1280x4096, .bf16⟩
  | .local _ .vmem, ⟨3, _⟩ => ⟨S1x1280x4096, .bf16⟩
  | .local _ .vmem, ⟨4, _⟩ => ⟨S1x1x1280, .f32⟩
  | .local _ .vmem, ⟨5, _⟩ => ⟨S1x1x1280, .f32⟩
  | .local _ .vmem, ⟨6, _⟩ => ⟨S1x512x1, .i32⟩
  | .local _ .vmem, ⟨7, _⟩ => ⟨S1x512x1, .i32⟩
  | .local _ .vmem, ⟨8, _⟩ => ⟨S1x512x1, .f32⟩
  | .local _ .vmem, ⟨9, _⟩ => ⟨S1x512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst : Ref sig .tc := ⟨.hbm, 31, rfl⟩
abbrev main_v24 : Ref sig .tc := ⟨.hbm, 32, rfl⟩
abbrev main_v25 : Ref sig .tc := ⟨.hbm, 33, rfl⟩
abbrev main_cst_0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_1 : Ref sig .tc := ⟨.hbm, 43, rfl⟩
abbrev main_v34 : Ref sig .tc := ⟨.hbm, 44, rfl⟩
abbrev main_v35 : Ref sig .tc := ⟨.hbm, 45, rfl⟩
abbrev main_call0_v0 : Ref sig .tc := ⟨.hbm, 46, rfl⟩
abbrev main_call0_call0_cst : Ref sig .tc := ⟨.hbm, 47, rfl⟩
abbrev main_call0_call0_v0 : Ref sig .tc := ⟨.hbm, 48, rfl⟩
abbrev main_call0_call0_v1 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_v7 : Ref sig .tc := ⟨.hbm, 55, rfl⟩
abbrev main_call0_call0_v8 : Ref sig .tc := ⟨.hbm, 56, rfl⟩
abbrev main_call0_call0_v9 : Ref sig .tc := ⟨.hbm, 57, rfl⟩
abbrev main_call0_call0_v10 : Ref sig .tc := ⟨.hbm, 58, rfl⟩
abbrev main_call0_call0_v11 : Ref sig .tc := ⟨.hbm, 59, rfl⟩
abbrev main_call0_v1 : Ref sig .tc := ⟨.hbm, 60, rfl⟩
abbrev main_v36 : Ref sig .tc := ⟨.hbm, 61, rfl⟩
abbrev main_cst_2 : Ref sig .tc := ⟨.hbm, 62, rfl⟩
abbrev main_v37 : Ref sig .tc := ⟨.hbm, 63, rfl⟩
abbrev main_v38 : Ref sig .tc := ⟨.hbm, 64, rfl⟩
abbrev main_cst_3 : Ref sig .tc := ⟨.hbm, 65, rfl⟩
abbrev main_v39 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 25], ![false, false, false]⟩

def k0_cond2 (i : grid0.Coords) : BitVec 1 :=
  let arg2 : BitVec 32 := BitVec.ofNat 32 (i 2).val
  let c24_i32 : BitVec 32 := 24#32
  let v50 : BitVec 1 := Scalar.cmpi .eq arg2 c24_i32
  let v51 : BitVec 32 := Scalar.extui v50
  let c0_i32_28 : BitVec 32 := 0#32
  let v52 : BitVec 1 := Scalar.cmpi .ne v51 c0_i32_28
  v52

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1280x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bcast_S4096x4096_S1x4096x4096_1_2 : S4096x4096.BroadcastsInDim S1x4096x4096 (![1, 2] : Fin 2 → Fin S1x4096x4096.rank)
  concatenates_S1x4096x4096_S1x4096x4096_S2x4096x4096_d0 : Shape.Concatenates [S1x4096x4096, S1x4096x4096] S2x4096x4096 0
  bitsLt_bf16_f32 : FTy.bits .bf16 < FTy.bits .f32
  bcast_S32000x4096_S1x32000x4096_1_2 : S32000x4096.BroadcastsInDim S1x32000x4096 (![1, 2] : Fin 2 → Fin S1x32000x4096.rank)
  concatenates_S1x32000x4096_S1x32000x4096_S2x32000x4096_d0 : Shape.Concatenates [S1x32000x4096, S1x32000x4096] S2x32000x4096 0
  bcast_S32000_S1x32000_1 : S32000.BroadcastsInDim S1x32000 (![1] : Fin 1 → Fin S1x32000.rank)
  concatenates_S1x32000_S1x32000_S2x32000_d0 : Shape.Concatenates [S1x32000, S1x32000] S2x32000 0
  shapeCasts_S2x32000_S2x1x32000 : S2x32000.ShapeCasts S2x1x32000
  bcast_S4096_S1x4096_1 : S4096.BroadcastsInDim S1x4096 (![1] : Fin 1 → Fin S1x4096.rank)
  concatenates_S1x4096_S1x4096_S2x4096_d0 : Shape.Concatenates [S1x4096, S1x4096] S2x4096 0
  shapeCasts_S2x4096_S2x4096x1 : S2x4096.ShapeCasts S2x4096x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x1280x4096_S1x1280x4096_0_0_0 : ∀ a, (![0, 0, 0] : Fin 3 → Nat) a + S1x1280x4096.size a ≤ S1x1280x4096.size a
  h_S1x1280x4096 : 0 < S1x1280x4096.numel
  shapeCasts_S1x1280x4096_S1280x4096 : S1x1280x4096.ShapeCasts S1280x4096
  inb_S1x1x1280_S1x1x1280_0_0_0 : ∀ a, (![0, 0, 0] : Fin 3 → Nat) a + S1x1x1280.size a ≤ S1x1x1280.size a
  h_S1x1x1280 : 0 < S1x1x1280.numel
  shapeCasts_S1x1x1280_S1x1280 : S1x1x1280.ShapeCasts S1x1280
  broadcasts_S1x1280_S512x1280 : S1x1280.Broadcasts S512x1280
  iota_S1x1280_d1_w32 : S1x1280.Iotas .tc 32 [1]
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x1280 : S512x1.Broadcasts S512x1280
  reduces_S512x1280_S512 : S512x1280.Reduces [1] S512
  shapeCasts_S512_S512x1 : S512.ShapeCasts S512x1
  shapeCasts_S512x1_S1x512x1 : S512x1.ShapeCasts S1x512x1
  slices_S2x4096x1_S1x4096x1_0_0_0 : S2x4096x1.Slices ![0, 0, 0] S1x4096x1
  shapeCasts_S1x4096x1_S4096x1 : S1x4096x1.ShapeCasts S4096x1
  shapeCasts_S4096x1_S4096 : S4096x1.ShapeCasts S4096
  slices_S2x4096x1_S1x4096x1_1_0_0 : S2x4096x1.Slices ![1, 0, 0] S1x4096x1
  shapeCasts_S4096_S8x512 : S4096.ShapeCasts S8x512
  reducesTo_S8x512_S8_d1 : S8x512.ReducesTo [1] S8
  h_S_ : 0 < S_.numel
  slices_S8_S4_0 : S8.Slices ![0] S4
  slices_S8_S4_4 : S8.Slices ![4] S4
  bcast_S_S4 : S_.BroadcastsInDim S4 (![] : Fin 0 → Fin S4.rank)
  reducesTo_S4_S_d0 : S4.ReducesTo [0] S_
  dot_S512x4096_S1280x4096_S512x1280_1_1_0_0_n_n_wf : DotDims.WF S512x4096 S1280x4096 S512x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S2x4096x4096.size a
  hwx0_0 : ∀ i : grid0.Coords, EltTy.bits .bf16 = 32 ∨ (Rect.block (s := S2x4096x4096) S1x512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1280x4096.size a ≤ S2x32000x4096.size a
  hwx0_1 : ∀ i : grid0.Coords, EltTy.bits .bf16 = 32 ∨ (Rect.block (s := S2x32000x4096) S1x1280x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1280.size a ≤ S2x1x32000.size a
  hwx0_2 : ∀ i : grid0.Coords, EltTy.bits .f32 = 32 ∨ (Rect.block (s := S2x1x32000) S1x1x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S2x4096x1.size a
  hwx0_3 : ∀ i : grid0.Coords, EltTy.bits .i32 = 32 ∨ (Rect.block (s := S2x4096x1) S1x512x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S2x4096x1.size a
  hwx0_4 : ∀ i : grid0.Coords, EltTy.bits .f32 = 32 ∨ (Rect.block (s := S2x4096x1) S1x512x1.size (cc0_transform_4 i) (hinb0_4 i)).WholeWords (EltTy.packing .f32)

variable [Facts₀]

def dot_S512x4096_S1280x4096_S512x1280_1_1_0_0_n_n : DotDims S512x4096 S1280x4096 S512x1280 where
  lhsContracting := [1]
  rhsContracting := [1]
  lhsNonContracting := [0]
  rhsNonContracting := [0]
  lhsBatch := []
  rhsBatch := []
  wf := dot_S512x4096_S1280x4096_S512x1280_1_1_0_0_n_n_wf

abbrev win0_0 : Pipeline.Window sig grid0 :=
  Pipeline.Window.ofSpec (Memref.whole main_v3) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1280x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S32000x4096 : Shape := ⟨2, ![32000, 4096]⟩
abbrev S32000 : Shape := ⟨1, ![32000]⟩
abbrev S4096 : Shape := ⟨1, ![4096]⟩
abbrev S4096x32000 : Shape := ⟨2, ![4096, 32000]⟩
abbrev S1x32000 : Shape := ⟨2, ![1, 32000]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S8x512 : Shape := ⟨2, ![8, 512]⟩
abbrev S8 : Shape := ⟨1, ![8]⟩
abbrev S4 : Shape := ⟨1, ![4]⟩

abbrev nBuf : Space → Nat
  | .hbm => 158
  | .vmem => 0
  | .smem => 0
  | _ => 0

abbrev hbmTy0_0 (i : Nat) : BufTy := match i % 128 with
  | 0 => ⟨S4096x4096, .f32⟩
  | 1 => ⟨S32000x4096, .f32⟩
  | 2 => ⟨S32000, .f32⟩
  | 3 => ⟨S4096x4096, .f32⟩
  | 4 => ⟨S32000x4096, .f32⟩
  | 5 => ⟨S32000, .f32⟩
  | 6 => ⟨S4096, .i32⟩
  | 7 => ⟨S4096x32000, .f32⟩
  | 8 => ⟨S1x32000, .f32⟩
  | 9 => ⟨S4096x32000, .f32⟩
  | 10 => ⟨S4096x32000, .f32⟩
  | 11 => ⟨S_, .f32⟩
  | 12 => ⟨S4096, .f32⟩
  | 13 => ⟨S_, .f32⟩
  | 14 => ⟨S4096, .f32⟩
  | 15 => ⟨S4096, .f32⟩
  | 16 => ⟨S4096x1, .f32⟩
  | 17 => ⟨S4096x32000, .f32⟩
  | 18 => ⟨S4096x32000, .f32⟩
  | 19 => ⟨S4096x32000, .f32⟩
  | 20 => ⟨S_, .f32⟩
  | 21 => ⟨S4096, .f32⟩
  | 22 => ⟨S4096x1, .f32⟩
  | 23 => ⟨S4096x1, .f32⟩
  | 24 => ⟨S4096x32000, .f32⟩
  | 25 => ⟨S4096x32000, .f32⟩
  | 26 => ⟨S_, .i32⟩
  | 27 => ⟨S4096, .i32⟩
  | 28 => ⟨S4096, .i1⟩
  | 29 => ⟨S_, .i32⟩
  | 30 => ⟨S_, .i32⟩
  | 31 => ⟨S4096, .i32⟩
  | 32 => ⟨S4096, .i32⟩
  | 33 => ⟨S4096x1, .i32⟩
  | 34 => ⟨S_, .i32⟩
  | 35 => ⟨S4096x1, .i32⟩
  | 36 => ⟨S4096x1, .i1⟩
  | 37 => ⟨S_, .i32⟩
  | 38 => ⟨S4096x1, .i32⟩
  | 39 => ⟨S4096x1, .i32⟩
  | 40 => ⟨S4096x1, .i32⟩
  | 41 => ⟨S4096x1x1, .i32⟩
  | 42 => ⟨S1, .i32⟩
  | 43 => ⟨S_, .i32⟩
  | 44 => ⟨S4096x1x1, .i32⟩
  | 45 => ⟨S4096x1x1, .i1⟩
  | 46 => ⟨S1x1x1, .i32⟩
  | 47 => ⟨S4096x1x1, .i32⟩
  | 48 => ⟨S4096x1x1, .i1⟩
  | 49 => ⟨S4096x1x1, .i1⟩
  | 50 => ⟨S_, .i1⟩
  | 51 => ⟨S4096x1, .i1⟩
  | 52 => ⟨S4096x1, .f32⟩
  | 53 => ⟨S_, .f32⟩
  | 54 => ⟨S4096x1, .f32⟩
  | 55 => ⟨S4096x1, .f32⟩
  | 56 => ⟨S4096, .f32⟩
  | 57 => ⟨S_, .i32⟩
  | 58 => ⟨S4096, .i32⟩
  | 59 => ⟨S4096, .i1⟩
  | 60 => ⟨S_, .f32⟩
  | 61 => ⟨S_, .f32⟩
  | 62 => ⟨S4096, .f32⟩
  | 63 => ⟨S4096, .f32⟩
  | 64 => ⟨S8x512, .f32⟩
  | 65 => ⟨S_, .f32⟩
  | 66 => ⟨S8, .f32⟩
  | 67 => ⟨S4096x32000, .f32⟩
  | 68 => ⟨S1x32000, .f32⟩
  | 69 => ⟨S4096x32000, .f32⟩
  | 70 => ⟨S4096x32000, .f32⟩
  | 71 => ⟨S_, .f32⟩
  | 72 => ⟨S4096, .f32⟩
  | 73 => ⟨S_, .f32⟩
  | 74 => ⟨S4096, .f32⟩
  | 75 => ⟨S4096, .f32⟩
  | 76 => ⟨S4096x1, .f32⟩
  | 77 => ⟨S4096x32000, .f32⟩
  | 78 => ⟨S4096x32000, .f32⟩
  | 79 => ⟨S4096x32000, .f32⟩
  | 80 => ⟨S_, .f32⟩
  | 81 => ⟨S4096, .f32⟩
  | 82 => ⟨S4096x1, .f32⟩
  | 83 => ⟨S4096x1, .f32⟩
  | 84 => ⟨S4096x32000, .f32⟩
  | 85 => ⟨S4096x32000, .f32⟩
  | 86 => ⟨S_, .i32⟩
  | 87 => ⟨S4096, .i32⟩
  | 88 => ⟨S4096, .i1⟩
  | 89 => ⟨S_, .i32⟩
  | 90 => ⟨S_, .i32⟩
  | 91 => ⟨S4096, .i32⟩
  | 92 => ⟨S4096, .i32⟩
  | 93 => ⟨S4096x1, .i32⟩
  | 94 => ⟨S_, .i32⟩
  | 95 => ⟨S4096x1, .i32⟩
  | 96 => ⟨S4096x1, .i1⟩
  | 97 => ⟨S_, .i32⟩
  | 98 => ⟨S4096x1, .i32⟩
  | 99 => ⟨S4096x1, .i32⟩
  | 100 => ⟨S4096x1, .i32⟩
  | 101 => ⟨S4096x1x1, .i32⟩
  | 102 => ⟨S1, .i32⟩
  | 103 => ⟨S_, .i32⟩
  | 104 => ⟨S4096x1x1, .i32⟩
  | 105 => ⟨S4096x1x1, .i1⟩
  | 106 => ⟨S1x1x1, .i32⟩
  | 107 => ⟨S4096x1x1, .i32⟩
  | 108 => ⟨S4096x1x1, .i1⟩
  | 109 => ⟨S4096x1x1, .i1⟩
  | 110 => ⟨S_, .i1⟩
  | 111 => ⟨S4096x1, .i1⟩
  | 112 => ⟨S4096x1, .f32⟩
  | 113 => ⟨S_, .f32⟩
  | 114 => ⟨S4096x1, .f32⟩
  | 115 => ⟨S4096x1, .f32⟩
  | 116 => ⟨S4096, .f32⟩
  | 117 => ⟨S_, .i32⟩
  | 118 => ⟨S4096, .i32⟩
  | 119 => ⟨S4096, .i1⟩
  | 120 => ⟨S_, .f32⟩
  | 121 => ⟨S_, .f32⟩
  | 122 => ⟨S4096, .f32⟩
  | 123 => ⟨S4096, .f32⟩
  | 124 => ⟨S8x512, .f32⟩
  | 125 => ⟨S_, .f32⟩
  | 126 => ⟨S8, .f32⟩
  | 127 => ⟨S4, .f32⟩
  | _ => ⟨S4096x4096, .f32⟩

abbrev hbmTy0_1 (i : Nat) : BufTy := match i % 128 with
  | 0 => ⟨S4, .f32⟩
  | 1 => ⟨S4, .f32⟩
  | 2 => ⟨S4, .f32⟩
  | 3 => ⟨S4, .f32⟩
  | 4 => ⟨S4, .f32⟩
  | 5 => ⟨S4, .f32⟩
  | 6 => ⟨S_, .f32⟩
  | 7 => ⟨S4, .f32⟩
  | 8 => ⟨S4, .f32⟩
  | 9 => ⟨S4, .f32⟩
  | 10 => ⟨S_, .f32⟩
  | 11 => ⟨S4, .f32⟩
  | 12 => ⟨S4, .f32⟩
  | 13 => ⟨S4, .f32⟩
  | 14 => ⟨S4, .f32⟩
  | 15 => ⟨S4, .i1⟩
  | 16 => ⟨S4, .f32⟩
  | 17 => ⟨S4, .f32⟩
  | 18 => ⟨S4, .f32⟩
  | 19 => ⟨S4, .f32⟩
  | 20 => ⟨S4, .f32⟩
  | 21 => ⟨S4, .f32⟩
  | 22 => ⟨S4, .f32⟩
  | 23 => ⟨S4, .f32⟩
  | 24 => ⟨S4, .f32⟩
  | 25 => ⟨S_, .f32⟩
  | 26 => ⟨S_, .f32⟩
  | 27 => ⟨S_, .f32⟩
  | 28 => ⟨S_, .f32⟩
  | 29 => ⟨S_, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_call0_cst_0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_cst_1 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_v4 : Ref sig .tc := ⟨.hbm, 25, rfl⟩
abbrev main_c : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_v7 : Ref sig .tc := ⟨.hbm, 32, rfl⟩
abbrev main_v8 : Ref sig .tc := ⟨.hbm, 33, rfl⟩
abbrev main_call2_c : Ref sig .tc := ⟨.hbm, 34, rfl⟩
abbrev main_call2_v0 : Ref sig .tc := ⟨.hbm, 35, rfl⟩
abbrev main_call2_v1 : Ref sig .tc := ⟨.hbm, 36, rfl⟩
abbrev main_call2_c_0 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_c_1 : Ref sig .tc := ⟨.hbm, 42, rfl⟩
abbrev main_call2_c_2 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_c_3 : Ref sig .tc := ⟨.hbm, 50, rfl⟩
abbrev main_call2_v12 : Ref sig .tc := ⟨.hbm, 51, rfl⟩
abbrev main_call2_v13 : Ref sig .tc := ⟨.hbm, 52, rfl⟩
abbrev main_call2_cst : Ref sig .tc := ⟨.hbm, 53, rfl⟩
abbrev main_call2_v14 : Ref sig .tc := ⟨.hbm, 54, rfl⟩
abbrev main_v9 : Ref sig .tc := ⟨.hbm, 55, rfl⟩
abbrev main_v10 : Ref sig .tc := ⟨.hbm, 56, rfl⟩
abbrev main_c_1 : Ref sig .tc := ⟨.hbm, 57, rfl⟩
abbrev main_v11 : Ref sig .tc := ⟨.hbm, 58, rfl⟩
abbrev main_v12 : Ref sig .tc := ⟨.hbm, 59, rfl⟩
abbrev main_cst : Ref sig .tc := ⟨.hbm, 60, rfl⟩
abbrev main_call3_v0 : Ref sig .tc := ⟨.hbm, 61, rfl⟩
abbrev main_call3_v1 : Ref sig .tc := ⟨.hbm, 62, rfl⟩
abbrev main_v13 : Ref sig .tc := ⟨.hbm, 63, rfl⟩
abbrev main_v14 : Ref sig .tc := ⟨.hbm, 64, rfl⟩
abbrev main_cst_2 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_call4_cst : Ref sig .tc := ⟨.hbm, 71, rfl⟩
abbrev main_call4_v0 : Ref sig .tc := ⟨.hbm, 72, rfl⟩
abbrev main_call4_cst_0 : Ref sig .tc := ⟨.hbm, 73, rfl⟩
abbrev main_call4_v1 : Ref sig .tc := ⟨.hbm, 74, rfl⟩
abbrev main_call4_v2 : Ref sig .tc := ⟨.hbm, 75, rfl⟩
abbrev main_call4_v3 : Ref sig .tc := ⟨.hbm, 76, rfl⟩
abbrev main_call4_v4 : Ref sig .tc := ⟨.hbm, 77, rfl⟩
abbrev main_call4_v5 : Ref sig .tc := ⟨.hbm, 78, rfl⟩
abbrev main_call4_v6 : Ref sig .tc := ⟨.hbm, 79, rfl⟩
abbrev main_call4_cst_1 : Ref sig .tc := ⟨.hbm, 80, rfl⟩
abbrev main_call4_v7 : Ref sig .tc := ⟨.hbm, 81, rfl⟩
abbrev main_call4_v8 : Ref sig .tc := ⟨.hbm, 82, rfl⟩
abbrev main_call4_v9 : Ref sig .tc := ⟨.hbm, 83, rfl⟩
abbrev main_call4_v10 : Ref sig .tc := ⟨.hbm, 84, rfl⟩
abbrev main_v20 : Ref sig .tc := ⟨.hbm, 85, rfl⟩
abbrev main_c_3 : Ref sig .tc := ⟨.hbm, 86, rfl⟩
abbrev main_v21 : Ref sig .tc := ⟨.hbm, 87, rfl⟩
abbrev main_v22 : Ref sig .tc := ⟨.hbm, 88, rfl⟩
abbrev main_c_4 : Ref sig .tc := ⟨.hbm, 89, rfl⟩
abbrev main_call5_v0 : Ref sig .tc := ⟨.hbm, 90, rfl⟩
abbrev main_call5_v1 : Ref sig .tc := ⟨.hbm, 91, rfl⟩
abbrev main_v23 : Ref sig .tc := ⟨.hbm, 92, rfl⟩
abbrev main_v24 : Ref sig .tc := ⟨.hbm, 93, rfl⟩
abbrev main_call6_c : Ref sig .tc := ⟨.hbm, 94, rfl⟩
abbrev main_call6_v0 : Ref sig .tc := ⟨.hbm, 95, rfl⟩
abbrev main_call6_v1 : Ref sig .tc := ⟨.hbm, 96, rfl⟩
abbrev main_call6_c_0 : Ref sig .tc := ⟨.hbm, 97, rfl⟩
abbrev main_call6_v2 : Ref sig .tc := ⟨.hbm, 98, rfl⟩
abbrev main_call6_v3 : Ref sig .tc := ⟨.hbm, 99, rfl⟩
abbrev main_call6_v4 : Ref sig .tc := ⟨.hbm, 100, rfl⟩
abbrev main_call6_v5 : Ref sig .tc := ⟨.hbm, 101, rfl⟩
abbrev main_call6_c_1 : Ref sig .tc := ⟨.hbm, 102, rfl⟩
abbrev main_call6_c_2 : Ref sig .tc := ⟨.hbm, 103, rfl⟩
abbrev main_call6_v6 : Ref sig .tc := ⟨.hbm, 104, rfl⟩
abbrev main_call6_v7 : Ref sig .tc := ⟨.hbm, 105, rfl⟩
abbrev main_call6_v8 : Ref sig .tc := ⟨.hbm, 106, rfl⟩
abbrev main_call6_v9 : Ref sig .tc := ⟨.hbm, 107, rfl⟩
abbrev main_call6_v10 : Ref sig .tc := ⟨.hbm, 108, rfl⟩
abbrev main_call6_v11 : Ref sig .tc := ⟨.hbm, 109, rfl⟩
abbrev main_call6_c_3 : Ref sig .tc := ⟨.hbm, 110, rfl⟩
abbrev main_call6_v12 : Ref sig .tc := ⟨.hbm, 111, rfl⟩
abbrev main_call6_v13 : Ref sig .tc := ⟨.hbm, 112, rfl⟩
abbrev main_call6_cst : Ref sig .tc := ⟨.hbm, 113, rfl⟩
abbrev main_call6_v14 : Ref sig .tc := ⟨.hbm, 114, rfl⟩
abbrev main_v25 : Ref sig .tc := ⟨.hbm, 115, rfl⟩
abbrev main_v26 : Ref sig .tc := ⟨.hbm, 116, rfl⟩
abbrev main_c_5 : Ref sig .tc := ⟨.hbm, 117, rfl⟩
abbrev main_v27 : Ref sig .tc := ⟨.hbm, 118, rfl⟩
abbrev main_v28 : Ref sig .tc := ⟨.hbm, 119, rfl⟩
abbrev main_cst_6 : Ref sig .tc := ⟨.hbm, 120, rfl⟩
abbrev main_call7_v0 : Ref sig .tc := ⟨.hbm, 121, rfl⟩
abbrev main_call7_v1 : Ref sig .tc := ⟨.hbm, 122, rfl⟩
abbrev main_v29 : Ref sig .tc := ⟨.hbm, 123, rfl⟩
abbrev main_v30 : Ref sig .tc := ⟨.hbm, 124, rfl⟩
abbrev main_cst_7 : Ref sig .tc := ⟨.hbm, 125, rfl⟩
abbrev main_v31 : Ref sig .tc := ⟨.hbm, 126, rfl⟩
abbrev main_v32 : Ref sig .tc := ⟨.hbm, 127, rfl⟩
abbrev main_v33 : Ref sig .tc := ⟨.hbm, 128, rfl⟩
abbrev main_v34 : Ref sig .tc := ⟨.hbm, 129, rfl⟩
abbrev main_v35 : Ref sig .tc := ⟨.hbm, 130, rfl⟩
abbrev main_v36 : Ref sig .tc := ⟨.hbm, 131, rfl⟩
abbrev main_v37 : Ref sig .tc := ⟨.hbm, 132, rfl⟩
abbrev main_v38 : Ref sig .tc := ⟨.hbm, 133, rfl⟩
abbrev main_cst_8 : Ref sig .tc := ⟨.hbm, 134, rfl⟩
abbrev main_v39 : Ref sig .tc := ⟨.hbm, 135, rfl⟩
abbrev main_v40 : Ref sig .tc := ⟨.hbm, 136, rfl⟩
abbrev main_call8_v0 : Ref sig .tc := ⟨.hbm, 137, rfl⟩
abbrev main_call8_call0_cst : Ref sig .tc := ⟨.hbm, 138, rfl⟩
abbrev main_call8_call0_v0 : Ref sig .tc := ⟨.hbm, 139, rfl⟩
abbrev main_call8_call0_v1 : Ref sig .tc := ⟨.hbm, 140, rfl⟩
abbrev main_call8_call0_v2 : Ref sig .tc := ⟨.hbm, 141, rfl⟩
abbrev main_call8_call0_v3 : Ref sig .tc := ⟨.hbm, 142, rfl⟩
abbrev main_call8_call0_v4 : Ref sig .tc := ⟨.hbm, 143, rfl⟩
abbrev main_call8_call0_v5 : Ref sig .tc := ⟨.hbm, 144, rfl⟩
abbrev main_call8_call0_v6 : Ref sig .tc := ⟨.hbm, 145, rfl⟩
abbrev main_call8_call0_v7 : Ref sig .tc := ⟨.hbm, 146, rfl⟩
abbrev main_call8_call0_v8 : Ref sig .tc := ⟨.hbm, 147, rfl⟩
abbrev main_call8_call0_v9 : Ref sig .tc := ⟨.hbm, 148, rfl⟩
abbrev main_call8_call0_v10 : Ref sig .tc := ⟨.hbm, 149, rfl⟩
abbrev main_call8_call0_v11 : Ref sig .tc := ⟨.hbm, 150, rfl⟩
abbrev main_call8_v1 : Ref sig .tc := ⟨.hbm, 151, rfl⟩
abbrev main_v41 : Ref sig .tc := ⟨.hbm, 152, rfl⟩
abbrev main_cst_9 : Ref sig .tc := ⟨.hbm, 153, rfl⟩
abbrev main_v42 : Ref sig .tc := ⟨.hbm, 154, rfl⟩
abbrev main_v43 : Ref sig .tc := ⟨.hbm, 155, rfl⟩
abbrev main_cst_10 : Ref sig .tc := ⟨.hbm, 156, rfl⟩
abbrev main_v44 : Ref sig .tc := ⟨.hbm, 157, rfl⟩

abbrev nD : Nat := 1
abbrev τ : Topo := Topo.v7x

variable {F : FTy → Type} [FloatOps F]

class Facts₀ : Prop where
  bcast_S32000_S1x32000_1 : S32000.BroadcastsInDim S1x32000 (![1] : Fin 1 → Fin S1x32000.rank)
  bcast_S1x32000_S4096x32000_0_1 : S1x32000.BroadcastsInDim S4096x32000 (![0, 1] : Fin 2 → Fin S4096x32000.rank)
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  shapeCasts_S4096_S8x512 : S4096.ShapeCasts S8x512
  reducesTo_S8x512_S8_d1 : S8x512.ReducesTo [1] S8
  slices_S8_S4_0 : S8.Slices ![0] S4
  slices_S8_S4_4 : S8.Slices ![4] S4
  bcast_S_S4 : S_.BroadcastsInDim S4 (![] : Fin 0 → Fin S4.rank)
  reducesTo_S4_S_d0 : S4.ReducesTo [0] S_
  dot_S4096x4096_S32000x4096_S4096x32000_1_1_0_0_n_n_wf : DotDims.WF S4096x4096 S32000x4096 S4096x32000 [1] [1] [0] [0] [] []
  gather_S4096x32000_S4096x1x1_S4096x1_n_1_0_0_1_2_11_wf : GatherDims.WF S4096x32000 S4096x1x1 S4096x1 [] [1] [0] [1] [0] 2 ![1, 1]

variable [Facts₀]

def dot_S4096x4096_S32000x4096_S4096x32000_1_1_0_0_n_n : DotDims S4096x4096 S32000x4096 S4096x32000 where
  lhsContracting := [1]
  rhsContracting := [1]
  lhsNonContracting := [0]
  rhsNonContracting := [0]
  lhsBatch := []
  rhsBatch := []
  wf := dot_S4096x4096_S32000x4096_S4096x32000_1_1_0_0_n_n_wf
def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

class Facts : Prop extends Facts₀ where

variable [Facts]
-- ==== Proof.Spec.lean ====
/-
  What both programs compute, written once.

  Two linear models (a policy and a reference model) each turn a row x of the input into a row of 32000 logits,
  a(v) = sum over h of x(h) * W(v, h) + b(v). A row's label t picks one column; the row's token log-probability is
  the log-softmax of the row at that column, (a(t) - M) - log (sum over u of exp (a(u) - M)) with M the row's
  maximum, and it is 0 at the ignore label -100. The 4096 rows are 8 sequences of 512; a sequence's score is the sum
  of its rows' token log-probabilities. The loss pairs sequence s (chosen) with sequence s + 4 (rejected):
  with d(s) = (chosen(s) - refChosen(s)) - (rejected(s) - refRejected(s)) it is
  - (sum over s of log-sigmoid (beta * d(s))) / 4, the log-sigmoid spelled as minus softplus of minus its argument.

  Everything from the two vectors of 4096 token log-probabilities on is the function lossTail: both programs apply
  the same operations there, so it is stated over the operations' own names and never opened.
-/
import Idealize.ShloMosaic.PureOps
import Idealize.ShloMosaic.PureOps.Ideal
import Idealize.ShloMosaic.PureOps.Ideal.Laws
import Idealize.ShloMosaic.Lib.ValueIdx

noncomputable section

namespace Cert.Dpo

open Idealize.ShloMosaic Idealize.ShloMosaic.ValueIdx

/-- The ignore label -100 as a 32-bit word. -/
abbrev ignoreWord : BitVec 32 := 4294967196#32

/-- Minus infinity as the float word both programs carry: the value a running maximum starts from. -/
abbrev negInf : EReal := Ideal.ofBits .f32 0xFF800000#32

/-- A row's maximum: the fold of max over its 32000 logits, from minus infinity. -/
def rowMax (a : Fin 32000 → EReal) : EReal := (Finset.univ : Finset (Fin 32000)).fold max negInf a

/-- A row's shifted exponential sum: the sum over u of exp (a(u) - M), M the row's maximum. -/
def rowExpSum (a : Fin 32000 → EReal) : EReal := ∑ u : Fin 32000, Ideal.exp (a u - rowMax a)

/-- The log-softmax of a row of logits at column v. -/
def logSoftmaxAt (a : Fin 32000 → EReal) (v : Fin 32000) : EReal :=
  (a v - rowMax a) - Ideal.log (rowExpSum a)

/-- A row's token log-probability at label word t: 0 at the ignore label, the log-softmax at column t for a label
    inside the vocabulary. (A word that is neither is outside the labels' range; the value there is not used.) -/
def tokAt (a : Fin 32000 → EReal) (t : BitVec 32) : EReal :=
  if t = ignoreWord then 0 else if h : t.toNat < 32000 then logSoftmaxAt a ⟨t.toNat, h⟩ else 0

/-- One model's logits: row r of the input against row v of the weights, plus the bias at v. -/
def logit (X : FVec Ideal ⟨2, ![4096, 4096]⟩ .f32) (W : FVec Ideal ⟨2, ![32000, 4096]⟩ .f32)
    (b : FVec Ideal ⟨1, ![32000]⟩ .f32) (r : Fin 4096) (v : Fin 32000) : EReal :=
  (∑ h : Fin 4096, X (ix2 r h) * W (ix2 v h)) + b (ix1 v)

/-- One model's 4096 token log-probabilities. -/
def tokVec (X : FVec Ideal ⟨2, ![4096, 4096]⟩ .f32) (W : FVec Ideal ⟨2, ![32000, 4096]⟩ .f32)
    (b : FVec Ideal ⟨1, ![32000]⟩ .f32) (tgt : IVec ⟨1, ![4096]⟩ 32) : FVec Ideal ⟨1, ![4096]⟩ .f32 :=
  fun i => tokAt (logit X W b ⟨(i 0).val, (i 0).isLt⟩) (tgt i)

/-! ## From the token log-probabilities to the loss -/

section Tail

variable {F : FTy → Type} [FloatOps F]

variable (hc : (⟨1, ![4096]⟩ : Shape).ShapeCasts ⟨2, ![8, 512]⟩)
  (hr : (⟨2, ![8, 512]⟩ : Shape).ReducesTo [1] ⟨1, ![8]⟩)
  (hpos : 0 < (⟨0, ![]⟩ : Shape).numel)
  (hs0 : (⟨1, ![8]⟩ : Shape).Slices ![0] ⟨1, ![4]⟩)
  (hs4 : (⟨1, ![8]⟩ : Shape).Slices ![4] ⟨1, ![4]⟩)
  (hb : (⟨0, ![]⟩ : Shape).BroadcastsInDim ⟨1, ![4]⟩ (![] : Fin 0 → Fin (⟨1, ![4]⟩ : Shape).rank))
  (hr4 : (⟨1, ![4]⟩ : Shape).ReducesTo [0] ⟨0, ![]⟩)

/-- The eight sequences' scores: the rows laid out as 8 by 512 and summed along each sequence. -/
def seqSums (a : FVec F ⟨1, ![4096]⟩ .f32) : FVec F ⟨1, ![8]⟩ .f32 :=
  Host.reduceAdd (shapeCast ⟨2, ![8, 512]⟩ a hc) (constant (F := F) ⟨0, ![]⟩ .f32 0x00000000#32) hr hpos

/-- Zero at each of the four pairs. -/
def zero4 : FVec F ⟨1, ![4]⟩ .f32 :=
  broadcastInDim ⟨1, ![4]⟩ ![] hb (constant (F := F) ⟨0, ![]⟩ .f32 0x00000000#32)

/-- softplus x = max x 0 + log1p (exp (- |x|)), with the operations' own test for an undefined argument in front. -/
def softplus4 (x : FVec F ⟨1, ![4]⟩ .f32) : FVec F ⟨1, ![4]⟩ .f32 :=
  select (cmpf .une (subf x (zero4 hb)) (subf x (zero4 hb))) (addf x (zero4 hb))
    (addf (maximumf x (zero4 hb)) (Host.log1p (Host.exp (Host.negf (Host.absf (subf x (zero4 hb)))))))

/-- log-sigmoid x = - softplus (- x). -/
def logSigmoid4 (x : FVec F ⟨1, ![4]⟩ .f32) : FVec F ⟨1, ![4]⟩ .f32 :=
  Host.negf (softplus4 hb (Host.negf x))

/-- The four pairs' scaled margins: beta * ((chosen - refChosen) - (rejected - refRejected)), from the policy's
    sequence scores sa and the reference model's sb. -/
def margins (sa sb : FVec F ⟨1, ![8]⟩ .f32) : FVec F ⟨1, ![4]⟩ .f32 :=
  mulf (broadcastInDim ⟨1, ![4]⟩ ![] hb (constant (F := F) ⟨0, ![]⟩ .f32 0x3DCCCCCD#32))
    (subf (subf (extractStridedSlice ⟨1, ![4]⟩ ![0] sa hs0) (extractStridedSlice ⟨1, ![4]⟩ ![0] sb hs0))
          (subf (extractStridedSlice ⟨1, ![4]⟩ ![4] sa hs4) (extractStridedSlice ⟨1, ![4]⟩ ![4] sb hs4)))

/-- The loss from the two models' token log-probabilities. -/
def lossTail (a b : FVec F ⟨1, ![4096]⟩ .f32) : FVec F ⟨0, ![]⟩ .f32 :=
  Host.divf
    (Host.negf (Host.reduceAdd (logSigmoid4 hb (margins hs0 hs4 hb (seqSums hc hr hpos a) (seqSums hc hr hpos b)))
      (constant (F := F) ⟨0, ![]⟩ .f32 0x00000000#32) hr4 hpos))
    (constant (F := F) ⟨0, ![]⟩ .f32 0x40800000#32)

end Tail

end Cert.Dpo

end
-- ==== Proof.Sweep.lean ====
/-
  The sweep over 25 blocks of 1280 columns computes the whole row's statistics.

  For a row of 32000 finite logits a and a label word t, sweeping the blocks in order while keeping
    mx : the maximum so far,   sm : the sum so far of exp (a - mx),   lb : the logit met at the label's column so far
  and updating, at each block, mx' = max mx (block maximum), sm' = sm * exp (mx - mx') + block sum of exp (a - mx'),
  lb' = lb + block sum of the logits at the columns equal to the label, ends with the row's maximum, the row's sum of
  exponentials relative to it, and the label's logit; and lb - (mx + log sm) is then the row's log-softmax at the label.
  The rescaling law is exp (a - mx) * exp (mx - mx') = exp (a - mx'), valid because every logit is finite.
-/
import proofs.«406837_j15204184227923_3_alg».proof.Proof.Spec

noncomputable section

namespace Cert.Dpo.Sweep

open Idealize.ShloMosaic

/-- Column q of block j, as a column of the whole row. -/
def col (j : ℕ) (hj : j < 25) (q : Fin 1280) : Fin 32000 := ⟨j * 1280 + q.val, by have := q.isLt; omega⟩

/-- The columns of the first j + 1 blocks. -/
def seen (j : ℕ) : Finset (Fin 32000) := Finset.univ.filter fun v => v.val < (j + 1) * 1280

/-- What the three running numbers are after block j. -/
structure Inv (a : Fin 32000 → EReal) (t : BitVec 32) (j : ℕ) (mx sm lb : EReal) : Prop where
  hmx : mx = (seen j).fold max negInf a
  hsm : sm = ∑ v ∈ seen j, Ideal.exp (a v - mx)
  hlb : lb = ∑ v ∈ seen j, if t = BitVec.ofNat 32 v.val then a v else 0

/-! ### Auxiliary facts -/

/-- The starting value of a running maximum is the bottom of the extended reals. -/
private theorem negInf_eq : negInf = (⊥ : EReal) := by
  simp [negInf, Ideal.ofBits, Ideal.ieee]

/-- A fold of max from minus infinity is the finite supremum. -/
private theorem fold_eq_sup {ι : Type} (s : Finset ι) (f : ι → EReal) :
    s.fold max negInf f = s.sup f := by
  rw [negInf_eq]; rfl

/-- A finite sum of coerced reals is the coerced sum. -/
private theorem coe_sum {ι : Type} (s : Finset ι) (f : ι → ℝ) :
    (∑ v ∈ s, (f v : EReal)) = ((∑ v ∈ s, f v : ℝ) : EReal) := by
  classical
  induction s using Finset.induction_on with
  | empty => simp
  | insert i s hi ih => rw [Finset.sum_insert hi, Finset.sum_insert hi, ih, EReal.coe_add]

/-- The supremum of finitely many reals over a nonempty set is a real. -/
private theorem sup_real {ι : Type} (s : Finset ι) (hs : s.Nonempty) (x : ι → ℝ) :
    ∃ M : ℝ, s.sup (fun v => (x v : EReal)) = (M : EReal) := by
  obtain ⟨i, _, hi⟩ := Finset.exists_mem_eq_sup s hs (fun v => (x v : EReal))
  exact ⟨x i, hi⟩

/-- The rescaling law, summed: exp (x - M) * exp (M - M') = exp (x - M') for reals. -/
private theorem rescale {ι : Type} (s : Finset ι) (x : ι → ℝ) (M M' : ℝ) :
    (∑ v ∈ s, Ideal.exp ((x v : EReal) - (M : EReal))) * Ideal.exp ((M : EReal) - (M' : EReal))
      = ∑ v ∈ s, Ideal.exp ((x v : EReal) - (M' : EReal)) := by
  simp only [← EReal.coe_sub, Ideal.exp_coe]
  rw [coe_sum, coe_sum, ← EReal.coe_mul, Finset.sum_mul]
  congr 1
  refine Finset.sum_congr rfl fun v _ => ?_
  rw [← Real.exp_add]
  congr 1
  ring

/-- Subtracting a sum from a real: x - (M + y) = (x - M) - y for reals x, M and any extended real y. -/
private theorem sub_add_real (x M : ℝ) (y : EReal) :
    (x : EReal) - ((M : EReal) + y) = ((x : EReal) - (M : EReal)) - y := by
  induction y using EReal.rec with
  | bot => simp [← EReal.coe_sub]
  | coe r => rw [← EReal.coe_add, ← EReal.coe_sub, ← EReal.coe_sub, ← EReal.coe_sub]; congr 1; ring
  | top => simp [← EReal.coe_sub]

/-- Columns of one block are distinct. -/
private theorem col_inj (j : ℕ) (hj : j < 25) : Function.Injective (col j hj) := by
  intro q q' h
  have := congrArg Fin.val h
  simp only [col] at this
  exact Fin.ext (by omega)

/-- The first block's columns. -/
private theorem seen_zero : seen 0 = Finset.univ.image (col 0 (by omega)) := by
  ext v
  simp only [seen, Finset.mem_filter, Finset.mem_univ, true_and, Finset.mem_image]
  constructor
  · intro hv
    exact ⟨⟨v.val, by omega⟩, Fin.ext (by simp [col])⟩
  · rintro ⟨q, rfl⟩
    have := q.isLt
    simp only [col]; omega

/-- One more block: the columns seen so far and the new block's. -/
private theorem seen_succ (j : ℕ) (hj : j + 1 < 25) :
    seen (j + 1) = seen j ∪ Finset.univ.image (col (j + 1) hj) := by
  ext v
  have e : (j + 1 + 1) * 1280 = (j + 1) * 1280 + 1280 := by ring
  simp only [seen, Finset.mem_union, Finset.mem_filter, Finset.mem_univ, true_and, Finset.mem_image, e]
  clear e
  constructor
  · intro hv
    by_cases h : v.val < (j + 1) * 1280
    · exact Or.inl h
    · exact Or.inr ⟨⟨v.val - (j + 1) * 1280, by omega⟩, Fin.ext (by simp only [col]; omega)⟩
  · rintro (h | ⟨q, rfl⟩)
    · omega
    · have := q.isLt
      simp only [col]; omega

/-- The new block's columns have not been seen. -/
private theorem seen_disj (j : ℕ) (hj : j + 1 < 25) :
    Disjoint (seen j) (Finset.univ.image (col (j + 1) hj)) := by
  rw [Finset.disjoint_left]
  intro v hv hv'
  simp only [seen, Finset.mem_filter, Finset.mem_univ, true_and] at hv
  obtain ⟨q, _, rfl⟩ := Finset.mem_image.1 hv'
  simp only [col] at hv
  omega

/-- Some column has always been seen. -/
private theorem seen_nonempty (j : ℕ) : (seen j).Nonempty :=
  ⟨⟨0, by norm_num⟩, by simp [seen]⟩

/-- After the last block every column has been seen. -/
private theorem seen_last : seen 24 = Finset.univ := by
  ext v
  have := v.isLt
  simp only [seen, Finset.mem_filter, Finset.mem_univ, true_and, iff_true]
  omega

variable (a : Fin 32000 → EReal) (t : BitVec 32)

/-- The first block, from minus infinity, 0 and 0. -/
theorem first (ha : ∀ v, ∃ x : ℝ, a v = (x : EReal)) (mx' : EReal)
    (hmx' : mx' = max negInf ((Finset.univ : Finset (Fin 1280)).fold max negInf fun q => a (col 0 (by omega) q))) :
    Inv a t 0 mx'
      ((0 : EReal) * Ideal.exp (negInf - mx') + ∑ q : Fin 1280, Ideal.exp (a (col 0 (by omega) q) - mx'))
      ((0 : EReal) + ∑ q : Fin 1280, if t = BitVec.ofNat 32 (0 * 1280 + q.val) then a (col 0 (by omega) q) else 0) := by
  refine ⟨?_, ?_, ?_⟩
  · rw [hmx', fold_eq_sup, fold_eq_sup, negInf_eq, seen_zero, Finset.sup_image]
    simp only [bot_le, max_eq_right]
    rfl
  · rw [zero_mul, zero_add, seen_zero, Finset.sum_image (fun q _ q' _ h => col_inj 0 (by omega) h)]
  · rw [zero_add, seen_zero, Finset.sum_image (fun q _ q' _ h => col_inj 0 (by omega) h)]
    rfl

/-- A later block, from what the block before left. -/
theorem step (ha : ∀ v, ∃ x : ℝ, a v = (x : EReal)) (j : ℕ) (hj : j + 1 < 25) (mx sm lb : EReal) (h : Inv a t j mx sm lb) (mx' : EReal)
    (hmx' : mx' = max mx ((Finset.univ : Finset (Fin 1280)).fold max negInf fun q => a (col (j + 1) hj q))) :
    Inv a t (j + 1) mx'
      (sm * Ideal.exp (mx - mx') + ∑ q : Fin 1280, Ideal.exp (a (col (j + 1) hj q) - mx'))
      (lb + ∑ q : Fin 1280, if t = BitVec.ofNat 32 ((j + 1) * 1280 + q.val) then a (col (j + 1) hj q) else 0) := by
  obtain ⟨hmx, hsm, hlb⟩ := h
  choose x hx using ha
  rw [fold_eq_sup] at hmx hmx'
  have hmx'' : mx' = (seen (j + 1)).sup a := by
    rw [seen_succ j hj, Finset.sup_union, Finset.sup_image, hmx', hmx]
    rfl
  have ha' : a = fun v => (x v : EReal) := funext hx
  obtain ⟨M, hM⟩ := sup_real (seen j) (seen_nonempty j) x
  obtain ⟨M', hM'⟩ := sup_real (seen (j + 1)) (seen_nonempty (j + 1)) x
  rw [← ha'] at hM hM'
  have hmxM : mx = (M : EReal) := hmx.trans hM
  have hmxM' : mx' = (M' : EReal) := hmx''.trans hM'
  refine ⟨?_, ?_, ?_⟩
  · rw [fold_eq_sup]; exact hmx''
  · rw [hsm, seen_succ j hj, Finset.sum_union (seen_disj j hj),
      Finset.sum_image (fun q _ q' _ h => col_inj (j + 1) hj h), hmxM, hmxM']
    simp only [hx]
    rw [rescale]
  · rw [hlb, seen_succ j hj, Finset.sum_union (seen_disj j hj),
      Finset.sum_image (fun q _ q' _ h => col_inj (j + 1) hj h)]
    rfl

/-- After the last block the three numbers give the row's token log-probability. -/
theorem last (ha : ∀ v, ∃ x : ℝ, a v = (x : EReal)) (ht : t = ignoreWord ∨ t.toNat < 32000) (mx sm lb : EReal) (h : Inv a t 24 mx sm lb) :
    (if t = ignoreWord then (0 : EReal) else lb - (mx + Ideal.log sm)) = tokAt a t := by
  obtain ⟨hmx, hsm, hlb⟩ := h
  rw [seen_last] at hmx hsm hlb
  unfold tokAt
  by_cases hti : t = ignoreWord
  · rw [if_pos hti, if_pos hti]
  · have htl : t.toNat < 32000 := ht.resolve_left hti
    rw [if_neg hti, if_neg hti, dif_pos htl]
    choose x hx using ha
    have hmx0 : mx = rowMax a := hmx
    have hsm0 : sm = rowExpSum a := by rw [hsm, hmx0]; rfl
    have hlb0 : lb = a ⟨t.toNat, htl⟩ := by
      rw [hlb, Finset.sum_eq_single (⟨t.toNat, htl⟩ : Fin 32000)]
      · rw [if_pos]
        apply BitVec.eq_of_toNat_eq
        rw [BitVec.toNat_ofNat, Nat.mod_eq_of_lt (by omega)]
      · intro v _ hv
        rw [if_neg]
        intro htv
        apply hv
        apply Fin.ext
        have hv' := v.isLt
        show v.val = t.toNat
        rw [htv, BitVec.toNat_ofNat, Nat.mod_eq_of_lt (by omega)]
      · intro hn; exact absurd (Finset.mem_univ _) hn
    obtain ⟨M, hM⟩ : ∃ M : ℝ, rowMax a = (M : EReal) := by
      obtain ⟨M, hM⟩ := sup_real Finset.univ Finset.univ_nonempty x
      refine ⟨M, ?_⟩
      have ha' : a = fun v => (x v : EReal) := funext hx
      rw [← ha'] at hM
      rw [rowMax, fold_eq_sup]; exact hM
    unfold logSoftmaxAt
    rw [hlb0, hsm0, hmx0, hM, hx ⟨t.toNat, htl⟩, sub_add_real]

end Cert.Dpo.Sweep

end
-- ==== Proof.KStep.lean ====
/-
  One grid point's work on the three running rows, as functions of the point's blocks.

  A point holds a block of 512 input rows (x0), a block of 1280 weight rows (x1), their 1280 biases (x2) and the 512
  rows' labels (x3); it carries three columns of 512 numbers from the point before: the running maximum of the
  logits seen so far (s0), the running sum of exponentials relative to that maximum (s1), and the logit met at the
  label's column so far (s2). The point's logits are x0 against the transposed x1 plus x2.
    newMax   : the larger of s0 and the block's row maximum;
    newSum   : s1 rescaled by exp (s0 - newMax), plus the row sum of exp (logit - newMax);
    newLabel : s2 plus the row sum of the logits at the columns whose number (1280 times the point's third
               coordinate, plus the position in the block) equals the row's label;
    finish   : 0 where the label is the ignore label, else newLabel - (newMax + log newSum).
  A sweep starts from startMax (minus infinity), startSum (0) and startLabel (0).
-/
import proofs.«406837_j15204184227923_3_alg».proof.Proof.Gen.KernelIdeal.Skeleton

noncomputable section

namespace Cert.KernelIdeal.KStep

open Idealize.ShloMosaic Cert.KernelIdeal Cert.KernelIdeal.Gen

variable {F : FTy → Type} [FloatOps F]

/-- The running maximum a sweep starts from: minus infinity in every row. -/
def startMax : FVec F S512x1 .f32 := k0_pay5
/-- The running sum a sweep starts from: 0 in every row. -/
def startSum : FVec F S512x1 .f32 := k0_pay6
/-- The label's logit a sweep starts from: 0 in every row. -/
def startLabel : FVec F S512x1 .f32 := k0_pay7

/-- The running maximum after a point. -/
def newMax (x0 : Vec F S1x512x4096 .bf16) (x1 : Vec F S1x1280x4096 .bf16) (x2 : Vec F S1x1x1280 .f32)
    (s0 : Vec F S512x1 .f32) : FVec F S512x1 .f32 :=
  k0_pay1 (k0_pay10 x0 x1 x2 s0)

/-- The running sum of exponentials after a point. -/
def newSum (x0 : Vec F S1x512x4096 .bf16) (x1 : Vec F S1x1280x4096 .bf16) (x2 : Vec F S1x1x1280 .f32)
    (s0 s1 : Vec F S512x1 .f32) : FVec F S512x1 .f32 :=
  k0_pay2 (k0_pay11 x0 x1 x2 s0) (k0_pay12 x0 x1 x2 s0) s1

/-- The logit at the label's column after a point. -/
def newLabel (i : grid0.Coords) (x0 : Vec F S1x512x4096 .bf16) (x1 : Vec F S1x1280x4096 .bf16) (x2 : Vec F S1x1x1280 .f32)
    (x3 : Vec F S1x512x1 .i32) (s2 : Vec F S512x1 .f32) : FVec F S512x1 .f32 :=
  k0_pay3 (k0_pay9 i x0 x1 x2 x3) s2

/-- The block of token log-probabilities a sweep's last point writes. -/
def finish (mx sm lb : Vec F S512x1 .f32) (x3 : Vec F S1x512x1 .i32) : FVec F S1x512x1 .f32 :=
  k0_pay4 mx sm lb x3

end Cert.KernelIdeal.KStep

end
-- ==== Proof.LibRowReduce.lean ====
/-
  ROW-WISE REDUCTIONS OF A MATRIX, AND THEIR KEEPDIMS RE-LAYING, READ AT AN INDEX (at the ideal instance).

  For an [a, b] array x:
  * a lane reduction over the last axis (vector.multi_reduction over [1]) read at row p: with a maximum body the fold
    of max from the accumulator's value over the row's b entries (`multiReduction_maximumf_rows`), with an add body
    the sum of the row's entries (`multiReduction_add_rows`);
  * the host's reduce over the last axis read at row p: with a maximum body the same fold from the initial value's
    element (`hostReduce_maximumf_rows`), with an add body the initial value plus the row's sum
    (`hostReduceAdd_rows`);
  * the keepdims forms: an [a] array cast to [a, 1] reads, at (p, z), entry p (`shapeCast_a_a1_apply`); an [a, 1]
    array broadcast to [a, b] reads, at (p, c), entry (p, 0) (`broadcastTo_a1_ab_apply`); and the host's two
    broadcast_in_dim forms of the same, [a] to [a, 1] along axis 0 (`broadcastInDim_a_a1_apply`) and [a, 1] to
    [a, b] along both axes (`broadcastInDim_a1_ab_apply`), a [b] array to one row [1, b] along axis 1
    (`broadcastInDim_b_1b_apply`), one row [1, b] to [a, b] (`broadcastInDim_1b_ab_apply`), a scalar to any shape
    (`broadcastInDim_scalar_apply`).
  In each reduction the index of the reduced array with coordinate k of the dropped axis put back is (p, k)
  (`lift_rows`).
-/
import Idealize.ShloMosaic.PureOps.Ideal.Laws
import Idealize.ShloMosaic.Lib.ValueIdx
import Idealize.ShloMosaic.Lib.Pipeline.Value

noncomputable section

namespace Idealize.ShloMosaic.RowReduce

open Idealize.ShloMosaic Idealize.ShloMosaic.ValueIdx

variable {α : Type}

/-! ## The keepdims forms -/

/-- An [a] array cast to [a, 1] reads, at (p, z), entry p. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- An [a, 1] array broadcast to [a, b] reads, at (p, c), the operand's entry (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of an [a] array to [a, 1] along axis 0 reads, at (p, z), entry p. -/
theorem broadcastInDim_a_a1_apply {a : ℕ} (x : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h x (ix2 p z) = x (ix1 p) := by
  refine broadcastInDim_apply _ h x (ix2 p z) (ix1 p) fun ax => ?_
  match ax with
  | ⟨0, _⟩ =>
    show p.val = if a = 1 then 0 else p.val
    split
    · have := p.isLt; omega
    · rfl

/-- The host's broadcast of an [a, 1] array to [a, b] along both axes reads, at (p, c), entry (p, 0). -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a [b] array to one row [1, b] along axis 1 reads, at (u, c), entry c. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of one row [1, b] to [a, b] along both axes reads, at (p, c), the row's entry c. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar's one element at every index. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-! ## Reductions over the last axis -/

/-- Row p of the reduced array with column k put back is (p, k). -/
theorem lift_rows {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

variable {φ : FTy}

/-- A lane reduction with a maximum body over the last axis, at row p: the fold of max over the row from the
    accumulator's value. -/
theorem multiReduction_maximumf_rows {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  rw [Ideal.multiReduction_maximumf_single]
  have hf : (src ∘ h.lift (ix1 p)) = fun k : Fin b => src (ix2 p k) := funext fun k => congrArg src (lift_rows h p k)
  exact congrArg (fun f => Finset.fold max (Ideal.ofBits φ acc) f (Finset.univ : Finset (Fin b))) hf

/-- A lane reduction with an add body over the last axis, at row p: the sum of the row. -/
theorem multiReduction_add_rows {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_rows h p k)

/-- The host's reduce with a maximum body over the last axis, at row p: the fold of max over the row from the initial
    value's element. -/
theorem hostReduce_maximumf_rows {a b : ℕ} {u : Shape} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) := funext fun k => congrArg x (lift_rows h p k)
  exact congrArg (fun f => Finset.fold max (init (Shape.Idx.first hu)) f (Finset.univ : Finset (Fin b))) hf

/-- The host's reduce with an add body over the last axis, at row p: the initial value's element plus the row's sum. -/
theorem hostReduceAdd_rows {a b : ℕ} {u : Shape} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (p : Fin a) :
    Host.reduceAdd x init h' hu (ix1 p) = init (Shape.Idx.first hu) + ∑ k : Fin b, x (ix2 p k) := by
  simp only [Host.reduceAdd, Ideal.hostReduceAdd_def]
  rw [Ideal.hostReduceAdd_single h' h]
  exact congrArg (_ + ·) (Finset.sum_congr rfl fun k _ => congrArg x (lift_rows h p k))

end Idealize.ShloMosaic.RowReduce

end
-- ==== Proof.KPay.lean ====
/-
  One grid point's work read at a row, at the ideal instance (floats are extended reals, operations exact).

  The point's logit at row p and block column q is the sum over h of x0(p, h) * x1(q, h), plus the bias x2(q). At row p:
  the new maximum is the larger of the old one and the maximum of the row's 1280 logits; the new sum is the old one
  times exp (old maximum - new maximum) plus the sum of exp (logit - new maximum); the label's logit grows by the logits
  at the columns whose number, 1280 times the point's third coordinate plus q, is the row's label word; and the block
  written at the end of a sweep is 0 at the ignore label and label's logit - (maximum + log sum) elsewhere.
-/
import proofs.«406837_j15204184227923_3_alg».proof.Proof.KStep
import proofs.«406837_j15204184227923_3_alg».proof.Proof.Spec
import proofs.«406837_j15204184227923_3_alg».proof.Proof.LibRowReduce
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KPay

open Idealize.ShloMosaic Idealize.ShloMosaic.ValueIdx Cert.KernelIdeal Cert.KernelIdeal.Gen

/-- The point's logit at row p of the input block and column q of the weight block. -/
def blockLogit (x0 : Vec Ideal S1x512x4096 .bf16) (x1 : Vec Ideal S1x1280x4096 .bf16) (x2 : Vec Ideal S1x1x1280 .f32)
    (p : Fin 512) (q : Fin 1280) : EReal :=
  (∑ h : Fin 4096, x0 (ix3 (0 : Fin 1) p h) * x1 (ix3 (0 : Fin 1) q h)) + x2 (ix3 (0 : Fin 1) (0 : Fin 1) q)

variable (x0 : Vec Ideal S1x512x4096 .bf16) (x1 : Vec Ideal S1x1280x4096 .bf16) (x2 : Vec Ideal S1x1x1280 .f32)
  (x3 : Vec Ideal S1x512x1 .i32) (s0 s1 s2 : Vec Ideal S512x1 .f32) (p : Fin 512)

/-! ## The product's operand indices, axis by axis -/

private theorem lhs_axis0 (j : S512x1280.Idx) (k : dot_S512x4096_S1280x4096_S512x1280_1_1_0_0_n_n.contr.Idx) :
    (dot_S512x4096_S1280x4096_S512x1280_1_1_0_0_n_n.lhsIdx j k 0).val = (j 0).val := by
  unfold DotDims.lhsIdx
  rw [dif_neg (show ¬(0 : Fin S512x4096.rank) ∈ dot_S512x4096_S1280x4096_S512x1280_1_1_0_0_n_n.lhsBatch by decide),
    dif_pos (show (0 : Fin S512x4096.rank) ∈ dot_S512x4096_S1280x4096_S512x1280_1_1_0_0_n_n.lhsNonContracting by decide)]
  rfl

private theorem lhs_axis1 (j : S512x1280.Idx) (k : dot_S512x4096_S1280x4096_S512x1280_1_1_0_0_n_n.contr.Idx) :
    (dot_S512x4096_S1280x4096_S512x1280_1_1_0_0_n_n.lhsIdx j k 1).val = (k ⟨0, by decide⟩).val :=
  dot_S512x4096_S1280x4096_S512x1280_1_1_0_0_n_n.lhsIdx_val_of_single rfl j k

private theorem rhs_axis0 (j : S512x1280.Idx) (k : dot_S512x4096_S1280x4096_S512x1280_1_1_0_0_n_n.contr.Idx) :
    (dot_S512x4096_S1280x4096_S512x1280_1_1_0_0_n_n.rhsIdx j k 0).val = (j 1).val := by
  unfold DotDims.rhsIdx
  rw [dif_neg (show ¬(0 : Fin S1280x4096.rank) ∈ dot_S512x4096_S1280x4096_S512x1280_1_1_0_0_n_n.rhsBatch by decide),
    dif_pos (show (0 : Fin S1280x4096.rank) ∈ dot_S512x4096_S1280x4096_S512x1280_1_1_0_0_n_n.rhsNonContracting by decide)]
  rfl

private theorem rhs_axis1 (j : S512x1280.Idx) (k : dot_S512x4096_S1280x4096_S512x1280_1_1_0_0_n_n.contr.Idx) :
    (dot_S512x4096_S1280x4096_S512x1280_1_1_0_0_n_n.rhsIdx j k 1).val = (k ⟨0, by decide⟩).val :=
  dot_S512x4096_S1280x4096_S512x1280_1_1_0_0_n_n.rhsIdx_val_of_single rfl j k

/-- The product of a [512, 4096] array against a [1280, 4096] array along the second axis of both, into the zero
    splat, at (p, q): the sum over h of A (p, h) * B (q, h). -/
private theorem matmul_at (A : FVec Ideal S512x4096 .bf16) (B : FVec Ideal S1280x4096 .bf16) (p : Fin 512) (q : Fin 1280) :
    matmul dot_S512x4096_S1280x4096_S512x1280_1_1_0_0_n_n none A B (constant (F := Ideal) S512x1280 .f32 0x00000000#32) (ix2 p q)
      = ∑ h : Fin 4096, A (ix2 p h) * B (ix2 q h) := by
  refine (Ideal.matmul_constant_zero_apply dot_S512x4096_S1280x4096_S512x1280_1_1_0_0_n_n none A B (ix2 p q)).trans ?_
  rw [← Equiv.sum_comp (contrEquiv1 dot_S512x4096_S1280x4096_S512x1280_1_1_0_0_n_n 4096 rfl rfl).symm]
  refine Finset.sum_congr rfl fun h _ => ?_
  have hk := contrEquiv1_symm_val dot_S512x4096_S1280x4096_S512x1280_1_1_0_0_n_n 4096 rfl rfl h
  have el : dot_S512x4096_S1280x4096_S512x1280_1_1_0_0_n_n.lhsIdx (ix2 p q)
      ((contrEquiv1 dot_S512x4096_S1280x4096_S512x1280_1_1_0_0_n_n 4096 rfl rfl).symm h) = ix2 p h :=
    funext fun a => Fin.ext (by
      match a with
      | ⟨0, _⟩ => exact lhs_axis0 _ _
      | ⟨1, _⟩ => exact (lhs_axis1 _ _).trans hk)
  have er : dot_S512x4096_S1280x4096_S512x1280_1_1_0_0_n_n.rhsIdx (ix2 p q)
      ((contrEquiv1 dot_S512x4096_S1280x4096_S512x1280_1_1_0_0_n_n 4096 rfl rfl).symm h) = ix2 q h :=
    funext fun a => Fin.ext (by
      match a with
      | ⟨0, _⟩ => exact rhs_axis0 _ _
      | ⟨1, _⟩ => exact (rhs_axis1 _ _).trans hk)
  rw [el, er]

/-! ## The block's logits at (p, q) -/

/-- The logits' term at (p, q), with the pointwise sum read at the index. -/
private theorem pay8_unfold (q : Fin 1280) :
    k0_pay8 x0 x1 x2 (ix2 p q)
      = matmul dot_S512x4096_S1280x4096_S512x1280_1_1_0_0_n_n none
            (shapeCast S512x4096 x0 shapeCasts_S1x512x4096_S512x4096 : FVec Ideal S512x4096 .bf16)
            (shapeCast S1280x4096 x1 shapeCasts_S1x1280x4096_S1280x4096 : FVec Ideal S1280x4096 .bf16)
            (constant (F := Ideal) S512x1280 .f32 0x00000000#32) (ix2 p q)
        + broadcastTo S512x1280 (shapeCast S1x1280 x2 shapeCasts_S1x1x1280_S1x1280) broadcasts_S1x1280_S512x1280 (ix2 p q) :=
  rfl

/-- The block's logits at (p, q). -/
private theorem blockLogits_apply (q : Fin 1280) : k0_pay8 x0 x1 x2 (ix2 p q) = blockLogit x0 x1 x2 p q := by
  rw [pay8_unfold, matmul_at, broadcastTo_1b_ab_apply, shapeCast_1ab_ab_apply]
  unfold blockLogit
  refine congrArg (· + _) (Finset.sum_congr rfl fun h _ => ?_)
  rw [shapeCast_1ab_ab_apply, shapeCast_1ab_ab_apply]

/-! ## Words -/

/-- A select on the bit of an equality test is the `if` on the equality. -/
private theorem select_cmpi_eq {α : Type} {w : Nat} (a b : BitVec w) (A B : α) :
    Scalar.select (IntOp.cmpi .eq a b) A B = if a = b then A else B := by
  by_cases h : a = b
  · simp [IntOp.cmpi, Scalar.select, h]
  · have hb : (a == b) = false := by simpa using h
    simp [IntOp.cmpi, Scalar.select, h, hb]

/-- The column number of position q in the block of a point whose third coordinate is n, as a 32-bit word. -/
private theorem colWord (n q : Nat) :
    IntOp.addi (Scalar.muli (BitVec.ofNat 32 n) 1280#32) (BitVec.ofNat 32 q) = BitVec.ofNat 32 (n * 1280 + q) := by
  show BitVec.ofNat 32 n * BitVec.ofNat 32 1280 + BitVec.ofNat 32 q = _
  rw [← BitVec.ofNat_mul, ← BitVec.ofNat_add]

/-! ### The running maximum -/

private theorem newMax_eq : KStep.newMax x0 x1 x2 s0 = k0_pay10 x0 x1 x2 s0 :=
  shapeCast_self (k0_pay10 x0 x1 x2 s0) shapeCasts_S512x1_S512x1

/-- The lane maximum of the block's logits at row p. -/
private theorem rowMax_apply :
    shapeCast S512x1 (multiReduction (F := Ideal) .maximumf [1] S512 (k0_pay8 x0 x1 x2) 0xFF800000#32
        reduces_S512x1280_S512 (.inl rfl) rfl) shapeCasts_S512_S512x1 (ix2 p (0 : Fin 1))
      = (Finset.univ : Finset (Fin 1280)).fold max Cert.Dpo.negInf fun q => blockLogit x0 x1 x2 p q := by
  refine (RowReduce.shapeCast_a_a1_apply _ shapeCasts_S512_S512x1 p (0 : Fin 1)).trans ?_
  refine (RowReduce.multiReduction_maximumf_rows (k0_pay8 x0 x1 x2) 0xFF800000#32 reduces_S512x1280_S512 (.inl rfl) rfl p).trans ?_
  exact congrArg (fun f => Finset.fold max Cert.Dpo.negInf f (Finset.univ : Finset (Fin 1280)))
    (funext fun q => blockLogits_apply x0 x1 x2 p q)

private theorem pay10_apply :
    k0_pay10 x0 x1 x2 s0 (ix2 p (0 : Fin 1))
      = max (s0 (ix2 p (0 : Fin 1))) ((Finset.univ : Finset (Fin 1280)).fold max Cert.Dpo.negInf fun q => blockLogit x0 x1 x2 p q) :=
  congrArg (max (s0 (ix2 p (0 : Fin 1)))) (rowMax_apply x0 x1 x2 p)

/-! ### The running sum of exponentials -/

private theorem newSum_eq (t1 : FVec Ideal S512x1 .f32) :
    KStep.newSum x0 x1 x2 s0 t1
      = addf (mulf t1 (k0_pay11 x0 x1 x2 s0))
          (shapeCast S512x1 (multiReduction (F := Ideal) .add [1] S512 (k0_pay12 x0 x1 x2 s0) 0x00000000#32
            reduces_S512x1280_S512 (.inl rfl) rfl) shapeCasts_S512_S512x1) :=
  shapeCast_self (addf (mulf t1 (k0_pay11 x0 x1 x2 s0))
          (shapeCast S512x1 (multiReduction (F := Ideal) .add [1] S512 (k0_pay12 x0 x1 x2 s0) 0x00000000#32
            reduces_S512x1280_S512 (.inl rfl) rfl) shapeCasts_S512_S512x1)) shapeCasts_S512x1_S512x1

/-- The exponentials' term at (p, q). -/
private theorem pay12_apply (q : Fin 1280) :
    k0_pay12 x0 x1 x2 s0 (ix2 p q) = Ideal.exp (blockLogit x0 x1 x2 p q - k0_pay10 x0 x1 x2 s0 (ix2 p (0 : Fin 1))) := by
  have e : k0_pay12 x0 x1 x2 s0 (ix2 p q)
      = Ideal.exp (k0_pay8 x0 x1 x2 (ix2 p q)
          - broadcastTo S512x1280 (k0_pay10 x0 x1 x2 s0) broadcasts_S512x1_S512x1280 (ix2 p q)) := rfl
  rw [e, RowReduce.broadcastTo_a1_ab_apply, blockLogits_apply]

/-- The lane sum of the exponentials at row p. -/
private theorem rowExpSum_apply :
    shapeCast S512x1 (multiReduction (F := Ideal) .add [1] S512 (k0_pay12 x0 x1 x2 s0) 0x00000000#32
        reduces_S512x1280_S512 (.inl rfl) rfl) shapeCasts_S512_S512x1 (ix2 p (0 : Fin 1))
      = ∑ q : Fin 1280, Ideal.exp (blockLogit x0 x1 x2 p q - k0_pay10 x0 x1 x2 s0 (ix2 p (0 : Fin 1))) := by
  refine (RowReduce.shapeCast_a_a1_apply _ shapeCasts_S512_S512x1 p (0 : Fin 1)).trans ?_
  refine (RowReduce.multiReduction_add_rows (k0_pay12 x0 x1 x2 s0) 0x00000000#32 reduces_S512x1280_S512 (.inl rfl) rfl p).trans ?_
  exact Finset.sum_congr rfl fun q _ => pay12_apply x0 x1 x2 s0 p q

/-! ### The label's logit -/

/-- The block's logits kept at the columns whose number is the row's label word, 0 elsewhere. -/
private def maskedLogits (i : grid0.Coords) (x0 : Vec Ideal S1x512x4096 .bf16) (x1 : Vec Ideal S1x1280x4096 .bf16)
    (x2 : Vec Ideal S1x1x1280 .f32) (x3 : Vec Ideal S1x512x1 .i32) : FVec Ideal S512x1280 .f32 :=
  select
    (cmpi .eq
      (broadcastTo S512x1280 (shapeCast S512x1 x3 shapeCasts_S1x512x1_S512x1 : IVec S512x1 32) broadcasts_S512x1_S512x1280)
      (broadcastTo S512x1280
        (addi (broadcast S1x1280 (Scalar.muli (BitVec.ofNat 32 (i 2).val) 1280#32))
          (iota .tc S1x1280 32 [1] iota_S1x1280_d1_w32)) broadcasts_S1x1280_S512x1280))
    (k0_pay8 x0 x1 x2) (broadcast S512x1280 (Ideal.ofBits .f32 0x00000000#32))

private theorem pay9_eq (i : grid0.Coords) :
    k0_pay9 i x0 x1 x2 x3
      = shapeCast S512x1 (multiReduction (F := Ideal) .add [1] S512 (maskedLogits i x0 x1 x2 x3) 0x00000000#32
          reduces_S512x1280_S512 (.inl rfl) rfl) shapeCasts_S512_S512x1 := rfl

private theorem maskedLogits_apply (i : grid0.Coords) (q : Fin 1280) :
    maskedLogits i x0 x1 x2 x3 (ix2 p q)
      = if x3 (ix3 (0 : Fin 1) p (0 : Fin 1)) = BitVec.ofNat 32 ((i 2).val * 1280 + q.val) then blockLogit x0 x1 x2 p q else 0 := by
  have e : maskedLogits i x0 x1 x2 x3 (ix2 p q)
      = Scalar.select
          (IntOp.cmpi .eq
            (broadcastTo S512x1280 (shapeCast S512x1 x3 shapeCasts_S1x512x1_S512x1 : IVec S512x1 32) broadcasts_S512x1_S512x1280 (ix2 p q))
            (broadcastTo S512x1280
              (addi (broadcast S1x1280 (Scalar.muli (BitVec.ofNat 32 (i 2).val) 1280#32))
                (iota .tc S1x1280 32 [1] iota_S1x1280_d1_w32)) broadcasts_S1x1280_S512x1280 (ix2 p q)))
          (k0_pay8 x0 x1 x2 (ix2 p q)) (Ideal.ofBits .f32 0x00000000#32) := rfl
  have e2 : addi (broadcast S1x1280 (Scalar.muli (BitVec.ofNat 32 (i 2).val) 1280#32))
        (iota .tc S1x1280 32 [1] iota_S1x1280_d1_w32) (ix2 (0 : Fin 1) q)
      = IntOp.addi (Scalar.muli (BitVec.ofNat 32 (i 2).val) 1280#32)
          (iota .tc S1x1280 32 [1] iota_S1x1280_d1_w32 (ix2 (0 : Fin 1) q)) := rfl
  have e3 : iota .tc S1x1280 32 [1] iota_S1x1280_d1_w32 (ix2 (0 : Fin 1) q) = BitVec.ofNat 32 q.val :=
    iota_single_apply .tc S1x1280 32 1 iota_S1x1280_d1_w32 (ix2 (0 : Fin 1) q)
  rw [e, RowReduce.broadcastTo_a1_ab_apply, shapeCast_1ab_ab_apply, broadcastTo_1b_ab_apply, e2, e3, colWord,
    select_cmpi_eq, blockLogits_apply, Ideal.ofBits_zero_f32]

private theorem newLabel_eq (i : grid0.Coords) (t2 : FVec Ideal S512x1 .f32) :
    KStep.newLabel i x0 x1 x2 x3 t2 = addf t2 (k0_pay9 i x0 x1 x2 x3) :=
  shapeCast_self (addf t2 (k0_pay9 i x0 x1 x2 x3)) shapeCasts_S512x1_S512x1

/-! ### The block written at the end of a sweep -/

/-- The finalisation as a column of 512 numbers, before it is laid out as a [1, 512, 1] block. -/
private def finishCol (mx sm lb : Vec Ideal S512x1 .f32) (x3 : Vec Ideal S1x512x1 .i32) : FVec Ideal S512x1 .f32 :=
  select (cmpi .eq (shapeCast S512x1 x3 shapeCasts_S1x512x1_S512x1 : IVec S512x1 32) (broadcast S512x1 4294967196#32))
    (broadcast S512x1 (Ideal.ofBits .f32 0x00000000#32)) (subf lb (addf mx (log sm)))

private theorem finish_eq (mx sm lb : Vec Ideal S512x1 .f32) :
    KStep.finish mx sm lb x3 = shapeCast S1x512x1 (finishCol mx sm lb x3) shapeCasts_S512x1_S1x512x1 := rfl

/-! ## The seven readings -/

theorem startMax_apply : KStep.startMax (F := Ideal) (ix2 p (0 : Fin 1)) = Cert.Dpo.negInf := by
  exact congrFun (shapeCast_self (broadcast S512x1 (Ideal.ofBits .f32 0xFF800000#32)) shapeCasts_S512x1_S512x1)
    (ix2 p (0 : Fin 1))

theorem startSum_apply : KStep.startSum (F := Ideal) (ix2 p (0 : Fin 1)) = 0 := by
  exact (congrFun (shapeCast_self (broadcast S512x1 (Ideal.ofBits .f32 0x00000000#32)) shapeCasts_S512x1_S512x1)
    (ix2 p (0 : Fin 1))).trans Ideal.ofBits_zero_f32

theorem startLabel_apply : KStep.startLabel (F := Ideal) (ix2 p (0 : Fin 1)) = 0 := by
  exact (congrFun (shapeCast_self (broadcast S512x1 (Ideal.ofBits .f32 0x00000000#32)) shapeCasts_S512x1_S512x1)
    (ix2 p (0 : Fin 1))).trans Ideal.ofBits_zero_f32

theorem newMax_apply :
    KStep.newMax x0 x1 x2 s0 (ix2 p (0 : Fin 1))
      = max (s0 (ix2 p (0 : Fin 1))) ((Finset.univ : Finset (Fin 1280)).fold max Cert.Dpo.negInf fun q => blockLogit x0 x1 x2 p q) := by
  rw [newMax_eq]
  exact pay10_apply x0 x1 x2 s0 p

theorem newSum_apply :
    KStep.newSum x0 x1 x2 s0 s1 (ix2 p (0 : Fin 1))
      = s1 (ix2 p (0 : Fin 1)) * Ideal.exp (s0 (ix2 p (0 : Fin 1)) - KStep.newMax x0 x1 x2 s0 (ix2 p (0 : Fin 1)))
        + ∑ q : Fin 1280, Ideal.exp (blockLogit x0 x1 x2 p q - KStep.newMax x0 x1 x2 s0 (ix2 p (0 : Fin 1))) := by
  rw [newSum_eq, newMax_eq]
  have e : ∀ (t1 c : FVec Ideal S512x1 .f32) (j : S512x1.Idx),
      addf (mulf t1 (k0_pay11 x0 x1 x2 s0)) c j
        = t1 j * Ideal.exp (s0 j - k0_pay10 x0 x1 x2 s0 j) + c j := fun _ _ _ => rfl
  rw [e, rowExpSum_apply]

theorem newLabel_apply (i : grid0.Coords) :
    KStep.newLabel i x0 x1 x2 x3 s2 (ix2 p (0 : Fin 1))
      = s2 (ix2 p (0 : Fin 1))
        + ∑ q : Fin 1280, if x3 (ix3 (0 : Fin 1) p (0 : Fin 1)) = BitVec.ofNat 32 ((i 2).val * 1280 + q.val) then blockLogit x0 x1 x2 p q else 0 := by
  rw [newLabel_eq, pay9_eq]
  refine congrArg (s2 (ix2 p (0 : Fin 1)) + ·) ?_
  refine (RowReduce.shapeCast_a_a1_apply _ shapeCasts_S512_S512x1 p (0 : Fin 1)).trans ?_
  refine (RowReduce.multiReduction_add_rows (maskedLogits i x0 x1 x2 x3) 0x00000000#32 reduces_S512x1280_S512 (.inl rfl) rfl p).trans ?_
  exact Finset.sum_congr rfl fun q _ => maskedLogits_apply x0 x1 x2 x3 p i q

theorem finish_apply (mx sm lb : Vec Ideal S512x1 .f32) :
    KStep.finish mx sm lb x3 (ix3 (0 : Fin 1) p (0 : Fin 1))
      = if x3 (ix3 (0 : Fin 1) p (0 : Fin 1)) = Cert.Dpo.ignoreWord then (0 : EReal)
        else lb (ix2 p (0 : Fin 1)) - (mx (ix2 p (0 : Fin 1)) + Ideal.log (sm (ix2 p (0 : Fin 1)))) := by
  have e : finishCol mx sm lb x3 (ix2 p (0 : Fin 1))
      = Scalar.select (IntOp.cmpi .eq ((shapeCast S512x1 x3 shapeCasts_S1x512x1_S512x1 : IVec S512x1 32) (ix2 p (0 : Fin 1))) 4294967196#32)
          (Ideal.ofBits .f32 0x00000000#32)
          (lb (ix2 p (0 : Fin 1)) - (mx (ix2 p (0 : Fin 1)) + Ideal.log (sm (ix2 p (0 : Fin 1))))) := rfl
  rw [finish_eq, shapeCast_ab_1ab_apply, e, shapeCast_1ab_ab_apply, select_cmpi_eq, Ideal.ofBits_zero_f32]

end Cert.KernelIdeal.KPay

end
-- ==== Proof.KPieces.lean ====
/-
  What each kind of grid point leaves in the three carried columns, and what the last point of a sweep writes out,
  as the step functions of the point's blocks and of the columns it found.

  A sweep's first point resets the three columns (to minus infinity, 0 and 0) before it uses them, so it depends on
  nothing carried; a later point uses what the point before left. Each column is stored whole, once or twice (a reset,
  then the update), and a later store covers an earlier one, so what is left is the last stored value; the loads that
  follow a store in the same point read that stored value back.
-/
import proofs.«406837_j15204184227923_3_alg».proof.Proof.Gen.KernelIdeal.Frame
import proofs.«406837_j15204184227923_3_alg».proof.Proof.KStep
import Idealize.ShloMosaic.Lib.Pipeline.Value

set_option maxRecDepth 16384

noncomputable section

namespace Cert.KernelIdeal.KPieces

open Idealize.ShloMosaic Idealize.ShloMosaic.TcCoe Idealize.ShloMosaic.Tactic Idealize.SL.Sem
open Cert.KernelIdeal Cert.KernelIdeal.Gen

variable {F : FTy → Type} [FloatOps F]

/-- The offset of a whole two-axis block: zero along both axes. -/
private theorem zeros2 : (![0, 0] : Fin 2 → Nat) = fun _ => 0 := funext fun a => by fin_cases a <;> rfl

/-- The offset of a whole three-axis block: zero along the three axes. -/
private theorem zeros3 : (![0, 0, 0] : Fin 3 → Nat) = fun _ => 0 := funext fun a => by fin_cases a <;> rfl

/-! ## Case A: the first point of a sweep (the three columns start afresh) -/

/-- The running maximum this case leaves. -/
theorem sout_A_0 (c : Dev nD) (i : grid0.Coords) (arg3 : Memref sig .tc .vmem S1x512x4096 .bf16) (harg3 : arg3.IsWhole) (arg4 : Memref sig .tc .vmem S1x1280x4096 .bf16) (harg4 : arg4.IsWhole) (arg5 : Memref sig .tc .vmem S1x1x1280 .f32) (harg5 : arg5.IsWhole) (arg6 : Memref sig .tc .vmem S1x512x1 .i32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S1x512x4096 .bf16) (x1 : Vec F S1x1280x4096 .bf16) (x2 : Vec F S1x1x1280 .f32) (x3 : Vec F S1x512x1 .i32) :
    sout0_A_0 c i arg3 harg3 arg4 harg4 arg5 harg5 arg6 harg6 arg7 harg7 arg8 harg8 arg9 harg9 arg10 harg10 hc0 hc1 x0 x1 x2 x3 = KStep.newMax x0 x1 x2 KStep.startMax := by
  -- two whole-column stores, the later one (the update) covering the reset; the update's loads read the reset value back
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S512x1) zeros2]
  simp only [View.readAt_eq_ld, harg3.read_unread, harg4.read_unread, harg5.read_unread, harg6.read_unread,
    harg8.read_unread, harg9.read_unread, harg10.read_unread, View.ld_unit_zero (S := S512x1) zeros2,
    View.ld_unit_zero (S := S1x512x4096) zeros3, View.ld_unit_zero (S := S1x1280x4096) zeros3,
    View.ld_unit_zero (S := S1x1x1280) zeros3, View.ld_unit_zero (S := S1x512x1) zeros3,
    View.readCov_unit_zero (S := S512x1) _ zeros2]
  rfl

/-- The running sum this case leaves. -/
theorem sout_A_1 (c : Dev nD) (i : grid0.Coords) (arg3 : Memref sig .tc .vmem S1x512x4096 .bf16) (harg3 : arg3.IsWhole) (arg4 : Memref sig .tc .vmem S1x1280x4096 .bf16) (harg4 : arg4.IsWhole) (arg5 : Memref sig .tc .vmem S1x1x1280 .f32) (harg5 : arg5.IsWhole) (arg6 : Memref sig .tc .vmem S1x512x1 .i32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S1x512x4096 .bf16) (x1 : Vec F S1x1280x4096 .bf16) (x2 : Vec F S1x1x1280 .f32) (x3 : Vec F S1x512x1 .i32) :
    sout0_A_1 c i arg3 harg3 arg4 harg4 arg5 harg5 arg6 harg6 arg7 harg7 arg8 harg8 arg9 harg9 arg10 harg10 hc0 hc1 x0 x1 x2 x3 = KStep.newSum x0 x1 x2 KStep.startMax KStep.startSum := by
  -- two whole-column stores, the later one (the update) covering the reset; the update's loads read the reset value back
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S512x1) zeros2]
  simp only [View.readAt_eq_ld, harg3.read_unread, harg4.read_unread, harg5.read_unread, harg6.read_unread,
    harg8.read_unread, harg9.read_unread, harg10.read_unread, View.ld_unit_zero (S := S512x1) zeros2,
    View.ld_unit_zero (S := S1x512x4096) zeros3, View.ld_unit_zero (S := S1x1280x4096) zeros3,
    View.ld_unit_zero (S := S1x1x1280) zeros3, View.ld_unit_zero (S := S1x512x1) zeros3,
    View.readCov_unit_zero (S := S512x1) _ zeros2]
  rfl

/-- The label's logit this case leaves. -/
theorem sout_A_2 (c : Dev nD) (i : grid0.Coords) (arg3 : Memref sig .tc .vmem S1x512x4096 .bf16) (harg3 : arg3.IsWhole) (arg4 : Memref sig .tc .vmem S1x1280x4096 .bf16) (harg4 : arg4.IsWhole) (arg5 : Memref sig .tc .vmem S1x1x1280 .f32) (harg5 : arg5.IsWhole) (arg6 : Memref sig .tc .vmem S1x512x1 .i32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S1x512x4096 .bf16) (x1 : Vec F S1x1280x4096 .bf16) (x2 : Vec F S1x1x1280 .f32) (x3 : Vec F S1x512x1 .i32) :
    sout0_A_2 c i arg3 harg3 arg4 harg4 arg5 harg5 arg6 harg6 arg7 harg7 arg8 harg8 arg9 harg9 arg10 harg10 hc0 hc1 x0 x1 x2 x3 = KStep.newLabel i x0 x1 x2 x3 KStep.startLabel := by
  -- two whole-column stores, the later one (the update) covering the reset; the update's loads read the reset value back
  unfold sout0_A_2
  rw [View.read_writes_eq_canon _ _ _ (scover0_A_2 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S512x1) zeros2]
  simp only [View.readAt_eq_ld, harg3.read_unread, harg4.read_unread, harg5.read_unread, harg6.read_unread,
    harg8.read_unread, harg9.read_unread, harg10.read_unread, View.ld_unit_zero (S := S512x1) zeros2,
    View.ld_unit_zero (S := S1x512x4096) zeros3, View.ld_unit_zero (S := S1x1280x4096) zeros3,
    View.ld_unit_zero (S := S1x1x1280) zeros3, View.ld_unit_zero (S := S1x512x1) zeros3,
    View.readCov_unit_zero (S := S512x1) _ zeros2]
  rfl

/-! ## Case B: a middle point of a sweep -/

/-- The running maximum this case leaves. -/
theorem sout_B_0 (c : Dev nD) (i : grid0.Coords) (arg3 : Memref sig .tc .vmem S1x512x4096 .bf16) (harg3 : arg3.IsWhole) (arg4 : Memref sig .tc .vmem S1x1280x4096 .bf16) (harg4 : arg4.IsWhole) (arg5 : Memref sig .tc .vmem S1x1x1280 .f32) (harg5 : arg5.IsWhole) (arg6 : Memref sig .tc .vmem S1x512x1 .i32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S1x512x4096 .bf16) (x1 : Vec F S1x1280x4096 .bf16) (x2 : Vec F S1x1x1280 .f32) (x3 : Vec F S1x512x1 .i32) (xs0 : Vec F S512x1 .f32) (xs1 : Vec F S512x1 .f32) (xs2 : Vec F S512x1 .f32) :
    sout0_B_0 c i arg3 harg3 arg4 harg4 arg5 harg5 arg6 harg6 arg7 harg7 arg8 harg8 arg9 harg9 arg10 harg10 hc0 hc1 x0 x1 x2 x3 xs0 xs1 xs2 = KStep.newMax x0 x1 x2 xs0 := by
  -- one whole-column store; its loads read the whole blocks and the carried columns
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero zeros2]
  simp only [View.readAt_eq_ld, harg3.read_unread, harg4.read_unread, harg5.read_unread, harg6.read_unread,
    harg8.read_unread, harg9.read_unread, harg10.read_unread, View.ld_unit_zero (S := S512x1) zeros2,
    View.ld_unit_zero (S := S1x512x4096) zeros3, View.ld_unit_zero (S := S1x1280x4096) zeros3,
    View.ld_unit_zero (S := S1x1x1280) zeros3, View.ld_unit_zero (S := S1x512x1) zeros3]
  rfl

/-- The running sum this case leaves. -/
theorem sout_B_1 (c : Dev nD) (i : grid0.Coords) (arg3 : Memref sig .tc .vmem S1x512x4096 .bf16) (harg3 : arg3.IsWhole) (arg4 : Memref sig .tc .vmem S1x1280x4096 .bf16) (harg4 : arg4.IsWhole) (arg5 : Memref sig .tc .vmem S1x1x1280 .f32) (harg5 : arg5.IsWhole) (arg6 : Memref sig .tc .vmem S1x512x1 .i32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S1x512x4096 .bf16) (x1 : Vec F S1x1280x4096 .bf16) (x2 : Vec F S1x1x1280 .f32) (x3 : Vec F S1x512x1 .i32) (xs0 : Vec F S512x1 .f32) (xs1 : Vec F S512x1 .f32) (xs2 : Vec F S512x1 .f32) :
    sout0_B_1 c i arg3 harg3 arg4 harg4 arg5 harg5 arg6 harg6 arg7 harg7 arg8 harg8 arg9 harg9 arg10 harg10 hc0 hc1 x0 x1 x2 x3 xs0 xs1 xs2 = KStep.newSum x0 x1 x2 xs0 xs1 := by
  -- one whole-column store; its loads read the whole blocks and the carried columns
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero zeros2]
  simp only [View.readAt_eq_ld, harg3.read_unread, harg4.read_unread, harg5.read_unread, harg6.read_unread,
    harg8.read_unread, harg9.read_unread, harg10.read_unread, View.ld_unit_zero (S := S512x1) zeros2,
    View.ld_unit_zero (S := S1x512x4096) zeros3, View.ld_unit_zero (S := S1x1280x4096) zeros3,
    View.ld_unit_zero (S := S1x1x1280) zeros3, View.ld_unit_zero (S := S1x512x1) zeros3]
  rfl

/-- The label's logit this case leaves. -/
theorem sout_B_2 (c : Dev nD) (i : grid0.Coords) (arg3 : Memref sig .tc .vmem S1x512x4096 .bf16) (harg3 : arg3.IsWhole) (arg4 : Memref sig .tc .vmem S1x1280x4096 .bf16) (harg4 : arg4.IsWhole) (arg5 : Memref sig .tc .vmem S1x1x1280 .f32) (harg5 : arg5.IsWhole) (arg6 : Memref sig .tc .vmem S1x512x1 .i32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S1x512x4096 .bf16) (x1 : Vec F S1x1280x4096 .bf16) (x2 : Vec F S1x1x1280 .f32) (x3 : Vec F S1x512x1 .i32) (xs0 : Vec F S512x1 .f32) (xs1 : Vec F S512x1 .f32) (xs2 : Vec F S512x1 .f32) :
    sout0_B_2 c i arg3 harg3 arg4 harg4 arg5 harg5 arg6 harg6 arg7 harg7 arg8 harg8 arg9 harg9 arg10 harg10 hc0 hc1 x0 x1 x2 x3 xs0 xs1 xs2 = KStep.newLabel i x0 x1 x2 x3 xs2 := by
  -- one whole-column store; its loads read the whole blocks and the carried columns
  unfold sout0_B_2
  rw [View.read_writes_eq_canon _ _ _ (scover0_B_2 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero zeros2]
  simp only [View.readAt_eq_ld, harg3.read_unread, harg4.read_unread, harg5.read_unread, harg6.read_unread,
    harg8.read_unread, harg9.read_unread, harg10.read_unread, View.ld_unit_zero (S := S512x1) zeros2,
    View.ld_unit_zero (S := S1x512x4096) zeros3, View.ld_unit_zero (S := S1x1280x4096) zeros3,
    View.ld_unit_zero (S := S1x1x1280) zeros3, View.ld_unit_zero (S := S1x512x1) zeros3]
  rfl

/-! ## Case C: the last point of a sweep -/

/-- The running maximum this case leaves. -/
theorem sout_C_0 (c : Dev nD) (i : grid0.Coords) (arg3 : Memref sig .tc .vmem S1x512x4096 .bf16) (harg3 : arg3.IsWhole) (arg4 : Memref sig .tc .vmem S1x1280x4096 .bf16) (harg4 : arg4.IsWhole) (arg5 : Memref sig .tc .vmem S1x1x1280 .f32) (harg5 : arg5.IsWhole) (arg6 : Memref sig .tc .vmem S1x512x1 .i32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S1x512x4096 .bf16) (x1 : Vec F S1x1280x4096 .bf16) (x2 : Vec F S1x1x1280 .f32) (x3 : Vec F S1x512x1 .i32) (xs0 : Vec F S512x1 .f32) (xs1 : Vec F S512x1 .f32) (xs2 : Vec F S512x1 .f32) :
    sout0_C_0 c i arg3 harg3 arg4 harg4 arg5 harg5 arg6 harg6 arg7 harg7 arg8 harg8 arg9 harg9 arg10 harg10 hc0 hc1 x0 x1 x2 x3 xs0 xs1 xs2 = KStep.newMax x0 x1 x2 xs0 := by
  -- one whole-column store; its loads read the whole blocks and the carried columns
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero zeros2]
  simp only [View.readAt_eq_ld, harg3.read_unread, harg4.read_unread, harg5.read_unread, harg6.read_unread,
    harg8.read_unread, harg9.read_unread, harg10.read_unread, View.ld_unit_zero (S := S512x1) zeros2,
    View.ld_unit_zero (S := S1x512x4096) zeros3, View.ld_unit_zero (S := S1x1280x4096) zeros3,
    View.ld_unit_zero (S := S1x1x1280) zeros3, View.ld_unit_zero (S := S1x512x1) zeros3]
  rfl

/-- The running sum this case leaves. -/
theorem sout_C_1 (c : Dev nD) (i : grid0.Coords) (arg3 : Memref sig .tc .vmem S1x512x4096 .bf16) (harg3 : arg3.IsWhole) (arg4 : Memref sig .tc .vmem S1x1280x4096 .bf16) (harg4 : arg4.IsWhole) (arg5 : Memref sig .tc .vmem S1x1x1280 .f32) (harg5 : arg5.IsWhole) (arg6 : Memref sig .tc .vmem S1x512x1 .i32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S1x512x4096 .bf16) (x1 : Vec F S1x1280x4096 .bf16) (x2 : Vec F S1x1x1280 .f32) (x3 : Vec F S1x512x1 .i32) (xs0 : Vec F S512x1 .f32) (xs1 : Vec F S512x1 .f32) (xs2 : Vec F S512x1 .f32) :
    sout0_C_1 c i arg3 harg3 arg4 harg4 arg5 harg5 arg6 harg6 arg7 harg7 arg8 harg8 arg9 harg9 arg10 harg10 hc0 hc1 x0 x1 x2 x3 xs0 xs1 xs2 = KStep.newSum x0 x1 x2 xs0 xs1 := by
  -- one whole-column store; its loads read the whole blocks and the carried columns
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero zeros2]
  simp only [View.readAt_eq_ld, harg3.read_unread, harg4.read_unread, harg5.read_unread, harg6.read_unread,
    harg8.read_unread, harg9.read_unread, harg10.read_unread, View.ld_unit_zero (S := S512x1) zeros2,
    View.ld_unit_zero (S := S1x512x4096) zeros3, View.ld_unit_zero (S := S1x1280x4096) zeros3,
    View.ld_unit_zero (S := S1x1x1280) zeros3, View.ld_unit_zero (S := S1x512x1) zeros3]
  rfl

/-- The label's logit this case leaves. -/
theorem sout_C_2 (c : Dev nD) (i : grid0.Coords) (arg3 : Memref sig .tc .vmem S1x512x4096 .bf16) (harg3 : arg3.IsWhole) (arg4 : Memref sig .tc .vmem S1x1280x4096 .bf16) (harg4 : arg4.IsWhole) (arg5 : Memref sig .tc .vmem S1x1x1280 .f32) (harg5 : arg5.IsWhole) (arg6 : Memref sig .tc .vmem S1x512x1 .i32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S1x512x4096 .bf16) (x1 : Vec F S1x1280x4096 .bf16) (x2 : Vec F S1x1x1280 .f32) (x3 : Vec F S1x512x1 .i32) (xs0 : Vec F S512x1 .f32) (xs1 : Vec F S512x1 .f32) (xs2 : Vec F S512x1 .f32) :
    sout0_C_2 c i arg3 harg3 arg4 harg4 arg5 harg5 arg6 harg6 arg7 harg7 arg8 harg8 arg9 harg9 arg10 harg10 hc0 hc1 x0 x1 x2 x3 xs0 xs1 xs2 = KStep.newLabel i x0 x1 x2 x3 xs2 := by
  -- one whole-column store; its loads read the whole blocks and the carried columns
  unfold sout0_C_2
  rw [View.read_writes_eq_canon _ _ _ (scover0_C_2 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero zeros2]
  simp only [View.readAt_eq_ld, harg3.read_unread, harg4.read_unread, harg5.read_unread, harg6.read_unread,
    harg8.read_unread, harg9.read_unread, harg10.read_unread, View.ld_unit_zero (S := S512x1) zeros2,
    View.ld_unit_zero (S := S1x512x4096) zeros3, View.ld_unit_zero (S := S1x1280x4096) zeros3,
    View.ld_unit_zero (S := S1x1x1280) zeros3, View.ld_unit_zero (S := S1x512x1) zeros3]
  rfl

/-- The block of token log-probabilities the last point of a sweep writes. -/
theorem out_C_4 (c : Dev nD) (i : grid0.Coords) (arg3 : Memref sig .tc .vmem S1x512x4096 .bf16) (harg3 : arg3.IsWhole) (arg4 : Memref sig .tc .vmem S1x1280x4096 .bf16) (harg4 : arg4.IsWhole) (arg5 : Memref sig .tc .vmem S1x1x1280 .f32) (harg5 : arg5.IsWhole) (arg6 : Memref sig .tc .vmem S1x512x1 .i32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S1x512x4096 .bf16) (x1 : Vec F S1x1280x4096 .bf16) (x2 : Vec F S1x1x1280 .f32) (x3 : Vec F S1x512x1 .i32) (xs0 : Vec F S512x1 .f32) (xs1 : Vec F S512x1 .f32) (xs2 : Vec F S512x1 .f32) :
    out0_C_4 c i arg3 harg3 arg4 harg4 arg5 harg5 arg6 harg6 arg7 harg7 arg8 harg8 arg9 harg9 arg10 harg10 hc0 hc1 x0 x1 x2 x3 xs0 xs1 xs2
      = KStep.finish (KStep.newMax x0 x1 x2 xs0) (KStep.newSum x0 x1 x2 xs0 xs1) (KStep.newLabel i x0 x1 x2 x3 xs2) x3 := by
  -- one whole-block store; its three column loads read back the columns stored just before
  unfold out0_C_4
  rw [View.read_writes_eq_canon _ _ _ (cover0_C_4 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero zeros3]
  simp only [View.readAt_eq_ld, harg3.read_unread, harg4.read_unread, harg5.read_unread, harg6.read_unread,
    harg8.read_unread, harg9.read_unread, harg10.read_unread, View.ld_unit_zero (S := S512x1) zeros2,
    View.ld_unit_zero (S := S1x512x4096) zeros3, View.ld_unit_zero (S := S1x1280x4096) zeros3,
    View.ld_unit_zero (S := S1x1x1280) zeros3, View.ld_unit_zero (S := S1x512x1) zeros3,
    View.readCov_unit_zero (S := S512x1) _ zeros2]
  rfl

end Cert.KernelIdeal.KPieces

end
-- ==== Proof.KRun.lean ====
/-
  The kernel's program around its one region.

  Before the region the host lays the two models' operands side by side along a new leading axis of extent 2: the
  inputs as [2, 4096, 4096], the weights as [2, 32000, 4096] (both narrowed in format, which changes no value here),
  the biases as [2, 1, 32000] and the labels, twice, as [2, 4096, 1]. Model k's operand is read back at leading
  coordinate k. After the region the host takes the two leading slices of the [2, 4096, 1] array the region wrote,
  as vectors of 4096 token log-probabilities, and applies the loss to them.
-/
import proofs.«406837_j15204184227923_3_alg».proof.Proof.Gen.KernelIdeal.Frame
import proofs.«406837_j15204184227923_3_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KRun

open Idealize.ShloMosaic Idealize.ShloMosaic.TcCoe Idealize.ShloMosaic.ValueIdx Idealize.SL.Sem
open Cert.KernelIdeal Cert.KernelIdeal.Gen

/-! ## The host's layout operations read at an index -/

section Index

variable {α : Type}

/-- An [a, b] array broadcast to [1, a, b] along axes 1 and 2 reads, at (u, p, q), entry (p, q). -/
private theorem bcast_ab_1ab_apply {a b : ℕ} (x : (⟨2, ![a, b]⟩ : Shape).Idx → α)
    (h : (⟨2, ![a, b]⟩ : Shape).BroadcastsInDim ⟨3, ![1, a, b]⟩ ![1, 2]) (u : Fin 1) (p : Fin a) (q : Fin b) :
    broadcastInDim ⟨3, ![1, a, b]⟩ ![1, 2] h x (ix3 u p q) = x (ix2 p q) := by
  refine broadcastInDim_apply _ h x (ix3 u p q) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- A [b] array broadcast to [1, b] along axis 1 reads, at (u, q), entry q. -/
private theorem bcast_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- Two [1, a, b] pieces laid along axis 0 read, at (k, p, q), piece k at (0, p, q). -/
private theorem concat_1ab_pair_apply {a b : ℕ} (x₁ x₂ : (⟨3, ![1, a, b]⟩ : Shape).Idx → α)
    (h : Shape.Concatenates [(⟨3, ![1, a, b]⟩ : Shape), ⟨3, ![1, a, b]⟩] ⟨3, ![2, a, b]⟩ 0)
    (k : Fin 2) (p : Fin a) (q : Fin b) :
    concatenate ⟨3, ![2, a, b]⟩ 0 [⟨⟨3, ![1, a, b]⟩, x₁⟩, ⟨⟨3, ![1, a, b]⟩, x₂⟩] h (ix3 k p q)
      = if k.val = 0 then x₁ (ix3 (0 : Fin 1) p q) else x₂ (ix3 (0 : Fin 1) p q) := by
  split
  · next hk =>
    refine concatenate_pair_apply_left 0 x₁ x₂ h (ix3 k p q) rfl (ix3 (0 : Fin 1) p q) fun ax => ?_
    match ax with
    | ⟨0, _⟩ => exact hk.symm
    | ⟨1, _⟩ => rfl
    | ⟨2, _⟩ => rfl
  · next hk =>
    refine concatenate_pair_apply_right 0 x₁ x₂ h (ix3 k p q) rfl rfl (ix3 (0 : Fin 1) p q) (fun ax hax => ?_) ?_
    · match ax, hax with
      | ⟨0, _⟩, hax => exact absurd rfl hax
      | ⟨1, _⟩, _ => rfl
      | ⟨2, _⟩, _ => rfl
    · show 0 + 1 = k.val
      have := k.isLt; omega

/-- Two [1, b] pieces laid along axis 0 read, at (k, q), piece k at (0, q). -/
private theorem concat_1b_pair_apply {b : ℕ} (x₁ x₂ : (⟨2, ![1, b]⟩ : Shape).Idx → α)
    (h : Shape.Concatenates [(⟨2, ![1, b]⟩ : Shape), ⟨2, ![1, b]⟩] ⟨2, ![2, b]⟩ 0)
    (k : Fin 2) (q : Fin b) :
    concatenate ⟨2, ![2, b]⟩ 0 [⟨⟨2, ![1, b]⟩, x₁⟩, ⟨⟨2, ![1, b]⟩, x₂⟩] h (ix2 k q)
      = if k.val = 0 then x₁ (ix2 (0 : Fin 1) q) else x₂ (ix2 (0 : Fin 1) q) := by
  split
  · next hk =>
    refine concatenate_pair_apply_left 0 x₁ x₂ h (ix2 k q) rfl (ix2 (0 : Fin 1) q) fun ax => ?_
    match ax with
    | ⟨0, _⟩ => exact hk.symm
    | ⟨1, _⟩ => rfl
  · next hk =>
    refine concatenate_pair_apply_right 0 x₁ x₂ h (ix2 k q) rfl rfl (ix2 (0 : Fin 1) q) (fun ax hax => ?_) ?_
    · match ax, hax with
      | ⟨0, _⟩, hax => exact absurd rfl hax
      | ⟨1, _⟩, _ => rfl
    · show 0 + 1 = k.val
      have := k.isLt; omega

/-- A [k, b] array recast as [k, 1, b] reads, at (i, u, v), entry (i, v). -/
private theorem shapeCast_kb_k1b_apply {k b : ℕ} (x : (⟨2, ![k, b]⟩ : Shape).Idx → α)
    (h : (⟨2, ![k, b]⟩ : Shape).ShapeCasts ⟨3, ![k, 1, b]⟩) (i : Fin k) (u : Fin 1) (v : Fin b) :
    shapeCast ⟨3, ![k, 1, b]⟩ x h (ix3 i u v) = x (ix2 i v) := by
  refine shapeCast_apply x h (ix3 i u v) (ix2 i v) ?_
  rw [Shape.rowMajor_val_two, Shape.rowMajor_val_three]
  show i.val * b + v.val = (i.val * 1 + u.val) * b + v.val
  have hu : u.val = 0 := by have := u.isLt; omega
  rw [hu, Nat.mul_one, Nat.add_zero]

/-- A [k, a] array recast as [k, a, 1] reads, at (i, r, u), entry (i, r). -/
private theorem shapeCast_ka_ka1_apply {k a : ℕ} (x : (⟨2, ![k, a]⟩ : Shape).Idx → α)
    (h : (⟨2, ![k, a]⟩ : Shape).ShapeCasts ⟨3, ![k, a, 1]⟩) (i : Fin k) (r : Fin a) (u : Fin 1) :
    shapeCast ⟨3, ![k, a, 1]⟩ x h (ix3 i r u) = x (ix2 i r) := by
  refine shapeCast_apply x h (ix3 i r u) (ix2 i r) ?_
  rw [Shape.rowMajor_val_two, Shape.rowMajor_val_three]
  show i.val * a + r.val = (i.val * a + r.val) * 1 + u.val
  have hu : u.val = 0 := by have := u.isLt; omega
  rw [hu, Nat.mul_one, Nat.add_zero]

/-- Leading slice o of a [2, a, 1] array, recast as [a, 1] and then as [a], is the vector whose entry i is the
    array's entry (o, i, 0). -/
private theorem slice_tok_eq {a : ℕ} (o : ℕ) (X : (⟨3, ![2, a, 1]⟩ : Shape).Idx → α)
    (hs : (⟨3, ![2, a, 1]⟩ : Shape).Slices ![o, 0, 0] ⟨3, ![1, a, 1]⟩)
    (h1 : (⟨3, ![1, a, 1]⟩ : Shape).ShapeCasts ⟨2, ![a, 1]⟩) (h2 : (⟨2, ![a, 1]⟩ : Shape).ShapeCasts ⟨1, ![a]⟩)
    (k : Fin 2) (hk : k.val = o) :
    shapeCast ⟨1, ![a]⟩ (shapeCast ⟨2, ![a, 1]⟩ (extractStridedSlice ⟨3, ![1, a, 1]⟩ ![o, 0, 0] X hs) h1) h2
      = fun i => X (ix3 k (⟨(i 0).val, (i 0).isLt⟩ : Fin a) (0 : Fin 1)) := by
  funext i
  refine (shapeCast_apply _ h2 i (ix2 (⟨(i 0).val, (i 0).isLt⟩ : Fin a) (0 : Fin 1)) ?_).trans ?_
  · rw [Shape.rowMajor_val_two, Shape.rowMajor_val_one]
    show (i 0).val * 1 + 0 = (i 0).val
    omega
  refine (shapeCast_apply _ h1 (ix2 (⟨(i 0).val, (i 0).isLt⟩ : Fin a) (0 : Fin 1))
    (ix3 (0 : Fin 1) (⟨(i 0).val, (i 0).isLt⟩ : Fin a) (0 : Fin 1)) ?_).trans ?_
  · rw [Shape.rowMajor_val_three, Shape.rowMajor_val_two]
    show (0 * a + (i 0).val) * 1 + 0 = (i 0).val * 1 + 0
    omega
  refine extractStridedSlice_apply _ X hs _ (ix3 k (⟨(i 0).val, (i 0).isLt⟩ : Fin a) (0 : Fin 1)) fun ax => ?_
  match ax with
  | ⟨0, _⟩ => show k.val = o + 0; omega
  | ⟨1, _⟩ => show (i 0).val = 0 + (i 0).val; omega
  | ⟨2, _⟩ => rfl

end Index

variable (m : (ℓ : Loc nD τ sig) → Buf (Elt Ideal) ℓ) (ρ : Dev nD → PrngReg)

/-- The stacked inputs as the region finds them. -/
abbrev xsArr (c : Dev nD) : FVec Ideal S2x4096x4096 .bf16 := V m c main_v3
/-- The stacked weights as the region finds them. -/
abbrev wsArr (c : Dev nD) : FVec Ideal S2x32000x4096 .bf16 := V m c main_v7
/-- The stacked biases as the region finds them. -/
abbrev bsArr (c : Dev nD) : FVec Ideal S2x1x32000 .f32 := V m c main_v11
/-- The stacked labels as the region finds them. -/
abbrev tsArr (c : Dev nD) : IVec S2x4096x1 32 := V m c main_v15
/-- The array of token log-probabilities the region leaves. -/
abbrev outArr (c : Dev nD) : FVec Ideal S2x4096x1 .f32 := (dats (F := Ideal) m 0 c).arrAt 4 cfg0.N

/-! ## The stacked operands as the host's operations build them -/

/-- The stacked inputs: the two models' inputs, each given a leading unit axis, laid along it and narrowed. -/
private theorem xsArr_eq (c : Dev nD) :
    (xsArr m c : S2x4096x4096.Idx → EReal) =
      truncf .bf16 (concatenate S2x4096x4096 0
        [⟨S1x4096x4096, broadcastInDim S1x4096x4096 ![1, 2] bcast_S4096x4096_S1x4096x4096_1_2
            (m ((c.tc : Thread nD τ).loc main_arg0) : FVec Ideal S4096x4096 .f32)⟩,
         ⟨S1x4096x4096, broadcastInDim S1x4096x4096 ![1, 2] bcast_S4096x4096_S1x4096x4096_1_2
            (m ((c.tc : Thread nD τ).loc main_arg3) : FVec Ideal S4096x4096 .f32)⟩]
        concatenates_S1x4096x4096_S1x4096x4096_S2x4096x4096_d0) bitsLt_bf16_f32 := by
  show StableHlo.after hostOps0 (fun b => m (c, b)) (Proc.devRef .tc main_v3) = _
  after_results

/-- The stacked weights: the two models' weights, each given a leading unit axis, laid along it and narrowed. -/
private theorem wsArr_eq (c : Dev nD) :
    (wsArr m c : S2x32000x4096.Idx → EReal) =
      truncf .bf16 (concatenate S2x32000x4096 0
        [⟨S1x32000x4096, broadcastInDim S1x32000x4096 ![1, 2] bcast_S32000x4096_S1x32000x4096_1_2
            (m ((c.tc : Thread nD τ).loc main_arg1) : FVec Ideal S32000x4096 .f32)⟩,
         ⟨S1x32000x4096, broadcastInDim S1x32000x4096 ![1, 2] bcast_S32000x4096_S1x32000x4096_1_2
            (m ((c.tc : Thread nD τ).loc main_arg4) : FVec Ideal S32000x4096 .f32)⟩]
        concatenates_S1x32000x4096_S1x32000x4096_S2x32000x4096_d0) bitsLt_bf16_f32 := by
  show StableHlo.after hostOps0 (fun b => m (c, b)) (Proc.devRef .tc main_v7) = _
  after_results

/-- The stacked biases: the two models' biases, each as one row, laid along the rows' axis, then given a middle
    unit axis. -/
private theorem bsArr_eq (c : Dev nD) :
    (bsArr m c : S2x1x32000.Idx → EReal) =
      shapeCast S2x1x32000 (concatenate S2x32000 0
        [⟨S1x32000, broadcastInDim S1x32000 ![1] bcast_S32000_S1x32000_1
            (m ((c.tc : Thread nD τ).loc main_arg2) : FVec Ideal S32000 .f32)⟩,
         ⟨S1x32000, broadcastInDim S1x32000 ![1] bcast_S32000_S1x32000_1
            (m ((c.tc : Thread nD τ).loc main_arg5) : FVec Ideal S32000 .f32)⟩]
        concatenates_S1x32000_S1x32000_S2x32000_d0) shapeCasts_S2x32000_S2x1x32000 := by
  show StableHlo.after hostOps0 (fun b => m (c, b)) (Proc.devRef .tc main_v11) = _
  after_results
  rfl

/-- The stacked labels: the one label vector as a row, twice, laid along the rows' axis, then given a trailing
    unit axis. -/
private theorem tsArr_eq (c : Dev nD) :
    (tsArr m c : S2x4096x1.Idx → BitVec 32) =
      shapeCast S2x4096x1 (concatenate S2x4096 0
        [⟨S1x4096, broadcastInDim S1x4096 ![1] bcast_S4096_S1x4096_1
            (m ((c.tc : Thread nD τ).loc main_arg6) : IVec S4096 32)⟩,
         ⟨S1x4096, broadcastInDim S1x4096 ![1] bcast_S4096_S1x4096_1
            (m ((c.tc : Thread nD τ).loc main_arg6) : IVec S4096 32)⟩]
        concatenates_S1x4096_S1x4096_S2x4096_d0) shapeCasts_S2x4096_S2x4096x1 := by
  show StableHlo.after hostOps0 (fun b => m (c, b)) (Proc.devRef .tc main_v15) = _
  after_results
  rfl

/-! ## The host's operations after the region -/

/-- The host's operations after the region, from any contents W of the buffers and at any float family: the result
    is the loss of the two leading slices of the array in the region's output buffer, each recast as a vector. -/
private theorem tail_after {F : FTy → Type} [FloatOps F] (W : Valuation τ sig (Elt F)) :
    StableHlo.after (List.flatten [hostOps1, hostOps1_1, hostOps1_2]) W (Proc.devRef .tc main_v39)
      = Cert.Dpo.lossTail (F := F) shapeCasts_S4096_S8x512 reducesTo_S8x512_S8_d1 h_S_ slices_S8_S4_0 slices_S8_S4_4
          bcast_S_S4 reducesTo_S4_S_d0
          (shapeCast S4096 (shapeCast S4096x1 (extractStridedSlice S1x4096x1 ![0, 0, 0]
            (W (Proc.devRef .tc main_v16) : FVec F S2x4096x1 .f32) slices_S2x4096x1_S1x4096x1_0_0_0)
            shapeCasts_S1x4096x1_S4096x1) shapeCasts_S4096x1_S4096)
          (shapeCast S4096 (shapeCast S4096x1 (extractStridedSlice S1x4096x1 ![1, 0, 0]
            (W (Proc.devRef .tc main_v16) : FVec F S2x4096x1 .f32) slices_S2x4096x1_S1x4096x1_1_0_0)
            shapeCasts_S1x4096x1_S4096x1) shapeCasts_S4096x1_S4096) := by
  simp only [hostOps1, hostOps1_1, hostOps1_2, List.flatten_cons, List.flatten_nil, List.append_nil, List.cons_append,
    List.nil_append]
  after_results_simp
  rfl

/-- The program's result: the loss of the two leading slices of the array the region leaves. -/
private theorem tail_eq (c : Dev nD) :
    Pipeline.afterTail₀ cfgs (dats (F := Ideal) m) 0 (V0 m) [hostOps1, hostOps1_1, hostOps1_2] c main_v39
      = Cert.Dpo.lossTail (F := Ideal) shapeCasts_S4096_S8x512 reducesTo_S8x512_S8_d1 h_S_ slices_S8_S4_0 slices_S8_S4_4
          bcast_S_S4 reducesTo_S4_S_d0
          (fun i => outArr m c (ix3 (0 : Fin 2) (⟨(i 0).val, (i 0).isLt⟩ : Fin 4096) (0 : Fin 1)))
          (fun i => outArr m c (ix3 (1 : Fin 2) (⟨(i 0).val, (i 0).isLt⟩ : Fin 4096) (0 : Fin 1))) := by
  unfold Pipeline.afterTail₀
  refine (tail_after _).trans ?_
  have hW : Pipeline.withArrays (cfgs 0).spec c (V0 m c) (fun w => (dats (F := Ideal) m 0 c).arrAt w (cfgs 0).N)
      (Proc.devRef .tc main_v16) = outArr m c :=
    Pipeline.withArrays_arr spec0 launch0.win.arr_inj c _ _ 4
  rw [hW]
  exact congrArg₂ (Cert.Dpo.lossTail (F := Ideal) shapeCasts_S4096_S8x512 reducesTo_S8x512_S8_d1 h_S_ slices_S8_S4_0
      slices_S8_S4_4 bcast_S_S4 reducesTo_S4_S_d0)
    (slice_tok_eq 0 (outArr m c) slices_S2x4096x1_S1x4096x1_0_0_0 shapeCasts_S1x4096x1_S4096x1 shapeCasts_S4096x1_S4096
      (0 : Fin 2) rfl)
    (slice_tok_eq 1 (outArr m c) slices_S2x4096x1_S1x4096x1_1_0_0 shapeCasts_S1x4096x1_S4096x1 shapeCasts_S4096x1_S4096
      (1 : Fin 2) rfl)

theorem xs_apply (c : Dev nD) (k : Fin 2) (r h : Fin 4096) :
    xsArr m c (ix3 k r h) = if k.val = 0 then (m ((c.tc : Thread nD τ).loc main_arg0) : FVec Ideal S4096x4096 .f32) (ix2 r h)
      else (m ((c.tc : Thread nD τ).loc main_arg3) : FVec Ideal S4096x4096 .f32) (ix2 r h) := by
  refine (congrFun (xsArr_eq m c) (ix3 k r h)).trans ?_
  refine (truncf_apply _ bitsLt_bf16_f32 (ix3 k r h)).trans ?_
  refine (concat_1ab_pair_apply _ _ concatenates_S1x4096x4096_S1x4096x4096_S2x4096x4096_d0 k r h).trans ?_
  rw [bcast_ab_1ab_apply _ bcast_S4096x4096_S1x4096x4096_1_2 (0 : Fin 1) r h,
    bcast_ab_1ab_apply _ bcast_S4096x4096_S1x4096x4096_1_2 (0 : Fin 1) r h]

theorem ws_apply (c : Dev nD) (k : Fin 2) (v : Fin 32000) (h : Fin 4096) :
    wsArr m c (ix3 k v h) = if k.val = 0 then (m ((c.tc : Thread nD τ).loc main_arg1) : FVec Ideal S32000x4096 .f32) (ix2 v h)
      else (m ((c.tc : Thread nD τ).loc main_arg4) : FVec Ideal S32000x4096 .f32) (ix2 v h) := by
  refine (congrFun (wsArr_eq m c) (ix3 k v h)).trans ?_
  refine (truncf_apply _ bitsLt_bf16_f32 (ix3 k v h)).trans ?_
  refine (concat_1ab_pair_apply _ _ concatenates_S1x32000x4096_S1x32000x4096_S2x32000x4096_d0 k v h).trans ?_
  rw [bcast_ab_1ab_apply _ bcast_S32000x4096_S1x32000x4096_1_2 (0 : Fin 1) v h,
    bcast_ab_1ab_apply _ bcast_S32000x4096_S1x32000x4096_1_2 (0 : Fin 1) v h]

theorem bs_apply (c : Dev nD) (k : Fin 2) (v : Fin 32000) :
    bsArr m c (ix3 k (0 : Fin 1) v) = if k.val = 0 then (m ((c.tc : Thread nD τ).loc main_arg2) : FVec Ideal S32000 .f32) (ix1 v)
      else (m ((c.tc : Thread nD τ).loc main_arg5) : FVec Ideal S32000 .f32) (ix1 v) := by
  refine (congrFun (bsArr_eq m c) (ix3 k (0 : Fin 1) v)).trans ?_
  refine (shapeCast_kb_k1b_apply _ shapeCasts_S2x32000_S2x1x32000 k (0 : Fin 1) v).trans ?_
  refine (concat_1b_pair_apply _ _ concatenates_S1x32000_S1x32000_S2x32000_d0 k v).trans ?_
  rw [bcast_b_1b_apply _ bcast_S32000_S1x32000_1 (0 : Fin 1) v,
    bcast_b_1b_apply _ bcast_S32000_S1x32000_1 (0 : Fin 1) v]

theorem ts_apply (c : Dev nD) (k : Fin 2) (r : Fin 4096) :
    tsArr m c (ix3 k r (0 : Fin 1)) = (m ((c.tc : Thread nD τ).loc main_arg6) : IVec S4096 32) (ix1 r) := by
  refine (congrFun (tsArr_eq m c) (ix3 k r (0 : Fin 1))).trans ?_
  refine (shapeCast_ka_ka1_apply _ shapeCasts_S2x4096_S2x4096x1 k r (0 : Fin 1)).trans ?_
  refine (concat_1b_pair_apply _ _ concatenates_S1x4096_S1x4096_S2x4096_d0 k r).trans ?_
  rw [bcast_b_1b_apply _ bcast_S4096_S1x4096_1 (0 : Fin 1) r]
  exact ite_self _

/-- The program's run: the result is the loss of the two leading slices of the array the region leaves. -/
theorem run :
    θ_run (defs (F := Ideal)) (onTc (τ := τ) (main (F := Ideal))) ⟨m, fun _ => 0, ρ⟩ (fun r => ∀ c : Dev nD,
        r.2.mem ((c.tc : Thread nD τ).loc main_v39)
          = Cert.Dpo.lossTail (F := Ideal) shapeCasts_S4096_S8x512 reducesTo_S8x512_S8_d1 h_S_ slices_S8_S4_0 slices_S8_S4_4 bcast_S_S4 reducesTo_S4_S_d0
              (fun i => outArr m c (ix3 (0 : Fin 2) (⟨(i 0).val, (i 0).isLt⟩ : Fin 4096) (0 : Fin 1)))
              (fun i => outArr m c (ix3 (1 : Fin 2) (⟨(i 0).val, (i 0).isLt⟩ : Fin 4096) (0 : Fin 1)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) := by
  exact (θ_run defs _ _).mono (fun r h c =>
    ⟨((h c).2 main_v39 (Pipeline.mem_restRefs_of main_v39 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KRun

end
-- ==== Proof.KFold.lean ====
/-
  The region's output array is the token log-probabilities of the stacked operands.

  The grid's 400 points are 16 sweeps of 25: point t works for model t / 200 on the block of 512 rows number
  (t / 25) % 8, against weight block t % 25 (columns (t % 25) * 1280 onwards). Row p of the point is row
  ((t / 25) % 8) * 512 + p of the model's input, and column q of the point is column (t % 25) * 1280 + q of the
  model's logits. Along a sweep the three carried columns hold, row by row, the maximum, the sum of exponentials and
  the label's logit over the columns seen so far (the sweep's invariant, by induction along the points); the sweep's
  last point writes the finished rows, which are the rows' token log-probabilities; and the 16 blocks written tile
  the [2, 4096, 1] array.
-/
import proofs.«406837_j15204184227923_3_alg».proof.Proof.Gen.KernelIdeal.Frame
import proofs.«406837_j15204184227923_3_alg».proof.Proof.Spec
import proofs.«406837_j15204184227923_3_alg».proof.Proof.Sweep
import proofs.«406837_j15204184227923_3_alg».proof.Proof.KStep
import proofs.«406837_j15204184227923_3_alg».proof.Proof.KPay
import proofs.«406837_j15204184227923_3_alg».proof.Proof.KPieces
import proofs.«406837_j15204184227923_3_alg».proof.Proof.KRun
import Idealize.ShloMosaic.Lib.ValueIdx
import Idealize.ShloMosaic.Lib.Pipeline.Value

set_option maxRecDepth 16384

noncomputable section

namespace Cert.KernelIdeal.KFold

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.KRun

variable (m : (ℓ : Loc nD τ sig) → Buf (Elt Ideal) ℓ)

/-! ## Where a point works -/

/-- The printed index maps and the point's third coordinate, decided once over the 400 points. -/
theorem grid_facts : ∀ t : Fin cfg0.N,
    (win0_0.index t (0 : Fin 3) = t.val / 200 ∧ win0_0.index t (1 : Fin 3) = t.val / 25 % 8 ∧ win0_0.index t (2 : Fin 3) = 0)
    ∧ (win0_1.index t (0 : Fin 3) = t.val / 200 ∧ win0_1.index t (1 : Fin 3) = t.val % 25 ∧ win0_1.index t (2 : Fin 3) = 0)
    ∧ (win0_2.index t (0 : Fin 3) = t.val / 200 ∧ win0_2.index t (1 : Fin 3) = 0 ∧ win0_2.index t (2 : Fin 3) = t.val % 25)
    ∧ (win0_3.index t (0 : Fin 3) = t.val / 200 ∧ win0_3.index t (1 : Fin 3) = t.val / 25 % 8 ∧ win0_3.index t (2 : Fin 3) = 0)
    ∧ (win0_4.index t (0 : Fin 3) = t.val / 200 ∧ win0_4.index t (1 : Fin 3) = t.val / 25 % 8 ∧ win0_4.index t (2 : Fin 3) = 0)
    ∧ (grid0.coords t (2 : Fin 3)).val = t.val % 25 :=
  (by decide +kernel : ∀ t : Fin grid0.N, _)

theorem N400 : cfg0.N = 400 := N_0

/-- The model a point works for. -/
def modelOf (t : Fin cfg0.N) : Fin 2 := ⟨t.val / 200, by have h : t.val < 400 := lt_of_lt_of_eq t.isLt N400; omega⟩

/-- The row of the model's input that row p of the point is. -/
def rowOf (t : Fin cfg0.N) (p : Fin 512) : Fin 4096 :=
  ⟨t.val / 25 % 8 * 512 + p.val, by have := p.isLt; omega⟩

/-! ## The point's blocks, at their literal types, and what they read -/

abbrev blkX (c : Dev nD) (t : Fin cfg0.N) : Vec Ideal S1x512x4096 .bf16 := iblk m c 0 t
abbrev blkW (c : Dev nD) (t : Fin cfg0.N) : Vec Ideal S1x1280x4096 .bf16 := iblk m c 1 t
abbrev blkB (c : Dev nD) (t : Fin cfg0.N) : Vec Ideal S1x1x1280 .f32 := iblk m c 2 t
abbrev blkT (c : Dev nD) (t : Fin cfg0.N) : Vec Ideal S1x512x1 .i32 := iblk m c 3 t

/-- The input block: row p, entry h, is row rowOf t p of model modelOf t's input. -/
theorem blkX_apply (c : Dev nD) (t : Fin cfg0.N) (p : Fin 512) (h : Fin 4096) :
    blkX m c t (ix3 (0 : Fin 1) p h) = xsArr m c (ix3 (modelOf t) (rowOf t p) h) := by
  obtain ⟨⟨e0, e1, e2⟩, -⟩ := grid_facts t
  unfold blkX iblk
  rw [View.read_apply]
  show V m c main_v3 _ = V m c main_v3 _
  congr 1
  funext a
  apply Fin.ext
  match a with
  | ⟨0, _⟩ => show win0_0.index t (0 : Fin 3) * 1 + 1 * 0 = t.val / 200; rw [e0]; omega
  | ⟨1, _⟩ => show win0_0.index t (1 : Fin 3) * 512 + 1 * p.val = t.val / 25 % 8 * 512 + p.val; rw [e1]; omega
  | ⟨2, _⟩ => show win0_0.index t (2 : Fin 3) * 4096 + 1 * h.val = h.val; rw [e2]; omega

/-- The weight block: row q, entry h, is row (t % 25) * 1280 + q of the model's weights. -/
theorem blkW_apply (c : Dev nD) (t : Fin cfg0.N) (q : Fin 1280) (h : Fin 4096) (hq : t.val % 25 * 1280 + q.val < 32000) :
    blkW m c t (ix3 (0 : Fin 1) q h) = wsArr m c (ix3 (modelOf t) (⟨t.val % 25 * 1280 + q.val, hq⟩ : Fin 32000) h) := by
  obtain ⟨-, ⟨e0, e1, e2⟩, -⟩ := grid_facts t
  unfold blkW iblk
  rw [View.read_apply]
  show V m c main_v7 _ = V m c main_v7 _
  congr 1
  funext a
  apply Fin.ext
  match a with
  | ⟨0, _⟩ => show win0_1.index t (0 : Fin 3) * 1 + 1 * 0 = t.val / 200; rw [e0]; omega
  | ⟨1, _⟩ => show win0_1.index t (1 : Fin 3) * 1280 + 1 * q.val = t.val % 25 * 1280 + q.val; rw [e1]; omega
  | ⟨2, _⟩ => show win0_1.index t (2 : Fin 3) * 4096 + 1 * h.val = h.val; rw [e2]; omega

/-- The bias block: entry q is the bias of column (t % 25) * 1280 + q. -/
theorem blkB_apply (c : Dev nD) (t : Fin cfg0.N) (q : Fin 1280) (hq : t.val % 25 * 1280 + q.val < 32000) :
    blkB m c t (ix3 (0 : Fin 1) (0 : Fin 1) q) = bsArr m c (ix3 (modelOf t) (0 : Fin 1) (⟨t.val % 25 * 1280 + q.val, hq⟩ : Fin 32000)) := by
  obtain ⟨-, -, ⟨e0, e1, e2⟩, -⟩ := grid_facts t
  unfold blkB iblk
  rw [View.read_apply]
  show V m c main_v11 _ = V m c main_v11 _
  congr 1
  funext a
  apply Fin.ext
  match a with
  | ⟨0, _⟩ => show win0_2.index t (0 : Fin 3) * 1 + 1 * 0 = t.val / 200; rw [e0]; omega
  | ⟨1, _⟩ => show win0_2.index t (1 : Fin 3) * 1 + 1 * 0 = 0; rw [e1]
  | ⟨2, _⟩ => show win0_2.index t (2 : Fin 3) * 1280 + 1 * q.val = t.val % 25 * 1280 + q.val; rw [e2]; omega

/-- The label block: row p is the label of row rowOf t p. -/
theorem blkT_apply (c : Dev nD) (t : Fin cfg0.N) (p : Fin 512) :
    blkT m c t (ix3 (0 : Fin 1) p (0 : Fin 1)) = tsArr m c (ix3 (modelOf t) (rowOf t p) (0 : Fin 1)) := by
  obtain ⟨-, -, -, ⟨e0, e1, e2⟩, -⟩ := grid_facts t
  unfold blkT iblk
  rw [View.read_apply]
  show V m c main_v15 _ = V m c main_v15 _
  congr 1
  funext a
  apply Fin.ext
  match a with
  | ⟨0, _⟩ => show win0_3.index t (0 : Fin 3) * 1 + 1 * 0 = t.val / 200; rw [e0]; omega
  | ⟨1, _⟩ => show win0_3.index t (1 : Fin 3) * 512 + 1 * p.val = t.val / 25 % 8 * 512 + p.val; rw [e1]; omega
  | ⟨2, _⟩ => show win0_3.index t (2 : Fin 3) * 1 + 1 * 0 = 0; rw [e2]

/-! ## What a point leaves in the three carried columns, and what a sweep's last point writes -/

/-- The point before. -/
def before (t : Fin cfg0.N) : Fin cfg0.N := ⟨t.val - 1, Nat.lt_of_le_of_lt (Nat.sub_le _ _) t.isLt⟩

/-- The running maximum after point t. -/
abbrev colMax (c : Dev nD) (t : Fin cfg0.N) : Vec Ideal S512x1 .f32 := (outsAt0 m c t.val t.isLt).2.1
/-- The running sum after point t. -/
abbrev colSum (c : Dev nD) (t : Fin cfg0.N) : Vec Ideal S512x1 .f32 := (outsAt0 m c t.val t.isLt).2.2.1
/-- The label's logit after point t. -/
abbrev colLab (c : Dev nD) (t : Fin cfg0.N) : Vec Ideal S512x1 .f32 := (outsAt0 m c t.val t.isLt).2.2.2
/-- The output block after point t. -/
abbrev outBlk (c : Dev nD) (t : Fin cfg0.N) : Vec Ideal S1x512x1 .f32 := (outsAt0 m c t.val t.isLt).1

/-- A sweep's first point: the three columns from their starting values. -/
theorem left_first (c : Dev nD) (t : Fin cfg0.N) (h0 : t.val % 25 = 0) :
    colMax m c t = KStep.newMax (blkX m c t) (blkW m c t) (blkB m c t) (KStep.startMax (F := Ideal))
    ∧ colSum m c t = KStep.newSum (blkX m c t) (blkW m c t) (blkB m c t) (KStep.startMax (F := Ideal)) (KStep.startSum (F := Ideal))
    ∧ colLab m c t = KStep.newLabel (grid0.coords t) (blkX m c t) (blkW m c t) (blkB m c t) (blkT m c t) (KStep.startLabel (F := Ideal)) := by
  have h1 : ¬t.val % 25 = 24 := by omega
  unfold colMax colSum colLab
  rw [outsAt0_A m c t h0 h1]
  dsimp only
  exact ⟨KPieces.sout_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    KPieces.sout_A_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    KPieces.sout_A_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)⟩

/-- A later point of a sweep: the three columns from what the point before left. -/
theorem left_later (c : Dev nD) (t : Fin cfg0.N) (h0 : ¬t.val % 25 = 0) :
    colMax m c t = KStep.newMax (blkX m c t) (blkW m c t) (blkB m c t) (colMax m c (before t))
    ∧ colSum m c t = KStep.newSum (blkX m c t) (blkW m c t) (blkB m c t) (colMax m c (before t)) (colSum m c (before t))
    ∧ colLab m c t = KStep.newLabel (grid0.coords t) (blkX m c t) (blkW m c t) (blkB m c t) (blkT m c t) (colLab m c (before t)) := by
  by_cases h1 : t.val % 25 = 24
  · unfold colMax colSum colLab
    rw [outsAt0_C m c t h0 h1]
    dsimp only
    exact ⟨KPieces.sout_C_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      KPieces.sout_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      KPieces.sout_C_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩
  · unfold colMax colSum colLab
    rw [outsAt0_B m c t h0 h1]
    dsimp only
    exact ⟨KPieces.sout_B_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      KPieces.sout_B_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      KPieces.sout_B_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-- A sweep's last point writes the finished rows of the three columns it leaves. -/
theorem out_last (c : Dev nD) (t : Fin cfg0.N) (h1 : t.val % 25 = 24) :
    outBlk m c t = KStep.finish (colMax m c t) (colSum m c t) (colLab m c t) (blkT m c t) := by
  have h0 : ¬t.val % 25 = 0 := by omega
  obtain ⟨eM, eS, eL⟩ := left_later m c t h0
  rw [eM, eS, eL]
  unfold outBlk
  rw [outsAt0_C m c t h0 h1]
  dsimp only
  exact KPieces.out_C_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-! ## The sweep's invariant, row by row -/

/-- Model k's logit at row r, column v, from the stacked operands. -/
def stackLogit (xs : FVec Ideal S2x4096x4096 .bf16) (ws : FVec Ideal S2x32000x4096 .bf16) (bs : FVec Ideal S2x1x32000 .f32)
    (k : Fin 2) (r : Fin 4096) (v : Fin 32000) : EReal :=
  (∑ h : Fin 4096, xs (ix3 k r h) * ws (ix3 k v h)) + bs (ix3 k (0 : Fin 1) v)

/-- The row of logits that row p of point t works on. -/
abbrev rowLogits (c : Dev nD) (t : Fin cfg0.N) (p : Fin 512) : Fin 32000 → EReal :=
  stackLogit (xsArr m c) (wsArr m c) (bsArr m c) (modelOf t) (rowOf t p)

/-- That row's label word. -/
abbrev rowLabel (c : Dev nD) (t : Fin cfg0.N) (p : Fin 512) : BitVec 32 :=
  tsArr m c (ix3 (modelOf t) (rowOf t p) (0 : Fin 1))

/-- Column q of the point's logits is column (t % 25) * 1280 + q of the row. -/
theorem blockLogit_eq (c : Dev nD) (t : Fin cfg0.N) (p : Fin 512) (q : Fin 1280) (hj : t.val % 25 < 25) :
    KPay.blockLogit (blkX m c t) (blkW m c t) (blkB m c t) p q = rowLogits m c t p (Cert.Dpo.Sweep.col (t.val % 25) hj q) := by
  have hq : t.val % 25 * 1280 + q.val < 32000 := by have := q.isLt; omega
  unfold KPay.blockLogit rowLogits stackLogit Cert.Dpo.Sweep.col
  rw [blkB_apply m c t q hq]
  refine congrArg (fun z : EReal => z + _) ?_
  refine Finset.sum_congr rfl fun h _ => ?_
  rw [blkX_apply m c t p h, blkW_apply m c t q h hq]

/-- The first block of a sweep, with the block number a variable known to be 0. -/
theorem inv_first (a : Fin 32000 → EReal) (tw : BitVec 32) (ha : ∀ v, ∃ x : ℝ, a v = (x : EReal)) (j : ℕ) (hj : j < 25) (hj0 : j = 0)
    (mx' : EReal) (hmx' : mx' = max Cert.Dpo.negInf ((Finset.univ : Finset (Fin 1280)).fold max Cert.Dpo.negInf fun q => a (Cert.Dpo.Sweep.col j hj q))) :
    Cert.Dpo.Sweep.Inv a tw j mx'
      ((0 : EReal) * Ideal.exp (Cert.Dpo.negInf - mx') + ∑ q : Fin 1280, Ideal.exp (a (Cert.Dpo.Sweep.col j hj q) - mx'))
      ((0 : EReal) + ∑ q : Fin 1280, if tw = BitVec.ofNat 32 (j * 1280 + q.val) then a (Cert.Dpo.Sweep.col j hj q) else 0) := by
  subst hj0
  exact Cert.Dpo.Sweep.first a tw ha mx' hmx'

/-- A later block of a sweep, with the block number a variable known to be one more than the block before. -/
theorem inv_step (a : Fin 32000 → EReal) (tw : BitVec 32) (ha : ∀ v, ∃ x : ℝ, a v = (x : EReal)) (j jp : ℕ) (hj : j < 25) (hjp : j = jp + 1)
    (mx sm lb : EReal) (h : Cert.Dpo.Sweep.Inv a tw jp mx sm lb)
    (mx' : EReal) (hmx' : mx' = max mx ((Finset.univ : Finset (Fin 1280)).fold max Cert.Dpo.negInf fun q => a (Cert.Dpo.Sweep.col j hj q))) :
    Cert.Dpo.Sweep.Inv a tw j mx'
      (sm * Ideal.exp (mx - mx') + ∑ q : Fin 1280, Ideal.exp (a (Cert.Dpo.Sweep.col j hj q) - mx'))
      (lb + ∑ q : Fin 1280, if tw = BitVec.ofNat 32 (j * 1280 + q.val) then a (Cert.Dpo.Sweep.col j hj q) else 0) := by
  subst hjp
  exact Cert.Dpo.Sweep.step a tw ha jp hj mx sm lb h mx' hmx'

/-- The three columns after a sweep's first point, at row p. -/
theorem inv_at_first (c : Dev nD)
    (hfin : ∀ (k : Fin 2) (r : Fin 4096) (v : Fin 32000), ∃ x : ℝ, stackLogit (xsArr m c) (wsArr m c) (bsArr m c) k r v = (x : EReal))
    (t : Fin cfg0.N) (h0 : t.val % 25 = 0) (p : Fin 512) :
    Cert.Dpo.Sweep.Inv (rowLogits m c t p) (rowLabel m c t p) (t.val % 25)
      (colMax m c t (ix2 p (0 : Fin 1))) (colSum m c t (ix2 p (0 : Fin 1))) (colLab m c t (ix2 p (0 : Fin 1))) := by
  obtain ⟨eM, eS, eL⟩ := left_first m c t h0
  obtain ⟨-, -, -, -, -, e2⟩ := grid_facts t
  have hj : t.val % 25 < 25 := Nat.mod_lt _ (by decide)
  have hbl : ∀ q, KPay.blockLogit (blkX m c t) (blkW m c t) (blkB m c t) p q = rowLogits m c t p (Cert.Dpo.Sweep.col (t.val % 25) hj q) :=
    fun q => blockLogit_eq m c t p q hj
  have hM : colMax m c t (ix2 p (0 : Fin 1))
      = max Cert.Dpo.negInf ((Finset.univ : Finset (Fin 1280)).fold max Cert.Dpo.negInf fun q => rowLogits m c t p (Cert.Dpo.Sweep.col (t.val % 25) hj q)) := by
    rw [eM, KPay.newMax_apply, KPay.startMax_apply]
    simp only [hbl]
  have hS : colSum m c t (ix2 p (0 : Fin 1))
      = (0 : EReal) * Ideal.exp (Cert.Dpo.negInf - colMax m c t (ix2 p (0 : Fin 1)))
        + ∑ q : Fin 1280, Ideal.exp (rowLogits m c t p (Cert.Dpo.Sweep.col (t.val % 25) hj q) - colMax m c t (ix2 p (0 : Fin 1))) := by
    rw [eS, eM, KPay.newSum_apply, KPay.startSum_apply, KPay.startMax_apply]
    simp only [hbl]
  have hL : colLab m c t (ix2 p (0 : Fin 1))
      = (0 : EReal) + ∑ q : Fin 1280, if rowLabel m c t p = BitVec.ofNat 32 (t.val % 25 * 1280 + q.val)
          then rowLogits m c t p (Cert.Dpo.Sweep.col (t.val % 25) hj q) else 0 := by
    rw [eL, KPay.newLabel_apply, KPay.startLabel_apply, blkT_apply m c t p, e2]
    simp only [hbl]
  rw [hS, hL]
  exact inv_first (rowLogits m c t p) (rowLabel m c t p) (fun v => hfin _ _ v) (t.val % 25) hj h0 _ hM

/-- The three columns after a later point of a sweep, at row p, from the invariant after the point before. -/
theorem inv_at_later (c : Dev nD)
    (hfin : ∀ (k : Fin 2) (r : Fin 4096) (v : Fin 32000), ∃ x : ℝ, stackLogit (xsArr m c) (wsArr m c) (bsArr m c) k r v = (x : EReal))
    (t : Fin cfg0.N) (h0 : ¬t.val % 25 = 0) (p : Fin 512)
    (ih : Cert.Dpo.Sweep.Inv (rowLogits m c (before t) p) (rowLabel m c (before t) p) ((before t).val % 25)
      (colMax m c (before t) (ix2 p (0 : Fin 1))) (colSum m c (before t) (ix2 p (0 : Fin 1))) (colLab m c (before t) (ix2 p (0 : Fin 1)))) :
    Cert.Dpo.Sweep.Inv (rowLogits m c t p) (rowLabel m c t p) (t.val % 25)
      (colMax m c t (ix2 p (0 : Fin 1))) (colSum m c t (ix2 p (0 : Fin 1))) (colLab m c t (ix2 p (0 : Fin 1))) := by
  obtain ⟨eM, eS, eL⟩ := left_later m c t h0
  obtain ⟨-, -, -, -, -, e2⟩ := grid_facts t
  have hj : t.val % 25 < 25 := Nat.mod_lt _ (by decide)
  have hpos : 0 < t.val := Nat.pos_of_ne_zero fun h => h0 (by rw [h])
  -- the point before works for the same model on the same rows, one block earlier
  have hmod : modelOf (before t) = modelOf t := Fin.ext (by show (t.val - 1) / 200 = t.val / 200; omega)
  have hrow : rowOf (before t) p = rowOf t p := Fin.ext (by show (t.val - 1) / 25 % 8 * 512 + p.val = t.val / 25 % 8 * 512 + p.val; omega)
  have hjp : t.val % 25 = (before t).val % 25 + 1 := by show t.val % 25 = (t.val - 1) % 25 + 1; omega
  have ih' : Cert.Dpo.Sweep.Inv (rowLogits m c t p) (rowLabel m c t p) ((before t).val % 25)
      (colMax m c (before t) (ix2 p (0 : Fin 1))) (colSum m c (before t) (ix2 p (0 : Fin 1))) (colLab m c (before t) (ix2 p (0 : Fin 1))) := by
    have := ih
    unfold rowLogits rowLabel at this ⊢
    rw [hmod, hrow] at this
    exact this
  have hbl : ∀ q, KPay.blockLogit (blkX m c t) (blkW m c t) (blkB m c t) p q = rowLogits m c t p (Cert.Dpo.Sweep.col (t.val % 25) hj q) :=
    fun q => blockLogit_eq m c t p q hj
  have hM : colMax m c t (ix2 p (0 : Fin 1))
      = max (colMax m c (before t) (ix2 p (0 : Fin 1)))
          ((Finset.univ : Finset (Fin 1280)).fold max Cert.Dpo.negInf fun q => rowLogits m c t p (Cert.Dpo.Sweep.col (t.val % 25) hj q)) := by
    rw [eM, KPay.newMax_apply]
    simp only [hbl]
  have hS : colSum m c t (ix2 p (0 : Fin 1))
      = colSum m c (before t) (ix2 p (0 : Fin 1)) * Ideal.exp (colMax m c (before t) (ix2 p (0 : Fin 1)) - colMax m c t (ix2 p (0 : Fin 1)))
        + ∑ q : Fin 1280, Ideal.exp (rowLogits m c t p (Cert.Dpo.Sweep.col (t.val % 25) hj q) - colMax m c t (ix2 p (0 : Fin 1))) := by
    rw [eS, eM, KPay.newSum_apply]
    simp only [hbl]
  have hL : colLab m c t (ix2 p (0 : Fin 1))
      = colLab m c (before t) (ix2 p (0 : Fin 1)) + ∑ q : Fin 1280, if rowLabel m c t p = BitVec.ofNat 32 (t.val % 25 * 1280 + q.val)
          then rowLogits m c t p (Cert.Dpo.Sweep.col (t.val % 25) hj q) else 0 := by
    rw [eL, KPay.newLabel_apply, blkT_apply m c t p, e2]
    simp only [hbl]
  rw [hS, hL]
  exact inv_step (rowLogits m c t p) (rowLabel m c t p) (fun v => hfin _ _ v) (t.val % 25) ((before t).val % 25) hj hjp _ _ _ ih' _ hM

/-- The invariant after every point. -/
theorem inv (c : Dev nD)
    (hfin : ∀ (k : Fin 2) (r : Fin 4096) (v : Fin 32000), ∃ x : ℝ, stackLogit (xsArr m c) (wsArr m c) (bsArr m c) k r v = (x : EReal)) :
    ∀ (n : ℕ) (hn : n < cfg0.N) (p : Fin 512),
      Cert.Dpo.Sweep.Inv (rowLogits m c ⟨n, hn⟩ p) (rowLabel m c ⟨n, hn⟩ p) (n % 25)
        (colMax m c ⟨n, hn⟩ (ix2 p (0 : Fin 1))) (colSum m c ⟨n, hn⟩ (ix2 p (0 : Fin 1))) (colLab m c ⟨n, hn⟩ (ix2 p (0 : Fin 1))) := by
  intro n
  induction n with
  | zero => intro hn p; exact inv_at_first m c hfin ⟨0, hn⟩ rfl p
  | succ n ih =>
    intro hn p
    by_cases h0 : (n + 1) % 25 = 0
    · exact inv_at_first m c hfin ⟨n + 1, hn⟩ h0 p
    · exact inv_at_later m c hfin ⟨n + 1, hn⟩ h0 p (ih (Nat.lt_of_succ_lt hn) p)

/-! ## What the region leaves -/

/-- The array the region leaves, as one function of the stacked operands: at (k, r, 0) the token log-probability
    of row r of model k. -/
def outSpec (xs : FVec Ideal S2x4096x4096 .bf16) (ws : FVec Ideal S2x32000x4096 .bf16) (bs : FVec Ideal S2x1x32000 .f32)
    (ts : IVec S2x4096x1 32) : FVec Ideal S2x4096x1 .f32 :=
  fun i => Cert.Dpo.tokAt (stackLogit xs ws bs ⟨(i 0).val, (i 0).isLt⟩ ⟨(i 1).val, (i 1).isLt⟩) (ts i)

/-- Row p of the block that a sweep's last point writes is the token log-probability of the row it worked on. -/
theorem outBlk_apply (c : Dev nD)
    (hfin : ∀ (k : Fin 2) (r : Fin 4096) (v : Fin 32000), ∃ x : ℝ, stackLogit (xsArr m c) (wsArr m c) (bsArr m c) k r v = (x : EReal))
    (hrng : ∀ (k : Fin 2) (r : Fin 4096), tsArr m c (ix3 k r (0 : Fin 1)) = Cert.Dpo.ignoreWord ∨ (tsArr m c (ix3 k r (0 : Fin 1))).toNat < 32000)
    (t : Fin cfg0.N) (h24 : t.val % 25 = 24) (p : Fin 512) :
    outBlk m c t (ix3 (0 : Fin 1) p (0 : Fin 1)) = Cert.Dpo.tokAt (rowLogits m c t p) (rowLabel m c t p) := by
  rw [out_last m c t h24, KPay.finish_apply, blkT_apply m c t p]
  have hI := inv m c hfin t.val t.isLt p
  rw [h24] at hI
  exact Cert.Dpo.Sweep.last (rowLogits m c t p) (rowLabel m c t p) (fun v => hfin _ _ v) (hrng _ _) _ _ _ hI

/-- What a flushing point writes back is its block of outSpec. -/
theorem flushed_eq (c : Dev nD)
    (hfin : ∀ (k : Fin 2) (r : Fin 4096) (v : Fin 32000), ∃ x : ℝ, stackLogit (xsArr m c) (wsArr m c) (bsArr m c) k r v = (x : EReal))
    (hrng : ∀ (k : Fin 2) (r : Fin 4096), tsArr m c (ix3 k r (0 : Fin 1)) = Cert.Dpo.ignoreWord ∨ (tsArr m c (ix3 k r (0 : Fin 1))).toNat < 32000)
    (t : Fin cfg0.N) (hf : (cfg0.win 4).flush t = true) :
    (dats (F := Ideal) m 0 c).flushed 4 t
      = ((cfg0.win 4).blk t).view.read (Elt Ideal) (outSpec (xsArr m c) (wsArr m c) (bsArr m c) (tsArr m c)) := by
  have h24 : t.val % 25 = 24 := (flush0_4 t).mp hf
  obtain ⟨-, -, -, -, ⟨e0, e1, e2⟩, -⟩ := grid_facts t
  have key : ∀ y : S1x512x1.Idx, outBlk m c t y
      = outSpec (xsArr m c) (wsArr m c) (bsArr m c) (tsArr m c) (((cfg0.win 4).blk t).view.emb y) := by
    intro y
    obtain ⟨z, p, z', rfl⟩ : ∃ (z : Fin 1) (p : Fin 512) (z' : Fin 1), y = ix3 z p z' := ⟨y 0, y 1, y 2, eq_ix3 y⟩
    obtain rfl : z = 0 := Subsingleton.elim _ _
    obtain rfl : z' = 0 := Subsingleton.elim _ _
    have hemb : ((cfg0.win 4).blk t).view.emb (ix3 (0 : Fin 1) p (0 : Fin 1)) = ix3 (modelOf t) (rowOf t p) (0 : Fin 1) := by
      funext a
      apply Fin.ext
      match a with
      | ⟨0, _⟩ => show win0_4.index t (0 : Fin 3) * 1 + 1 * 0 = t.val / 200; rw [e0]; omega
      | ⟨1, _⟩ => show win0_4.index t (1 : Fin 3) * 512 + 1 * p.val = t.val / 25 % 8 * 512 + p.val; rw [e1]; omega
      | ⟨2, _⟩ => show win0_4.index t (2 : Fin 3) * 1 + 1 * 0 = 0; rw [e2]
    rw [hemb, outBlk_apply m c hfin hrng t h24 p]
    rfl
  show (cfg0.win 4).cut (grid0.coords t) ((dats (F := Ideal) m 0 c).after 4 t) = _
  rw [after0_4]
  funext j
  exact key j

/-- The region's output array, given that the flushed blocks cover it. -/
theorem final (c : Dev nD)
    (hfin : ∀ (k : Fin 2) (r : Fin 4096) (v : Fin 32000), ∃ x : ℝ, stackLogit (xsArr m c) (wsArr m c) (bsArr m c) k r v = (x : EReal))
    (hrng : ∀ (k : Fin 2) (r : Fin 4096), tsArr m c (ix3 k r (0 : Fin 1)) = Cert.Dpo.ignoreWord ∨ (tsArr m c (ix3 k r (0 : Fin 1))).toNat < 32000)
    (hcover : ∀ i : S2x4096x1.Idx, ∃ t : Fin cfg0.N, (cfg0.win 4).flush t = true ∧ i ∈ ((cfg0.win 4).blk t).view.set) :
    outArr m c = outSpec (xsArr m c) (wsArr m c) (bsArr m c) (tsArr m c) :=
  (dats (F := Ideal) m 0 c).arrAt_eq_of_cover 4 (outSpec (xsArr m c) (wsArr m c) (bsArr m c) (tsArr m c))
    (fun t hf => flushed_eq m c hfin hrng t hf) hcover

end Cert.KernelIdeal.KFold

end
-- ==== Proof.KCover.lean ====
/-
  The blocks of the output array that the sweeps' last points write tile the array.

  The output array has shape [2, 4096, 1]: for each of 2 models, 4096 rows of one number. The grid has 400 points;
  point t works on model t / 200 and on the block of 512 rows number (t / 25) % 8, and the 25 points
  t = 200 * k + 25 * b + s (s = 0 … 24) are one sweep over the vocabulary for model k and row block b. Only the
  sweep's last point (s = 24, that is t % 25 = 24) writes its block out: rows 512 * b … 512 * b + 511 of model k.
  An index (k, r, 0) of the array lies in the block of the point 200 * k + 25 * (r / 512) + 24, so the 16 blocks
  written cover the whole array.
-/
import proofs.«406837_j15204184227923_3_alg».proof.Proof.Gen.KernelIdeal.Frame
import Idealize.ShloMosaic.Lib.Pipeline.Value

set_option maxRecDepth 16384

noncomputable section

namespace Cert.KernelIdeal.KCover

open Idealize.ShloMosaic Idealize.ShloMosaic.TcCoe Idealize.SL.Sem
open Cert.KernelIdeal Cert.KernelIdeal.Gen

/-- The block index of the output at point `t`: the model, the row block, and 0 along the last axis. -/
theorem idx4 : ∀ t : Fin cfg0.N, win0_4.index t (0 : Fin 3) = t.val / 200 ∧ win0_4.index t (1 : Fin 3) = t.val / 25 % 8 ∧ win0_4.index t (2 : Fin 3) = 0 :=
  (by decide +kernel : ∀ t : Fin grid0.N, _)

/-- An index of the array is in point `t`'s block iff each coordinate is in the block's range on its axis. -/
theorem mem_blk4 (t : Fin cfg0.N) (i : S2x4096x1.Idx) : i ∈ ((cfg0.win 4).blk t).view.set ↔ ∀ a : Fin 3, win0_4.index t a * S1x512x1.size a ≤ (i a).val ∧ (i a).val < win0_4.index t a * S1x512x1.size a + S1x512x1.size a := by
  show i ∈ ((View.whole main_v16).slice (win0_4.rect t)).set ↔ _
  rw [View.set_slice_whole, Rect.mem_set_unit]
  exact Iff.rfl

/-- The arithmetic of the point chosen for model `k` and row `r`: it is a point of the grid, the last of its
    sweep, and its block index is `(k, r / 512)`. -/
private theorem pick (k r : Nat) (hk : k < 2) (hr : r < 4096) :
    200 * k + 25 * (r / 512) + 24 < 400 ∧ (200 * k + 25 * (r / 512) + 24) % 25 = 24
      ∧ (200 * k + 25 * (r / 512) + 24) / 200 = k ∧ (200 * k + 25 * (r / 512) + 24) / 25 % 8 = r / 512 := by
  omega

/-- Every index of the array is in the block some sweep's last point writes. -/
theorem cover (i : S2x4096x1.Idx) : ∃ t : Fin cfg0.N, (cfg0.win 4).flush t = true ∧ i ∈ ((cfg0.win 4).blk t).view.set := by
  have h0 : (i 0).val < 2 := (i 0).isLt
  have h1 : (i 1).val < 4096 := (i 1).isLt
  have h2 : (i 2).val < 1 := (i 2).isLt
  obtain ⟨p0, p1, p2, p3⟩ := pick (i 0).val (i 1).val h0 h1
  have hn : 200 * (i 0).val + 25 * ((i 1).val / 512) + 24 < cfg0.N := by
    show _ < grid0.N
    rw [N_0]
    exact p0
  obtain ⟨e0, e1, e2⟩ := idx4 ⟨200 * (i 0).val + 25 * ((i 1).val / 512) + 24, hn⟩
  have q0 : win0_4.index ⟨200 * (i 0).val + 25 * ((i 1).val / 512) + 24, hn⟩ (0 : Fin 3) = (i 0).val := e0.trans p2
  have q1 : win0_4.index ⟨200 * (i 0).val + 25 * ((i 1).val / 512) + 24, hn⟩ (1 : Fin 3) = (i 1).val / 512 := e1.trans p3
  refine ⟨⟨200 * (i 0).val + 25 * ((i 1).val / 512) + 24, hn⟩, (flush0_4 _).mpr p1, ?_⟩
  rw [mem_blk4]
  intro a
  match a with
  | ⟨0, _⟩ =>
    show win0_4.index ⟨200 * (i 0).val + 25 * ((i 1).val / 512) + 24, hn⟩ (0 : Fin 3) * 1 ≤ (i 0).val
      ∧ (i 0).val < win0_4.index ⟨200 * (i 0).val + 25 * ((i 1).val / 512) + 24, hn⟩ (0 : Fin 3) * 1 + 1
    rw [q0]; omega
  | ⟨1, _⟩ =>
    show win0_4.index ⟨200 * (i 0).val + 25 * ((i 1).val / 512) + 24, hn⟩ (1 : Fin 3) * 512 ≤ (i 1).val
      ∧ (i 1).val < win0_4.index ⟨200 * (i 0).val + 25 * ((i 1).val / 512) + 24, hn⟩ (1 : Fin 3) * 512 + 512
    rw [q1]; omega
  | ⟨2, _⟩ =>
    show win0_4.index ⟨200 * (i 0).val + 25 * ((i 1).val / 512) + 24, hn⟩ (2 : Fin 3) * 1 ≤ (i 2).val
      ∧ (i 2).val < win0_4.index ⟨200 * (i 0).val + 25 * ((i 1).val / 512) + 24, hn⟩ (2 : Fin 3) * 1 + 1
    rw [e2]; omega

end Cert.KernelIdeal.KCover

end
-- ==== Proof.PreFacts.lean ====
/-
  What the precondition says, in plain terms: every entry of the six float inputs is a real number (not an infinity),
  and every label word is either the ignore label -100 or the number of a column, 0 to 31999. From the first, every
  logit is a real number: a finite sum of products of reals plus a real.
-/
import proofs.«406837_j15204184227923_3_alg».proof.Pre_finite_inputs
import proofs.«406837_j15204184227923_3_alg».proof.Proof.Gen.Pre_finite_inputs
import proofs.«406837_j15204184227923_3_alg».proof.Proof.Spec
import Idealize.ShloMosaic.PureOps.Ideal.Laws
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx Cert.Pre_finite_inputs

/-- The scalar shape has exactly one index. -/
private instance : Subsingleton S_.Idx := ⟨fun a b => funext fun d => d.elim0⟩

/-- The float word 0x7F800000 (exponent all ones, fraction zero, sign clear) denotes plus infinity. -/
private theorem posInf_eq : Ideal.ofBits .f32 0x7F800000#32 = (⊤ : EReal) := by
  simp [Ideal.ofBits, Ideal.ieee]

/-- An extended real x with |x| = max x (-x) strictly below plus infinity is a real number: plus infinity fails the
    test through x itself, minus infinity through -x. -/
private theorem real_of_abs_lt_top (x : EReal)
    (h : Ideal.cmp .olt (max x (-x)) (Ideal.ofBits .f32 0x7F800000#32) = 1#1) : ∃ r : ℝ, x = (r : EReal) := by
  rw [posInf_eq] at h
  have h' : max x (-x) < ⊤ := by
    simp only [Ideal.cmp, StableHlo.Predicate.ofBool_eq_one_iff, decide_eq_true_eq] at h
    exact h
  induction x using EReal.rec with
  | bot => simp at h'
  | coe r => exact ⟨r, rfl⟩
  | top => simp at h'

/-- A label word t that passes (t = -100) or (0 ≤ t and t < 32000), the comparisons signed, is the word of -100 or
    has an unsigned value below 32000: a signed value that is not negative is the unsigned value. -/
private theorem label_range (t : BitVec 32)
    (h : IntOp.ori (IntOp.cmpi .eq t 4294967196#32)
      (IntOp.andi (IntOp.cmpi .sge t 0#32) (IntOp.cmpi .slt t 32000#32)) = 1#1) :
    t = 4294967196#32 ∨ t.toNat < 32000 := by
  rcases IntOp.ori_eq_one.1 h with h | h
  · exact Or.inl (IntOp.cmpi_eq.1 h)
  · obtain ⟨h1, h2⟩ := IntOp.andi_eq_one.1 h
    have h1' := IntOp.cmpi_sge.1 h1
    have h2' := IntOp.cmpi_slt.1 h2
    right
    have e0 : (0#32 : BitVec 32).toInt = 0 := by decide
    have e1 : (32000#32 : BitVec 32).toInt = 32000 := by decide
    rw [e0] at h1'
    rw [e1] at h2'
    rw [BitVec.toInt_eq_toNat_cond] at h1' h2'
    have := t.isLt
    split at h1' <;> omega

/-- The precondition, opened. -/
theorem of_pre (X0 : FVec Ideal S4096x4096 .f32) (W0 : FVec Ideal S32000x4096 .f32) (b0 : FVec Ideal S32000 .f32)
    (X1 : FVec Ideal S4096x4096 .f32) (W1 : FVec Ideal S32000x4096 .f32) (b1 : FVec Ideal S32000 .f32) (tgt : IVec S4096 32)
    (h : Cert.Pre_finite_inputs.fn (F := Ideal) X0 W0 b0 X1 W1 b1 tgt = fun _ => 1#1) :
    (∀ i, ∃ x : ℝ, X0 i = (x : EReal)) ∧ (∀ i, ∃ x : ℝ, W0 i = (x : EReal)) ∧ (∀ i, ∃ x : ℝ, b0 i = (x : EReal))
    ∧ (∀ i, ∃ x : ℝ, X1 i = (x : EReal)) ∧ (∀ i, ∃ x : ℝ, W1 i = (x : EReal)) ∧ (∀ i, ∃ x : ℝ, b1 i = (x : EReal))
    ∧ (∀ r : Fin 4096, tgt (ix1 r) = Cert.Dpo.ignoreWord ∨ (tgt (ix1 r)).toNat < 32000) := by
  -- the scalar at its one index is a conjunction of seven bits, each an "all" over one input
  have h0 := congrFun h ValueIdx.ix0
  unfold fn fn_part1 fn_part2 at h0
  dsimp only at h0
  obtain ⟨h0, hT⟩ := IntOp.andi_eq_one.1 h0
  obtain ⟨h0, hb1⟩ := IntOp.andi_eq_one.1 h0
  obtain ⟨h0, hW1⟩ := IntOp.andi_eq_one.1 h0
  obtain ⟨h0, hX1⟩ := IntOp.andi_eq_one.1 h0
  obtain ⟨h0, hb0⟩ := IntOp.andi_eq_one.1 h0
  obtain ⟨hX0, hW0⟩ := IntOp.andi_eq_one.1 h0
  -- an "all" that holds holds at every index; there it is |x| < +inf, or the label test
  refine ⟨fun i => ?_, fun i => ?_, fun i => ?_, fun i => ?_, fun i => ?_, fun i => ?_, fun r => ?_⟩
  · exact real_of_abs_lt_top (X0 i) (Host.reduce_andi_all _ _ _ _ _ hX0 i)
  · exact real_of_abs_lt_top (W0 i) (Host.reduce_andi_all _ _ _ _ _ hW0 i)
  · exact real_of_abs_lt_top (b0 i) (Host.reduce_andi_all _ _ _ _ _ hb0 i)
  · exact real_of_abs_lt_top (X1 i) (Host.reduce_andi_all _ _ _ _ _ hX1 i)
  · exact real_of_abs_lt_top (W1 i) (Host.reduce_andi_all _ _ _ _ _ hW1 i)
  · exact real_of_abs_lt_top (b1 i) (Host.reduce_andi_all _ _ _ _ _ hb1 i)
  · exact label_range (tgt (ix1 r)) (Host.reduce_andi_all _ _ _ _ _ hT (ix1 r))

/-- A finite sum of real numbers, read in the extended reals term by term, is the real sum. -/
private theorem sum_coe {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A logit of finite inputs is finite. -/
theorem logit_finite (X : FVec Ideal ⟨2, ![4096, 4096]⟩ .f32) (W : FVec Ideal ⟨2, ![32000, 4096]⟩ .f32) (b : FVec Ideal ⟨1, ![32000]⟩ .f32)
    (hX : ∀ i, ∃ x : ℝ, X i = (x : EReal)) (hW : ∀ i, ∃ x : ℝ, W i = (x : EReal)) (hb : ∀ i, ∃ x : ℝ, b i = (x : EReal))
    (r : Fin 4096) (v : Fin 32000) : ∃ x : ℝ, Cert.Dpo.logit X W b r v = (x : EReal) := by
  -- name the real entries; the logit is then the real sum of real products plus a real, read in the extended reals
  choose x hx using hX
  choose w hw using hW
  choose c hc using hb
  refine ⟨(∑ h : Fin 4096, x (ix2 r h) * w (ix2 v h)) + c (ix1 v), ?_⟩
  unfold Cert.Dpo.logit
  rw [EReal.coe_add, ← sum_coe, hc]
  refine congrArg (fun z : EReal => z + (c (ix1 v) : EReal)) ?_
  refine Finset.sum_congr rfl fun h _ => ?_
  rw [hx, hw, EReal.coe_mul]

end Cert.PreFacts

end
-- ==== Proof.KValue.lean ====
/-
  The kernel's result, under the precondition, is the loss of the two models' token log-probabilities.

  Model 0 of the stacked operands is the policy (input, weight, bias = arguments 0, 1, 2), model 1 the reference
  model (arguments 3, 4, 5); both share the labels (argument 6). So the stacked logit of model k is that model's
  logit, finite because the inputs are; the array the region leaves holds at (k, r, 0) the token log-probability
  of row r of model k; and its two leading slices are the two models' vectors of token log-probabilities.
-/
import proofs.«406837_j15204184227923_3_alg».proof.Proof.KFold
import proofs.«406837_j15204184227923_3_alg».proof.Proof.KRun
import proofs.«406837_j15204184227923_3_alg».proof.Proof.KCover
import proofs.«406837_j15204184227923_3_alg».proof.Proof.PreFacts

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.KRun Cert.KernelIdeal.KFold

variable (m : (ℓ : Loc nD τ sig) → Buf (Elt Ideal) ℓ) (ρ : Dev nD → PrngReg)

/-- Model k's stacked logit is the policy's logit for k = 0 and the reference model's for k = 1. -/
theorem stackLogit_eq (c : Dev nD) (k : Fin 2) (r : Fin 4096) (v : Fin 32000) :
    stackLogit (xsArr m c) (wsArr m c) (bsArr m c) k r v
      = if k.val = 0 then Cert.Dpo.logit (m ((c.tc : Thread nD τ).loc main_arg0)) (m ((c.tc : Thread nD τ).loc main_arg1)) (m ((c.tc : Thread nD τ).loc main_arg2)) r v
        else Cert.Dpo.logit (m ((c.tc : Thread nD τ).loc main_arg3)) (m ((c.tc : Thread nD τ).loc main_arg4)) (m ((c.tc : Thread nD τ).loc main_arg5)) r v := by
  unfold stackLogit Cert.Dpo.logit
  by_cases hk : k.val = 0
  · rw [if_pos hk, bs_apply m c k v, if_pos hk]
    refine congrArg (fun z : EReal => z + _) (Finset.sum_congr rfl fun h _ => ?_)
    rw [xs_apply m c k r h, ws_apply m c k v h, if_pos hk, if_pos hk]
  · rw [if_neg hk, bs_apply m c k v, if_neg hk]
    refine congrArg (fun z : EReal => z + _) (Finset.sum_congr rfl fun h _ => ?_)
    rw [xs_apply m c k r h, ws_apply m c k v h, if_neg hk, if_neg hk]

section
variable (hpre : ∀ c : Dev nD, Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1)
include hpre

/-- Every stacked logit is finite. -/
theorem stack_finite (c : Dev nD) (k : Fin 2) (r : Fin 4096) (v : Fin 32000) :
    ∃ x : ℝ, stackLogit (xsArr m c) (wsArr m c) (bsArr m c) k r v = (x : EReal) := by
  obtain ⟨h0, h1, h2, h3, h4, h5, -⟩ := Cert.PreFacts.of_pre _ _ _ _ _ _ _ (hpre c)
  rw [stackLogit_eq]
  split
  · exact Cert.PreFacts.logit_finite _ _ _ h0 h1 h2 r v
  · exact Cert.PreFacts.logit_finite _ _ _ h3 h4 h5 r v

/-- Every stacked label is the ignore label or a column number. -/
theorem stack_range (c : Dev nD) (k : Fin 2) (r : Fin 4096) :
    tsArr m c (ix3 k r (0 : Fin 1)) = Cert.Dpo.ignoreWord ∨ (tsArr m c (ix3 k r (0 : Fin 1))).toNat < 32000 := by
  obtain ⟨-, -, -, -, -, -, h6⟩ := Cert.PreFacts.of_pre _ _ _ _ _ _ _ (hpre c)
  rw [ts_apply]
  exact h6 r

/-- The array the region leaves, read at (k, r, 0). -/
theorem out_apply (c : Dev nD) (k : Fin 2) (r : Fin 4096) :
    outArr m c (ix3 k r (0 : Fin 1))
      = Cert.Dpo.tokAt (stackLogit (xsArr m c) (wsArr m c) (bsArr m c) k r) ((m ((c.tc : Thread nD τ).loc main_arg6)) (ix1 r)) := by
  rw [final m c (stack_finite m hpre c) (stack_range m hpre c) Cert.KernelIdeal.KCover.cover]
  unfold outSpec
  rw [ts_apply]

/-- The leading slice of the array the region leaves is the policy's token log-probabilities. -/
theorem slice0 (c : Dev nD) :
    (fun i : (⟨1, ![4096]⟩ : Shape).Idx => outArr m c (ix3 (0 : Fin 2) (⟨(i 0).val, (i 0).isLt⟩ : Fin 4096) (0 : Fin 1)))
      = Cert.Dpo.tokVec (m ((c.tc : Thread nD τ).loc main_arg0)) (m ((c.tc : Thread nD τ).loc main_arg1)) (m ((c.tc : Thread nD τ).loc main_arg2)) (m ((c.tc : Thread nD τ).loc main_arg6)) := by
  funext i
  rw [out_apply m hpre c]
  unfold Cert.Dpo.tokVec
  have e : stackLogit (xsArr m c) (wsArr m c) (bsArr m c) (0 : Fin 2) (⟨(i 0).val, (i 0).isLt⟩ : Fin 4096)
      = Cert.Dpo.logit (m ((c.tc : Thread nD τ).loc main_arg0)) (m ((c.tc : Thread nD τ).loc main_arg1)) (m ((c.tc : Thread nD τ).loc main_arg2)) ⟨(i 0).val, (i 0).isLt⟩ :=
    funext fun v => (stackLogit_eq m c 0 _ v).trans (if_pos rfl)
  rw [e]
  exact congrArg (fun j => Cert.Dpo.tokAt _ ((m ((c.tc : Thread nD τ).loc main_arg6)) j)) (eq_ix1 i).symm

/-- The second slice is the reference model's token log-probabilities. -/
theorem slice1 (c : Dev nD) :
    (fun i : (⟨1, ![4096]⟩ : Shape).Idx => outArr m c (ix3 (1 : Fin 2) (⟨(i 0).val, (i 0).isLt⟩ : Fin 4096) (0 : Fin 1)))
      = Cert.Dpo.tokVec (m ((c.tc : Thread nD τ).loc main_arg3)) (m ((c.tc : Thread nD τ).loc main_arg4)) (m ((c.tc : Thread nD τ).loc main_arg5)) (m ((c.tc : Thread nD τ).loc main_arg6)) := by
  funext i
  rw [out_apply m hpre c]
  unfold Cert.Dpo.tokVec
  have e : stackLogit (xsArr m c) (wsArr m c) (bsArr m c) (1 : Fin 2) (⟨(i 0).val, (i 0).isLt⟩ : Fin 4096)
      = Cert.Dpo.logit (m ((c.tc : Thread nD τ).loc main_arg3)) (m ((c.tc : Thread nD τ).loc main_arg4)) (m ((c.tc : Thread nD τ).loc main_arg5)) ⟨(i 0).val, (i 0).isLt⟩ :=
    funext fun v => (stackLogit_eq m c 1 _ v).trans (if_neg (by decide))
  rw [e]
  exact congrArg (fun j => Cert.Dpo.tokAt _ ((m ((c.tc : Thread nD τ).loc main_arg6)) j)) (eq_ix1 i).symm

/-- The kernel's run: its result is the loss of the two models' token log-probabilities; the arguments end unchanged. -/
theorem run :
    θ_run (defs (F := Ideal)) (onTc (τ := τ) (main (F := Ideal))) ⟨m, fun _ => 0, ρ⟩ (fun r => ∀ c : Dev nD,
        r.2.mem ((c.tc : Thread nD τ).loc main_v39)
          = Cert.Dpo.lossTail (F := Ideal) shapeCasts_S4096_S8x512 reducesTo_S8x512_S8_d1 h_S_ slices_S8_S4_0 slices_S8_S4_4 bcast_S_S4 reducesTo_S4_S_d0
              (Cert.Dpo.tokVec (m ((c.tc : Thread nD τ).loc main_arg0)) (m ((c.tc : Thread nD τ).loc main_arg1)) (m ((c.tc : Thread nD τ).loc main_arg2)) (m ((c.tc : Thread nD τ).loc main_arg6)))
              (Cert.Dpo.tokVec (m ((c.tc : Thread nD τ).loc main_arg3)) (m ((c.tc : Thread nD τ).loc main_arg4)) (m ((c.tc : Thread nD τ).loc main_arg5)) (m ((c.tc : Thread nD τ).loc main_arg6)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) :=
  (θ_run (defs (F := Ideal)) _ _).mono
    (fun r h c => ⟨(h c).1.trans (by rw [slice0 m hpre c, slice1 m hpre c]), (h c).2⟩)
    (Cert.KernelIdeal.KRun.run m ρ)

end

end Cert.KernelIdeal.KValue

end
-- ==== Proof.RefTerm.lean ====
/-
  The reference's result as one term of its arguments: the operations of its @main, and of the functions it calls, composed
  in the order the program applies them.

  logits: the input against the transposed weights (both contracted along their second axis) plus the bias laid along
  each row. logSoftmax: a row minus its maximum, minus the log of the row's sum of exponentials of that difference.
  tok: at the ignore label 0; otherwise the log-softmax taken at the label's column, where a negative label word first
  has 32000 added, and a column outside 0..31999 reads the fill value instead of an entry. result: the loss of the two
  models' token log-probabilities.
-/
import proofs.«406837_j15204184227923_3_alg».proof.ReferenceIdeal
import proofs.«406837_j15204184227923_3_alg».proof.Proof.Spec

noncomputable section

namespace Cert.ReferenceIdeal.RefTerm

open Idealize.ShloMosaic Cert.ReferenceIdeal

variable {F : FTy → Type} [FloatOps F] [Facts]
open Facts₀ Facts

/-- One model's logits: x against the transposed weights, plus the bias along each row. -/
def logits (X : FVec F S4096x4096 .f32) (W : FVec F S32000x4096 .f32) (b : FVec F S32000 .f32) : FVec F S4096x32000 .f32 :=
  addf (Host.dotGeneral dot_S4096x4096_S32000x4096_S4096x32000_1_1_0_0_n_n none X W)
    (broadcastInDim S4096x32000 ![0, 1] bcast_S1x32000_S4096x32000_0_1 (broadcastInDim S1x32000 ![1] bcast_S32000_S1x32000_1 b))

/-- Each row's maximum (the reduce from minus infinity, then once more against minus infinity). -/
def rowMaxV (x : FVec F S4096x32000 .f32) : FVec F S4096 .f32 :=
  maximumf (broadcastInDim S4096 ![] bcast_S_S4096 (constant S_ .f32 0xFF800000#32))
    (Host.reduce FloatOps.maximumf x (constant S_ .f32 0xFF800000#32) reducesTo_S4096x32000_S4096_d1 h_S_)

/-- Each entry minus its row's maximum. -/
def shifted (x : FVec F S4096x32000 .f32) : FVec F S4096x32000 .f32 :=
  subf x (broadcastInDim S4096x32000 ![0, 1] bcast_S4096x1_S4096x32000_0_1
    (broadcastInDim S4096x1 ![0] bcast_S4096_S4096x1_0 (rowMaxV x)))

/-- The log-softmax along each row. -/
def logSoftmax (x : FVec F S4096x32000 .f32) : FVec F S4096x32000 .f32 :=
  subf (shifted x) (broadcastInDim S4096x32000 ![0, 1] bcast_S4096x1_S4096x32000_0_1
    (Host.log (broadcastInDim S4096x1 ![0] bcast_S4096_S4096x1_0
      (Host.reduceAdd (Host.exp (shifted x)) (constant S_ .f32 0x00000000#32) reducesTo_S4096x32000_S4096_d1 h_S_))))

/-- Where the label is the ignore label -100. -/
def isIgnore (tgt : IVec S4096 32) : IVec S4096 1 :=
  cmpi .eq tgt (broadcastInDim S4096 ![] bcast_S_S4096 (constantI S_ 32 4294967196#32))

/-- The label with the ignore label replaced by column 0. -/
def safeTarget (tgt : IVec S4096 32) : IVec S4096 32 :=
  select (isIgnore tgt) (broadcastInDim S4096 ![] bcast_S_S4096 (constantI S_ 32 0#32)) tgt

/-- A column of label words with 32000 added to the negative ones, as a [4096, 1, 1] array of start indices. -/
def wrapIdx (i1 : IVec S4096x1 32) : IVec S4096x1x1 32 :=
  shapeCast S4096x1x1
    (select (cmpi .slt i1 (broadcastInDim S4096x1 ![] bcast_S_S4096x1 (constantI S_ 32 0#32)))
      (addi i1 (broadcastInDim S4096x1 ![] bcast_S_S4096x1 (constantI S_ 32 32000#32))) i1)
    shapeCasts_S4096x1_S4096x1x1

/-- Where a start index lies in 0..31999. -/
def inBounds (i5 : IVec S4096x1x1 32) : IVec S4096x1 1 :=
  Host.reduce IntOp.andi
    (andi (cmpi .sge i5 (broadcastInDim S4096x1x1 ![] bcast_S_S4096x1x1 (constantI S_ 32 0#32)))
      (cmpi .sle i5 (broadcastInDim S4096x1x1 ![0, 1, 2] bcast_S1x1x1_S4096x1x1_0_1_2
        (broadcastInDim S1x1x1 ![2] bcast_S1_S1x1x1_2 (constantI S1 32 31999#32)))))
    (constantI S_ 1 1#1) reducesTo_S4096x1x1_S4096x1_d2 h_S_

/-- Each row of lp taken at that row's column index: the entry where the index is in range, the fill value elsewhere. -/
def take (lp : FVec F S4096x32000 .f32) (i1 : IVec S4096x1 32) : FVec F S4096x1 .f32 :=
  select (inBounds (wrapIdx i1))
    (Host.gather gather_S4096x32000_S4096x1x1_S4096x1_n_1_0_0_1_2_11 lp (wrapIdx i1))
    (broadcastInDim S4096x1 ![] bcast_S_S4096x1 (constant S_ .f32 0x7FC00000#32))

/-- The 4096 token log-probabilities from a matrix of log-softmax values and the labels. -/
def tok (lp : FVec F S4096x32000 .f32) (tgt : IVec S4096 32) : FVec F S4096 .f32 :=
  select (isIgnore tgt) (broadcastInDim S4096 ![] bcast_S_S4096 (constant S_ .f32 0x00000000#32))
    (shapeCast S4096 (take lp (broadcastInDim S4096x1 ![0] bcast_S4096_S4096x1_0 (safeTarget tgt))) shapeCasts_S4096x1_S4096)

/-- The reference's result. -/
def result (X0 : FVec F S4096x4096 .f32) (W0 : FVec F S32000x4096 .f32) (b0 : FVec F S32000 .f32)
    (X1 : FVec F S4096x4096 .f32) (W1 : FVec F S32000x4096 .f32) (b1 : FVec F S32000 .f32) (tgt : IVec S4096 32) : FVec F S_ .f32 :=
  Cert.Dpo.lossTail shapeCasts_S4096_S8x512 reducesTo_S8x512_S8_d1 h_S_ slices_S8_S4_0 slices_S8_S4_4 bcast_S_S4 reducesTo_S4_S_d0
    (tok (logSoftmax (logits X0 W0 b0)) tgt) (tok (logSoftmax (logits X1 W1 b1)) tgt)

end Cert.ReferenceIdeal.RefTerm

end
-- ==== Proof.RefRun.lean ====
/-
  The run of the reference program. Its @main is one straight line of 151 host operations once the functions it calls
  are opened at their call sites (each call's operations over that call's own buffers). The line is cut into eleven
  stretches in three groups: five (60 operations) take the policy's inputs to its eight sequence scores (the logits,
  their log-softmax, the label column, the gather, the masked sums), five more (60 operations) do the same for the
  reference model, and the last (31 operations) takes the two score vectors to the loss. Each stretch is read back
  on its own over an arbitrary valuation of the buffers, as the matching definition of RefTerm; a stretch writes a
  block of consecutive buffer indices, so every buffer outside the block passes through it unchanged; the readings
  compose along the concatenation, and the result buffer ends at RefTerm.result of the seven arguments' launch
  contents, the arguments themselves unchanged.
-/
import proofs.«406837_j15204184227923_3_alg».proof.ReferenceIdeal
import proofs.«406837_j15204184227923_3_alg».proof.Proof.Gen.ReferenceIdeal
import proofs.«406837_j15204184227923_3_alg».proof.Proof.Spec
import proofs.«406837_j15204184227923_3_alg».proof.Proof.RefTerm
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Stretches of the line

A stretch is a list of operations. What is asked of one, once: its operations touch TensorCore references only and
determine what they write (the run's side conditions), and each writes a single buffer whose index lies in a range
(the buffers are numbered in program order, so a stretch writes a block of consecutive indices; a reference outside
the block keeps its contents through the stretch). -/

/-- Every operation of the list touches TensorCore references only, determines what it writes, and writes one
    buffer, of index within lo..hi. -/
def Line (lo hi : Nat) (l : List (HloOp τ sig (Elt F))) : Prop :=
  l.Forall fun op => op.bufs ⊆ tcRefs τ sig ∧ op.fresh = ∅ ∧
    ∃ y : Ref sig .tc, op.writes = {(y : DevRef τ sig)} ∧ lo ≤ y.idx.val ∧ y.idx.val ≤ hi

theorem Line.append {lo hi : Nat} {l₁ l₂ : List (HloOp τ sig (Elt F))} (h₁ : Line lo hi l₁) (h₂ : Line lo hi l₂) :
    Line lo hi (l₁ ++ l₂) :=
  List.forall_append.2 ⟨h₁, h₂⟩

theorem Line.mono {lo hi lo' hi' : Nat} {l : List (HloOp τ sig (Elt F))} (h : Line lo hi l) (hlo : lo' ≤ lo)
    (hhi : hi ≤ hi') : Line lo' hi' l :=
  List.Forall.imp (fun _ ⟨a, b, y, c, d, e⟩ => ⟨a, b, y, c, hlo.trans d, e.trans hhi⟩) h

theorem Line.sub {lo hi : Nat} {l : List (HloOp τ sig (Elt F))} (h : Line lo hi l) :
    l.Forall fun op => op.bufs ⊆ tcRefs τ sig :=
  List.Forall.imp (fun _ h => h.1) h

theorem Line.fresh {lo hi : Nat} {l : List (HloOp τ sig (Elt F))} (h : Line lo hi l) : ∀ op ∈ l, op.fresh = ∅ :=
  fun op hop => (List.forall_iff_forall_mem.1 h op hop).2.1

/-- A reference whose index is outside the block a stretch writes keeps its contents through it. -/
theorem Line.frame {lo hi : Nat} {l : List (HloOp τ sig (Elt F))} (h : Line lo hi l) (V : Valuation τ sig (Elt F))
    (r : Ref sig .tc) (hr : r.idx.val < lo ∨ hi < r.idx.val) :
    after l V (r : DevRef τ sig) = V (r : DevRef τ sig) :=
  after_of_forall_not_mem l V fun op hop hmem => by
    obtain ⟨-, -, y, hy, h1, h2⟩ := List.forall_iff_forall_mem.1 h op hop
    rw [hy, Finset.mem_singleton] at hmem
    have hry : r = y := Proc.devRef_injective _ hmem
    subst hry
    omega

-- one entry of a stretch's record per operation, by the operation's arity
local macro "nul" : term => `(⟨nullary_bufs_sub .., rfl, _, rfl, by decide⟩)
local macro "una" : term => `(⟨unary_bufs_sub .., rfl, _, rfl, by decide⟩)
local macro "bin" : term => `(⟨binary_bufs_sub .., rfl, _, rfl, by decide⟩)
local macro "ter" : term => `(⟨ternary_bufs_sub .., rfl, _, rfl, by decide⟩)
local macro "rsh" : term => `(⟨reshape_bufs_sub .., rfl, _, rfl, by decide⟩)

/-! ## The policy's stretches -/

/-- The logits: x against the transposed weights, plus the bias along each row. -/
abbrev opsA1 : List (HloOp τ sig (Elt F)) :=
  [ binary main_arg0 main_arg1 main_v0 (fun l r => Host.dotGeneral dot_S4096x4096_S32000x4096_S4096x32000_1_1_0_0_n_n none l r),
    unary main_arg2 main_v1 (broadcastInDim S1x32000 ![1] bcast_S32000_S1x32000_1),
    unary main_v1 main_v2 (broadcastInDim S4096x32000 ![0, 1] bcast_S1x32000_S4096x32000_0_1),
    binary main_v0 main_v2 main_v3 addf ]

/-- The log-softmax of the logits: the first call's fifteen operations. -/
abbrev opsA2 : List (HloOp τ sig (Elt F)) :=
  [ nullary main_call0_cst (constant S_ .f32 0xFF800000#32),
    binary main_v3 main_call0_cst main_call0_v0 (fun x v => Host.reduce FloatOps.maximumf x v reducesTo_S4096x32000_S4096_d1 h_S_),
    nullary main_call0_cst_0 (constant S_ .f32 0xFF800000#32),
    unary main_call0_cst_0 main_call0_v1 (broadcastInDim S4096 ![] bcast_S_S4096),
    binary main_call0_v1 main_call0_v0 main_call0_v2 maximumf,
    unary main_call0_v2 main_call0_v3 (broadcastInDim S4096x1 ![0] bcast_S4096_S4096x1_0),
    unary main_call0_v3 main_call0_v4 (broadcastInDim S4096x32000 ![0, 1] bcast_S4096x1_S4096x32000_0_1),
    binary main_v3 main_call0_v4 main_call0_v5 subf,
    unary main_call0_v5 main_call0_v6 Host.exp,
    nullary main_call0_cst_1 (constant S_ .f32 0x00000000#32),
    binary main_call0_v6 main_call0_cst_1 main_call0_v7 (fun x v => Host.reduceAdd x v reducesTo_S4096x32000_S4096_d1 h_S_),
    unary main_call0_v7 main_call0_v8 (broadcastInDim S4096x1 ![0] bcast_S4096_S4096x1_0),
    unary main_call0_v8 main_call0_v9 Host.log,
    unary main_call0_v9 main_call0_v10 (broadcastInDim S4096x32000 ![0, 1] bcast_S4096x1_S4096x32000_0_1),
    binary main_call0_v5 main_call0_v10 main_v4 subf ]

/-- The ignore mask, the label with the ignore label replaced by column 0 (a call's three operations), as a column. -/
abbrev opsA3 : List (HloOp τ sig (Elt F)) :=
  [ nullary main_c (constantI S_ 32 4294967196#32),
    unary main_c main_v5 (broadcastInDim S4096 ![] bcast_S_S4096),
    binary main_arg6 main_v5 main_v6 (cmpi .eq),
    nullary main_c_0 (constantI S_ 32 0#32),
    unary main_c_0 main_call1_v0 id,
    unary main_call1_v0 main_call1_v1 (broadcastInDim S4096 ![] bcast_S_S4096),
    ternary main_v6 main_call1_v1 main_arg6 main_v7 select,
    unary main_v7 main_v8 (broadcastInDim S4096x1 ![0] bcast_S4096_S4096x1_0) ]

/-- The row-wise gather at the label's column with its range test: a call's twenty-two operations. -/
abbrev opsA4 : List (HloOp τ sig (Elt F)) :=
  [ nullary main_call2_c (constantI S_ 32 0#32),
    unary main_call2_c main_call2_v0 (broadcastInDim S4096x1 ![] bcast_S_S4096x1),
    binary main_v8 main_call2_v0 main_call2_v1 (cmpi .slt),
    nullary main_call2_c_0 (constantI S_ 32 32000#32),
    unary main_call2_c_0 main_call2_v2 (broadcastInDim S4096x1 ![] bcast_S_S4096x1),
    binary main_v8 main_call2_v2 main_call2_v3 addi,
    ternary main_call2_v1 main_call2_v3 main_v8 main_call2_v4 select,
    reshape main_call2_v4 main_call2_v5 rfl shapeCasts_S4096x1_S4096x1x1,
    nullary main_call2_c_1 (constantI S1 32 31999#32),
    nullary main_call2_c_2 (constantI S_ 32 0#32),
    unary main_call2_c_2 main_call2_v6 (broadcastInDim S4096x1x1 ![] bcast_S_S4096x1x1),
    binary main_call2_v5 main_call2_v6 main_call2_v7 (cmpi .sge),
    unary main_call2_c_1 main_call2_v8 (broadcastInDim S1x1x1 ![2] bcast_S1_S1x1x1_2),
    unary main_call2_v8 main_call2_v9 (broadcastInDim S4096x1x1 ![0, 1, 2] bcast_S1x1x1_S4096x1x1_0_1_2),
    binary main_call2_v5 main_call2_v9 main_call2_v10 (cmpi .sle),
    binary main_call2_v7 main_call2_v10 main_call2_v11 andi,
    nullary main_call2_c_3 (constantI S_ 1 1#1),
    binary main_call2_v11 main_call2_c_3 main_call2_v12 (fun x v => Host.reduce IntOp.andi x v reducesTo_S4096x1x1_S4096x1_d2 h_S_),
    binary main_v4 main_call2_v5 main_call2_v13 (fun x i => Host.gather gather_S4096x32000_S4096x1x1_S4096x1_n_1_0_0_1_2_11 x i),
    nullary main_call2_cst (constant S_ .f32 0x7FC00000#32),
    unary main_call2_cst main_call2_v14 (broadcastInDim S4096x1 ![] bcast_S_S4096x1),
    ternary main_call2_v12 main_call2_v13 main_call2_v14 main_v9 select ]

/-- The token log-probabilities (zero at the ignore label: a call's three operations) and the eight sequence sums. -/
abbrev opsA5 : List (HloOp τ sig (Elt F)) :=
  [ reshape main_v9 main_v10 rfl shapeCasts_S4096x1_S4096,
    nullary main_c_1 (constantI S_ 32 4294967196#32),
    unary main_c_1 main_v11 (broadcastInDim S4096 ![] bcast_S_S4096),
    binary main_arg6 main_v11 main_v12 (cmpi .eq),
    nullary main_cst (constant S_ .f32 0x00000000#32),
    unary main_cst main_call3_v0 id,
    unary main_call3_v0 main_call3_v1 (broadcastInDim S4096 ![] bcast_S_S4096),
    ternary main_v12 main_call3_v1 main_v10 main_v13 select,
    reshape main_v13 main_v14 rfl shapeCasts_S4096_S8x512,
    nullary main_cst_2 (constant S_ .f32 0x00000000#32),
    binary main_v14 main_cst_2 main_v15 (fun x v => Host.reduceAdd x v reducesTo_S8x512_S8_d1 h_S_) ]

/-! ## The reference model's stretches: the same sixty operations over its own inputs and buffers -/

abbrev opsB1 : List (HloOp τ sig (Elt F)) :=
  [ binary main_arg3 main_arg4 main_v16 (fun l r => Host.dotGeneral dot_S4096x4096_S32000x4096_S4096x32000_1_1_0_0_n_n none l r),
    unary main_arg5 main_v17 (broadcastInDim S1x32000 ![1] bcast_S32000_S1x32000_1),
    unary main_v17 main_v18 (broadcastInDim S4096x32000 ![0, 1] bcast_S1x32000_S4096x32000_0_1),
    binary main_v16 main_v18 main_v19 addf ]

abbrev opsB2 : List (HloOp τ sig (Elt F)) :=
  [ nullary main_call4_cst (constant S_ .f32 0xFF800000#32),
    binary main_v19 main_call4_cst main_call4_v0 (fun x v => Host.reduce FloatOps.maximumf x v reducesTo_S4096x32000_S4096_d1 h_S_),
    nullary main_call4_cst_0 (constant S_ .f32 0xFF800000#32),
    unary main_call4_cst_0 main_call4_v1 (broadcastInDim S4096 ![] bcast_S_S4096),
    binary main_call4_v1 main_call4_v0 main_call4_v2 maximumf,
    unary main_call4_v2 main_call4_v3 (broadcastInDim S4096x1 ![0] bcast_S4096_S4096x1_0),
    unary main_call4_v3 main_call4_v4 (broadcastInDim S4096x32000 ![0, 1] bcast_S4096x1_S4096x32000_0_1),
    binary main_v19 main_call4_v4 main_call4_v5 subf,
    unary main_call4_v5 main_call4_v6 Host.exp,
    nullary main_call4_cst_1 (constant S_ .f32 0x00000000#32),
    binary main_call4_v6 main_call4_cst_1 main_call4_v7 (fun x v => Host.reduceAdd x v reducesTo_S4096x32000_S4096_d1 h_S_),
    unary main_call4_v7 main_call4_v8 (broadcastInDim S4096x1 ![0] bcast_S4096_S4096x1_0),
    unary main_call4_v8 main_call4_v9 Host.log,
    unary main_call4_v9 main_call4_v10 (broadcastInDim S4096x32000 ![0, 1] bcast_S4096x1_S4096x32000_0_1),
    binary main_call4_v5 main_call4_v10 main_v20 subf ]

abbrev opsB3 : List (HloOp τ sig (Elt F)) :=
  [ nullary main_c_3 (constantI S_ 32 4294967196#32),
    unary main_c_3 main_v21 (broadcastInDim S4096 ![] bcast_S_S4096),
    binary main_arg6 main_v21 main_v22 (cmpi .eq),
    nullary main_c_4 (constantI S_ 32 0#32),
    unary main_c_4 main_call5_v0 id,
    unary main_call5_v0 main_call5_v1 (broadcastInDim S4096 ![] bcast_S_S4096),
    ternary main_v22 main_call5_v1 main_arg6 main_v23 select,
    unary main_v23 main_v24 (broadcastInDim S4096x1 ![0] bcast_S4096_S4096x1_0) ]

abbrev opsB4 : List (HloOp τ sig (Elt F)) :=
  [ nullary main_call6_c (constantI S_ 32 0#32),
    unary main_call6_c main_call6_v0 (broadcastInDim S4096x1 ![] bcast_S_S4096x1),
    binary main_v24 main_call6_v0 main_call6_v1 (cmpi .slt),
    nullary main_call6_c_0 (constantI S_ 32 32000#32),
    unary main_call6_c_0 main_call6_v2 (broadcastInDim S4096x1 ![] bcast_S_S4096x1),
    binary main_v24 main_call6_v2 main_call6_v3 addi,
    ternary main_call6_v1 main_call6_v3 main_v24 main_call6_v4 select,
    reshape main_call6_v4 main_call6_v5 rfl shapeCasts_S4096x1_S4096x1x1,
    nullary main_call6_c_1 (constantI S1 32 31999#32),
    nullary main_call6_c_2 (constantI S_ 32 0#32),
    unary main_call6_c_2 main_call6_v6 (broadcastInDim S4096x1x1 ![] bcast_S_S4096x1x1),
    binary main_call6_v5 main_call6_v6 main_call6_v7 (cmpi .sge),
    unary main_call6_c_1 main_call6_v8 (broadcastInDim S1x1x1 ![2] bcast_S1_S1x1x1_2),
    unary main_call6_v8 main_call6_v9 (broadcastInDim S4096x1x1 ![0, 1, 2] bcast_S1x1x1_S4096x1x1_0_1_2),
    binary main_call6_v5 main_call6_v9 main_call6_v10 (cmpi .sle),
    binary main_call6_v7 main_call6_v10 main_call6_v11 andi,
    nullary main_call6_c_3 (constantI S_ 1 1#1),
    binary main_call6_v11 main_call6_c_3 main_call6_v12 (fun x v => Host.reduce IntOp.andi x v reducesTo_S4096x1x1_S4096x1_d2 h_S_),
    binary main_v20 main_call6_v5 main_call6_v13 (fun x i => Host.gather gather_S4096x32000_S4096x1x1_S4096x1_n_1_0_0_1_2_11 x i),
    nullary main_call6_cst (constant S_ .f32 0x7FC00000#32),
    unary main_call6_cst main_call6_v14 (broadcastInDim S4096x1 ![] bcast_S_S4096x1),
    ternary main_call6_v12 main_call6_v13 main_call6_v14 main_v25 select ]

abbrev opsB5 : List (HloOp τ sig (Elt F)) :=
  [ reshape main_v25 main_v26 rfl shapeCasts_S4096x1_S4096,
    nullary main_c_5 (constantI S_ 32 4294967196#32),
    unary main_c_5 main_v27 (broadcastInDim S4096 ![] bcast_S_S4096),
    binary main_arg6 main_v27 main_v28 (cmpi .eq),
    nullary main_cst_6 (constant S_ .f32 0x00000000#32),
    unary main_cst_6 main_call7_v0 id,
    unary main_call7_v0 main_call7_v1 (broadcastInDim S4096 ![] bcast_S_S4096),
    ternary main_v28 main_call7_v1 main_v26 main_v29 select,
    reshape main_v29 main_v30 rfl shapeCasts_S4096_S8x512,
    nullary main_cst_7 (constant S_ .f32 0x00000000#32),
    binary main_v30 main_cst_7 main_v31 (fun x v => Host.reduceAdd x v reducesTo_S8x512_S8_d1 h_S_) ]

/-! ## The closing stretch -/

/-- The four slices, the margins scaled by beta, the log-sigmoid (two operations around the softplus's fourteen),
    the sum, its negation, the division by four. -/
abbrev opsC : List (HloOp τ sig (Elt F)) :=
  [ unary main_v15 main_v32 (extractStridedSlice S4 ![0] · slices_S8_S4_0),
    unary main_v15 main_v33 (extractStridedSlice S4 ![4] · slices_S8_S4_4),
    unary main_v31 main_v34 (extractStridedSlice S4 ![0] · slices_S8_S4_0),
    unary main_v31 main_v35 (extractStridedSlice S4 ![4] · slices_S8_S4_4),
    binary main_v32 main_v34 main_v36 subf,
    binary main_v33 main_v35 main_v37 subf,
    binary main_v36 main_v37 main_v38 subf,
    nullary main_cst_8 (constant S_ .f32 0x3DCCCCCD#32),
    unary main_cst_8 main_v39 (broadcastInDim S4 ![] bcast_S_S4),
    binary main_v39 main_v38 main_v40 mulf,
    unary main_v40 main_call8_v0 Host.negf,
    nullary main_call8_call0_cst (constant S_ .f32 0x00000000#32),
    unary main_call8_call0_cst main_call8_call0_v0 (broadcastInDim S4 ![] bcast_S_S4),
    binary main_call8_v0 main_call8_call0_v0 main_call8_call0_v1 maximumf,
    unary main_call8_call0_cst main_call8_call0_v2 (broadcastInDim S4 ![] bcast_S_S4),
    binary main_call8_v0 main_call8_call0_v2 main_call8_call0_v3 subf,
    binary main_call8_call0_v3 main_call8_call0_v3 main_call8_call0_v4 (cmpf .une),
    unary main_call8_call0_cst main_call8_call0_v5 (broadcastInDim S4 ![] bcast_S_S4),
    binary main_call8_v0 main_call8_call0_v5 main_call8_call0_v6 addf,
    unary main_call8_call0_v3 main_call8_call0_v7 Host.absf,
    unary main_call8_call0_v7 main_call8_call0_v8 Host.negf,
    unary main_call8_call0_v8 main_call8_call0_v9 Host.exp,
    unary main_call8_call0_v9 main_call8_call0_v10 Host.log1p,
    binary main_call8_call0_v1 main_call8_call0_v10 main_call8_call0_v11 addf,
    ternary main_call8_call0_v4 main_call8_call0_v6 main_call8_call0_v11 main_call8_v1 select,
    unary main_call8_v1 main_v41 Host.negf,
    nullary main_cst_9 (constant S_ .f32 0x00000000#32),
    binary main_v41 main_cst_9 main_v42 (fun x v => Host.reduceAdd x v reducesTo_S4_S_d0 h_S_),
    unary main_v42 main_v43 Host.negf,
    nullary main_cst_10 (constant S_ .f32 0x40800000#32),
    binary main_v43 main_cst_10 main_v44 Host.divf ]

/-- The policy's sixty operations. -/
abbrev opsA : List (HloOp τ sig (Elt F)) := opsA1 ++ (opsA2 ++ (opsA3 ++ (opsA4 ++ opsA5)))

/-- The reference model's sixty operations. -/
abbrev opsB : List (HloOp τ sig (Elt F)) := opsB1 ++ (opsB2 ++ (opsB3 ++ (opsB4 ++ opsB5)))

/-- @main's 151 operations, in order. -/
abbrev ops : List (HloOp τ sig (Elt F)) := opsA ++ (opsB ++ opsC)

/-! ## The program is that line -/

/-- @main is the line: the called functions' bodies opened at their calls, each of their operations over typed
    references being the plain operation at the buffers the call's record names (the transport along a reference's
    type equation is the identity at a literal reference); both sides are then one chain of operation steps up to
    the reassociation of sequencing, which is computation. -/
theorem main_eq (c : Dev nD) : main (F := F) c = seq ops := by chain_rfl

/-! ## Each stretch's record -/

theorem lineA1 : Line 7 10 (opsA1 : List (HloOp τ sig (Elt F))) :=
  ⟨bin, una, una, bin⟩
theorem lineA2 : Line 11 25 (opsA2 : List (HloOp τ sig (Elt F))) :=
  ⟨nul, bin, nul, una, bin, una, una, bin, una, nul, bin, una,
    una, una, bin⟩
theorem lineA3 : Line 26 33 (opsA3 : List (HloOp τ sig (Elt F))) :=
  ⟨nul, una, bin, nul, una, una, ter, una⟩
theorem lineA4 : Line 34 55 (opsA4 : List (HloOp τ sig (Elt F))) :=
  ⟨nul, una, bin, nul, una, bin, ter, rsh, nul, nul, una, bin,
    una, una, bin, bin, nul, bin, bin, nul, una, ter⟩
theorem lineA5 : Line 56 66 (opsA5 : List (HloOp τ sig (Elt F))) :=
  ⟨rsh, nul, una, bin, nul, una, una, ter, rsh, nul, bin⟩
theorem lineB1 : Line 67 70 (opsB1 : List (HloOp τ sig (Elt F))) :=
  ⟨bin, una, una, bin⟩
theorem lineB2 : Line 71 85 (opsB2 : List (HloOp τ sig (Elt F))) :=
  ⟨nul, bin, nul, una, bin, una, una, bin, una, nul, bin, una,
    una, una, bin⟩
theorem lineB3 : Line 86 93 (opsB3 : List (HloOp τ sig (Elt F))) :=
  ⟨nul, una, bin, nul, una, una, ter, una⟩
theorem lineB4 : Line 94 115 (opsB4 : List (HloOp τ sig (Elt F))) :=
  ⟨nul, una, bin, nul, una, bin, ter, rsh, nul, nul, una, bin,
    una, una, bin, bin, nul, bin, bin, nul, una, ter⟩
theorem lineB5 : Line 116 126 (opsB5 : List (HloOp τ sig (Elt F))) :=
  ⟨rsh, nul, una, bin, nul, una, una, ter, rsh, nul, bin⟩
theorem lineC : Line 127 157 (opsC : List (HloOp τ sig (Elt F))) :=
  ⟨una, una, una, una, bin, bin, bin, nul, una, bin, una, nul,
    una, bin, una, bin, bin, una, bin, una, una, una, una, bin,
    ter, una, nul, bin, una, nul, bin⟩

theorem lineA : Line 7 66 (opsA : List (HloOp τ sig (Elt F))) :=
  (lineA1.mono (by decide) (by decide)).append ((lineA2.mono (by decide) (by decide)).append
    ((lineA3.mono (by decide) (by decide)).append ((lineA4.mono (by decide) (by decide)).append
      (lineA5.mono (by decide) (by decide)))))

theorem lineB : Line 67 126 (opsB : List (HloOp τ sig (Elt F))) :=
  (lineB1.mono (by decide) (by decide)).append ((lineB2.mono (by decide) (by decide)).append
    ((lineB3.mono (by decide) (by decide)).append ((lineB4.mono (by decide) (by decide)).append
      (lineB5.mono (by decide) (by decide)))))

theorem lineAll : Line 7 157 (ops : List (HloOp τ sig (Elt F))) :=
  (lineA.mono (by decide) (by decide)).append ((lineB.mono (by decide) (by decide)).append
    (lineC.mono (by decide) (by decide)))

/-! ## What each stretch leaves

Each over an arbitrary valuation: the fold of the stretch at the buffer it is read at is the composed term of the
stretch's operations, which is the matching definition of RefTerm by unfolding. -/

-- the reductions and the gather stay folded while two composed terms are compared: their bodies are folds over the
-- operand's elements, which a comparison never needs to open
attribute [local irreducible] Host.reduce Host.reduceAdd Host.gather

theorem valA1 (V : Valuation τ sig (Elt F)) :
    after opsA1 V (main_v3 : DevRef τ sig)
      = RefTerm.logits (V (main_arg0 : DevRef τ sig)) (V (main_arg1 : DevRef τ sig)) (V (main_arg2 : DevRef τ sig)) := by
  after_results_simp
  rfl

theorem valA2 (V : Valuation τ sig (Elt F)) :
    after opsA2 V (main_v4 : DevRef τ sig) = RefTerm.logSoftmax (V (main_v3 : DevRef τ sig)) := by
  after_results_simp
  rfl

theorem valA3 (V : Valuation τ sig (Elt F)) :
    after opsA3 V (main_v8 : DevRef τ sig)
      = broadcastInDim S4096x1 ![0] bcast_S4096_S4096x1_0 (RefTerm.safeTarget (V (main_arg6 : DevRef τ sig))) := by
  after_results_simp
  rfl

theorem valA4 (V : Valuation τ sig (Elt F)) :
    after opsA4 V (main_v9 : DevRef τ sig) = RefTerm.take (V (main_v4 : DevRef τ sig)) (V (main_v8 : DevRef τ sig)) := by
  after_results_simp
  rfl

theorem valA5 (V : Valuation τ sig (Elt F)) :
    after opsA5 V (main_v15 : DevRef τ sig)
      = Cert.Dpo.seqSums shapeCasts_S4096_S8x512 reducesTo_S8x512_S8_d1 h_S_
          (select (RefTerm.isIgnore (V (main_arg6 : DevRef τ sig)))
            (broadcastInDim S4096 ![] bcast_S_S4096 (constant (F := F) S_ .f32 0x00000000#32))
            (shapeCast S4096 (V (main_v9 : DevRef τ sig)) shapeCasts_S4096x1_S4096)) := by
  after_results_simp
  rfl

theorem valB1 (V : Valuation τ sig (Elt F)) :
    after opsB1 V (main_v19 : DevRef τ sig)
      = RefTerm.logits (V (main_arg3 : DevRef τ sig)) (V (main_arg4 : DevRef τ sig)) (V (main_arg5 : DevRef τ sig)) := by
  after_results_simp
  rfl

theorem valB2 (V : Valuation τ sig (Elt F)) :
    after opsB2 V (main_v20 : DevRef τ sig) = RefTerm.logSoftmax (V (main_v19 : DevRef τ sig)) := by
  after_results_simp
  rfl

theorem valB3 (V : Valuation τ sig (Elt F)) :
    after opsB3 V (main_v24 : DevRef τ sig)
      = broadcastInDim S4096x1 ![0] bcast_S4096_S4096x1_0 (RefTerm.safeTarget (V (main_arg6 : DevRef τ sig))) := by
  after_results_simp
  rfl

theorem valB4 (V : Valuation τ sig (Elt F)) :
    after opsB4 V (main_v25 : DevRef τ sig) = RefTerm.take (V (main_v20 : DevRef τ sig)) (V (main_v24 : DevRef τ sig)) := by
  after_results_simp
  rfl

theorem valB5 (V : Valuation τ sig (Elt F)) :
    after opsB5 V (main_v31 : DevRef τ sig)
      = Cert.Dpo.seqSums shapeCasts_S4096_S8x512 reducesTo_S8x512_S8_d1 h_S_
          (select (RefTerm.isIgnore (V (main_arg6 : DevRef τ sig)))
            (broadcastInDim S4096 ![] bcast_S_S4096 (constant (F := F) S_ .f32 0x00000000#32))
            (shapeCast S4096 (V (main_v25 : DevRef τ sig)) shapeCasts_S4096x1_S4096)) := by
  after_results_simp
  rfl

/-- The loss from the two vectors of sequence scores: the margins, their log-sigmoid, minus the mean over the four pairs. -/
def tailOf (sa sb : FVec F S8 .f32) : FVec F S_ .f32 :=
  Host.divf
    (Host.negf (Host.reduceAdd
      (Cert.Dpo.logSigmoid4 bcast_S_S4 (Cert.Dpo.margins slices_S8_S4_0 slices_S8_S4_4 bcast_S_S4 sa sb))
      (constant (F := F) S_ .f32 0x00000000#32) reducesTo_S4_S_d0 h_S_))
    (constant (F := F) S_ .f32 0x40800000#32)

theorem valC (V : Valuation τ sig (Elt F)) :
    after opsC V (main_v44 : DevRef τ sig) = tailOf (V (main_v15 : DevRef τ sig)) (V (main_v31 : DevRef τ sig)) := by
  after_results_simp
  rfl

/-! ## The readings composed -/

/-- The policy's sixty operations leave its eight sequence sums at main_v15. -/
theorem valA (V : Valuation τ sig (Elt F)) :
    after opsA V (main_v15 : DevRef τ sig)
      = Cert.Dpo.seqSums shapeCasts_S4096_S8x512 reducesTo_S8x512_S8_d1 h_S_
          (RefTerm.tok (RefTerm.logSoftmax (RefTerm.logits (V (main_arg0 : DevRef τ sig)) (V (main_arg1 : DevRef τ sig))
            (V (main_arg2 : DevRef τ sig)))) (V (main_arg6 : DevRef τ sig))) := by
  rw [after_append opsA1 _, after_append opsA2 _, after_append opsA3 _, after_append opsA4 opsA5,
    valA5, valA4, lineA4.frame _ main_arg6 (by decide), valA3, lineA3.frame _ main_v4 (by decide),
    lineA3.frame _ main_arg6 (by decide), valA2, lineA2.frame _ main_arg6 (by decide), valA1,
    lineA1.frame _ main_arg6 (by decide)]
  rfl

/-- The reference model's sixty operations leave its eight sequence sums at main_v31. -/
theorem valB (V : Valuation τ sig (Elt F)) :
    after opsB V (main_v31 : DevRef τ sig)
      = Cert.Dpo.seqSums shapeCasts_S4096_S8x512 reducesTo_S8x512_S8_d1 h_S_
          (RefTerm.tok (RefTerm.logSoftmax (RefTerm.logits (V (main_arg3 : DevRef τ sig)) (V (main_arg4 : DevRef τ sig))
            (V (main_arg5 : DevRef τ sig)))) (V (main_arg6 : DevRef τ sig))) := by
  rw [after_append opsB1 _, after_append opsB2 _, after_append opsB3 _, after_append opsB4 opsB5,
    valB5, valB4, lineB4.frame _ main_arg6 (by decide), valB3, lineB3.frame _ main_v20 (by decide),
    lineB3.frame _ main_arg6 (by decide), valB2, lineB2.frame _ main_arg6 (by decide), valB1,
    lineB1.frame _ main_arg6 (by decide)]
  rfl

/-- The whole line leaves the reference's result, as one term of the seven arguments, at main_v44. -/
theorem val_all (V : Valuation τ sig (Elt F)) :
    after ops V (main_v44 : DevRef τ sig)
      = RefTerm.result (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  rw [after_append opsA (opsB ++ opsC), after_append opsB opsC, valC, lineB.frame _ main_v15 (by decide), valA, valB,
    lineA.frame _ main_arg3 (by decide), lineA.frame _ main_arg4 (by decide), lineA.frame _ main_arg5 (by decide),
    lineA.frame _ main_arg6 (by decide)]
  rfl

/-! ## The run -/

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, and every buffer ends at
    the fold of the 151 operations over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => lineAll.sub) m ρ
    (fun _ => lineAll.fresh)

/-- On every device, for any float values, from any memory with zero counters: every weakly fair execution of
    @main terminates with the result buffer at RefTerm.result of the arguments' launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v44)
          = RefTerm.result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨(h c main_v44).trans (val_all (launchContents m c)),
        (h c main_arg0).trans (lineAll.frame _ main_arg0 (by decide)),
        (h c main_arg1).trans (lineAll.frame _ main_arg1 (by decide)),
        (h c main_arg2).trans (lineAll.frame _ main_arg2 (by decide)),
        (h c main_arg3).trans (lineAll.frame _ main_arg3 (by decide)),
        (h c main_arg4).trans (lineAll.frame _ main_arg4 (by decide)),
        (h c main_arg5).trans (lineAll.frame _ main_arg5 (by decide)),
        (h c main_arg6).trans (lineAll.frame _ main_arg6 (by decide))⟩)
    (run_all m ρ)

end Cert.ReferenceIdeal.RefRun

end
-- ==== Proof.RefValue.lean ====
/-
  The reference's token log-probabilities read at an index, at the ideal instance.

  Row r of the input against row v of the weights, plus the bias at v, is the logit a(r, v). A row's maximum M(r) is
  the fold of max over the row from minus infinity; its log-softmax at column v is (a(r, v) - M(r)) minus the log of
  the sum over u of exp (a(r, u) - M(r)). Row r's token log-probability is 0 at the ignore label and the log-softmax at
  the label's column for a label inside the vocabulary: there the label is not negative as a signed word, so the
  wrap-around of negative columns leaves it alone, the range test passes, and the gather's clamp is the identity.
-/
import proofs.«406837_j15204184227923_3_alg».proof.ReferenceIdeal
import proofs.«406837_j15204184227923_3_alg».proof.Proof.Gen.ReferenceIdeal
import proofs.«406837_j15204184227923_3_alg».proof.Proof.Spec
import proofs.«406837_j15204184227923_3_alg».proof.Proof.RefTerm
import proofs.«406837_j15204184227923_3_alg».proof.Proof.LibRowReduce
import Idealize.ShloMosaic.Lib.ValueIdx
import Idealize.ShloMosaic.Lib.Pipeline.Value
import Idealize.ShloMosaic.PureOps.Ideal.Laws
import Idealize.ShloMosaic.Lib.StableHlo.Predicate

noncomputable section

namespace Cert.ReferenceIdeal.RefValue

open Idealize.ShloMosaic Idealize.ShloMosaic.ValueIdx Idealize.ShloMosaic.RowReduce Cert.ReferenceIdeal
open Facts₀ Facts

/-! ## The logits -/

/-- The left operand's row axis reads the result's row. -/
theorem lhs_logits_0 (i : S4096x32000.Idx) (q : dot_S4096x4096_S32000x4096_S4096x32000_1_1_0_0_n_n.contr.Idx) :
    (dot_S4096x4096_S32000x4096_S4096x32000_1_1_0_0_n_n.lhsIdx i q 0).val = (i 0).val := by
  unfold DotDims.lhsIdx
  rw [dif_neg (show ¬(0 : Fin S4096x4096.rank) ∈ dot_S4096x4096_S32000x4096_S4096x32000_1_1_0_0_n_n.lhsBatch by decide),
    dif_pos (show (0 : Fin S4096x4096.rank) ∈ dot_S4096x4096_S32000x4096_S4096x32000_1_1_0_0_n_n.lhsNonContracting by decide)]
  rfl

/-- The left operand's contracted axis reads the contraction position. -/
theorem lhs_logits_1 (i : S4096x32000.Idx) (q : dot_S4096x4096_S32000x4096_S4096x32000_1_1_0_0_n_n.contr.Idx) :
    (dot_S4096x4096_S32000x4096_S4096x32000_1_1_0_0_n_n.lhsIdx i q 1).val = (q ⟨0, by decide⟩).val :=
  dot_S4096x4096_S32000x4096_S4096x32000_1_1_0_0_n_n.lhsIdx_val_of_single rfl i q

/-- The right operand's row axis reads the result's column. -/
theorem rhs_logits_0 (i : S4096x32000.Idx) (q : dot_S4096x4096_S32000x4096_S4096x32000_1_1_0_0_n_n.contr.Idx) :
    (dot_S4096x4096_S32000x4096_S4096x32000_1_1_0_0_n_n.rhsIdx i q 0).val = (i 1).val := by
  unfold DotDims.rhsIdx
  rw [dif_neg (show ¬(0 : Fin S32000x4096.rank) ∈ dot_S4096x4096_S32000x4096_S4096x32000_1_1_0_0_n_n.rhsBatch by decide),
    dif_pos (show (0 : Fin S32000x4096.rank) ∈ dot_S4096x4096_S32000x4096_S4096x32000_1_1_0_0_n_n.rhsNonContracting by decide)]
  rfl

/-- The right operand's contracted axis reads the contraction position. -/
theorem rhs_logits_1 (i : S4096x32000.Idx) (q : dot_S4096x4096_S32000x4096_S4096x32000_1_1_0_0_n_n.contr.Idx) :
    (dot_S4096x4096_S32000x4096_S4096x32000_1_1_0_0_n_n.rhsIdx i q 1).val = (q ⟨0, by decide⟩).val :=
  dot_S4096x4096_S32000x4096_S4096x32000_1_1_0_0_n_n.rhsIdx_val_of_single rfl i q

/-- The product of the input with the transposed weights at (r, v): the sum over h of X(r, h) * W(v, h). -/
theorem dot_apply (X : FVec Ideal S4096x4096 .f32) (W : FVec Ideal S32000x4096 .f32) (r : Fin 4096) (v : Fin 32000) :
    Host.dotGeneral (F := Ideal) dot_S4096x4096_S32000x4096_S4096x32000_1_1_0_0_n_n none X W (ix2 r v)
      = ∑ h : Fin 4096, X (ix2 r h) * W (ix2 v h) := by
  simp only [Host.dotGeneral]
  rw [Ideal.dotGeneral_apply,
    ← Equiv.sum_comp (contrEquiv1 dot_S4096x4096_S32000x4096_S4096x32000_1_1_0_0_n_n 4096 rfl rfl).symm]
  refine Finset.sum_congr rfl fun k _ => ?_
  have hk := contrEquiv1_symm_val dot_S4096x4096_S32000x4096_S4096x32000_1_1_0_0_n_n 4096 rfl rfl k
  have el : dot_S4096x4096_S32000x4096_S4096x32000_1_1_0_0_n_n.lhsIdx (ix2 r v)
      ((contrEquiv1 dot_S4096x4096_S32000x4096_S4096x32000_1_1_0_0_n_n 4096 rfl rfl).symm k) = ix2 r k :=
    funext fun a => Fin.ext (by
      match a with
      | ⟨0, _⟩ => exact lhs_logits_0 _ _
      | ⟨1, _⟩ => exact (lhs_logits_1 _ _).trans hk)
  have er : dot_S4096x4096_S32000x4096_S4096x32000_1_1_0_0_n_n.rhsIdx (ix2 r v)
      ((contrEquiv1 dot_S4096x4096_S32000x4096_S4096x32000_1_1_0_0_n_n 4096 rfl rfl).symm k) = ix2 v k :=
    funext fun a => Fin.ext (by
      match a with
      | ⟨0, _⟩ => exact rhs_logits_0 _ _
      | ⟨1, _⟩ => exact (rhs_logits_1 _ _).trans hk)
  rw [el, er]

/-- The logits at (r, v). -/
theorem logits_apply (X : FVec Ideal S4096x4096 .f32) (W : FVec Ideal S32000x4096 .f32) (b : FVec Ideal S32000 .f32)
    (r : Fin 4096) (v : Fin 32000) :
    RefTerm.logits (F := Ideal) X W b (ix2 r v) = Cert.Dpo.logit X W b r v := by
  unfold RefTerm.logits Cert.Dpo.logit
  rw [addf_apply, dot_apply, broadcastInDim_1b_ab_apply, broadcastInDim_b_1b_apply]

/-! ## The row maximum, the shift and the log-softmax -/

/-- The float word both programs start a running maximum from denotes minus infinity, the bottom of the extended reals. -/
theorem negInf_eq_bot : Cert.Dpo.negInf = ⊥ := by
  simp [Cert.Dpo.negInf, Ideal.ofBits, Ideal.ieee]

/-- The maximum against minus infinity is the other operand. -/
theorem max_negInf (y : EReal) : max Cert.Dpo.negInf y = y := by
  rw [negInf_eq_bot]; exact max_eq_right bot_le

/-- Row r of a [4096, 32000] array, as a function of the column. -/
abbrev row (x : FVec Ideal S4096x32000 .f32) (r : Fin 4096) : Fin 32000 → EReal := fun v => x (ix2 r v)

/-- Each row's maximum at row r: the fold of max over the row from minus infinity. -/
theorem rowMaxV_apply (x : FVec Ideal S4096x32000 .f32) (r : Fin 4096) :
    RefTerm.rowMaxV (F := Ideal) x (ix1 r) = Cert.Dpo.rowMax (row x r) := by
  unfold RefTerm.rowMaxV Cert.Dpo.rowMax
  rw [maximumf_apply, broadcastInDim_scalar_apply,
    hostReduce_maximumf_rows x _ reducesTo_S4096x32000_S4096_d1 (by decide) h_S_ r]
  exact max_negInf _

/-- Each entry minus its row's maximum, at (r, v). -/
theorem shifted_apply (x : FVec Ideal S4096x32000 .f32) (r : Fin 4096) (v : Fin 32000) :
    RefTerm.shifted (F := Ideal) x (ix2 r v) = x (ix2 r v) - Cert.Dpo.rowMax (row x r) := by
  unfold RefTerm.shifted
  rw [subf_apply, broadcastInDim_a1_ab_apply, broadcastInDim_a_a1_apply, rowMaxV_apply]

/-- The log-softmax along each row, at (r, v). -/
theorem logSoftmax_apply (x : FVec Ideal S4096x32000 .f32) (r : Fin 4096) (v : Fin 32000) :
    RefTerm.logSoftmax (F := Ideal) x (ix2 r v) = Cert.Dpo.logSoftmaxAt (row x r) v := by
  unfold RefTerm.logSoftmax Cert.Dpo.logSoftmaxAt Cert.Dpo.rowExpSum
  rw [subf_apply, shifted_apply, broadcastInDim_a1_ab_apply]
  show _ - FloatOps.hostUnary .log _ = _
  rw [Ideal.hostUnary_log_def, broadcastInDim_a_a1_apply,
    hostReduceAdd_rows _ _ reducesTo_S4096x32000_S4096_d1 (by decide) h_S_ r]
  show _ - Ideal.log (Ideal.ofBits .f32 0x00000000#32 + _) = _
  rw [Ideal.ofBits_zero_f32, zero_add]
  have hsum : (∑ k : Fin 32000, Host.exp (F := Ideal) (RefTerm.shifted x) (ix2 r k))
      = ∑ u : Fin 32000, Ideal.exp (row x r u - Cert.Dpo.rowMax (row x r)) :=
    Finset.sum_congr rfl fun u _ => by
      show FloatOps.hostUnary .exp _ = _
      rw [Ideal.hostUnary_exp_def, shifted_apply]
  rw [hsum]

/-- The log-softmax of the logits at (r, v): the log-softmax of row r's logits at column v. -/
theorem logSoftmax_logits_apply (X : FVec Ideal S4096x4096 .f32) (W : FVec Ideal S32000x4096 .f32) (b : FVec Ideal S32000 .f32)
    (r : Fin 4096) (v : Fin 32000) :
    RefTerm.logSoftmax (F := Ideal) (RefTerm.logits X W b) (ix2 r v) = Cert.Dpo.logSoftmaxAt (Cert.Dpo.logit X W b r) v := by
  rw [logSoftmax_apply]
  exact congrArg (fun a => Cert.Dpo.logSoftmaxAt a v) (funext fun u => logits_apply X W b r u)

/-! ## The labels: the ignore test, the column with the ignore label replaced, the wrap-around and the range test -/

/-- Where the label is the ignore label, at row r: the label word compared with the ignore word. -/
theorem isIgnore_apply (tgt : IVec S4096 32) (r : Fin 4096) :
    RefTerm.isIgnore tgt (ix1 r) = IntOp.cmpi .eq (tgt (ix1 r)) Cert.Dpo.ignoreWord := by
  unfold RefTerm.isIgnore
  show IntOp.cmpi .eq (tgt (ix1 r)) (broadcastInDim S4096 ![] bcast_S_S4096 (constantI S_ 32 4294967196#32) (ix1 r)) = _
  rw [broadcastInDim_scalar_apply]
  rfl

/-- At the ignore label the test is the bit 1. -/
theorem isIgnore_of_eq (tgt : IVec S4096 32) (r : Fin 4096) (h : tgt (ix1 r) = Cert.Dpo.ignoreWord) :
    RefTerm.isIgnore tgt (ix1 r) = 1#1 := by
  rw [isIgnore_apply]; exact StableHlo.Predicate.cmpi_eq_iff.mpr h

/-- Off the ignore label the test is the bit 0. -/
theorem isIgnore_of_ne (tgt : IVec S4096 32) (r : Fin 4096) (h : ¬tgt (ix1 r) = Cert.Dpo.ignoreWord) :
    RefTerm.isIgnore tgt (ix1 r) = 0#1 := by
  rw [isIgnore_apply]; exact eq_zero_of_ne_one fun h1 => h (StableHlo.Predicate.cmpi_eq_iff.mp h1)

/-- The label with the ignore label replaced by column 0, at row r. -/
theorem safeTarget_apply (tgt : IVec S4096 32) (r : Fin 4096) :
    RefTerm.safeTarget tgt (ix1 r) = Scalar.select (RefTerm.isIgnore tgt (ix1 r)) 0#32 (tgt (ix1 r)) := by
  unfold RefTerm.safeTarget
  rw [select_apply, broadcastInDim_scalar_apply]
  rfl

/-- Off the ignore label the replaced label is the label. -/
theorem safeTarget_of_ne (tgt : IVec S4096 32) (r : Fin 4096) (h : ¬tgt (ix1 r) = Cert.Dpo.ignoreWord) :
    RefTerm.safeTarget tgt (ix1 r) = tgt (ix1 r) := by
  rw [safeTarget_apply, isIgnore_of_ne tgt r h, select_zero]

/-- The wrapped start index at (r, z, z'): the column's word at row r, with 32000 added when it is negative. -/
theorem wrapIdx_apply (i1 : IVec S4096x1 32) (r : Fin 4096) (z z' : Fin 1) :
    RefTerm.wrapIdx i1 (ix3 r z z')
      = Scalar.select (IntOp.cmpi .slt (i1 (ix2 r (0 : Fin 1))) 0#32) (IntOp.addi (i1 (ix2 r (0 : Fin 1))) 32000#32)
          (i1 (ix2 r (0 : Fin 1))) := by
  unfold RefTerm.wrapIdx
  rw [shapeCast_apply _ shapeCasts_S4096x1_S4096x1x1 (ix3 r z z') (ix2 r (0 : Fin 1)) (by
    have hz : z.val = 0 := by omega
    have hz' : z'.val = 0 := by omega
    rw [Shape.rowMajor_val_two, Shape.rowMajor_val_three]
    show r.val * 1 + 0 = (r.val * 1 + z.val) * 1 + z'.val
    omega)]
  rw [select_apply]
  show Scalar.select (IntOp.cmpi .slt (i1 _) (broadcastInDim S4096x1 ![] bcast_S_S4096x1 (constantI S_ 32 0#32) _))
    (IntOp.addi (i1 _) (broadcastInDim S4096x1 ![] bcast_S_S4096x1 (constantI S_ 32 32000#32) _)) (i1 _) = _
  rw [broadcastInDim_scalar_apply, broadcastInDim_scalar_apply]
  rfl

/-- A word below 32000 is not negative as a signed word. -/
theorem slt_zero_of_lt (t : BitVec 32) (h : t.toNat < 32000) : IntOp.cmpi .slt t 0#32 = 0#1 :=
  eq_zero_of_ne_one fun h1 => by
    have := (StableHlo.Predicate.slt_iff_toNat (a := t) (b := 0#32) (by omega) (by decide)).mp h1
    simp at this

/-- So the wrap-around leaves a column word below 32000 alone. -/
theorem wrapIdx_of_lt (i1 : IVec S4096x1 32) (r : Fin 4096) (z z' : Fin 1) (h : (i1 (ix2 r (0 : Fin 1))).toNat < 32000) :
    RefTerm.wrapIdx i1 (ix3 r z z') = i1 (ix2 r (0 : Fin 1)) := by
  rw [wrapIdx_apply, slt_zero_of_lt _ h, select_zero]

/-- A reduce with an and body over the last, unit, axis of a [4096, 1, 1] array of bits, from the bit 1: the entry and 1. -/
theorem reduce_andi_unit (x : IVec S4096x1x1 1) (r : Fin 4096) (z : Fin 1) :
    Host.reduce IntOp.andi x (constantI S_ 1 1#1) reducesTo_S4096x1x1_S4096x1_d2 h_S_ (ix2 r z)
      = IntOp.andi (x (ix3 r z (0 : Fin 1))) 1#1 := by
  have h : S4096x1x1.Reduces [2] S4096x1 := by decide
  rw [Host.reduce_eq_fold_single IntOp.andi x _ reducesTo_S4096x1x1_S4096x1_d2 h h_S_]
  have hf : (x ∘ h.lift (ix2 r z)) = fun _ : Fin 1 => x (ix3 r z (0 : Fin 1)) := funext fun k => by
    have hk : k.val < 1 := k.isLt
    refine congrArg x (funext fun c => Fin.ext ?_)
    match c with
    | ⟨0, _⟩ => rfl
    | ⟨1, _⟩ => rfl
    | ⟨2, _⟩ => show k.val = 0; omega
  refine (congrArg (fun f => Finset.fold IntOp.andi 1#1 f (Finset.univ : Finset (Fin 1))) hf).trans ?_
  rw [Finset.univ_unique, Finset.fold_singleton]

/-- Where a start index lies in 0..31999, at (r, z). -/
theorem inBounds_apply (i5 : IVec S4096x1x1 32) (r : Fin 4096) (z : Fin 1) :
    RefTerm.inBounds i5 (ix2 r z)
      = IntOp.andi (IntOp.andi (IntOp.cmpi .sge (i5 (ix3 r z (0 : Fin 1))) 0#32) (IntOp.cmpi .sle (i5 (ix3 r z (0 : Fin 1))) 31999#32)) 1#1 := by
  unfold RefTerm.inBounds
  rw [reduce_andi_unit]
  rfl

/-- A start index below 32000 passes the range test. -/
theorem inBounds_of_lt (i5 : IVec S4096x1x1 32) (r : Fin 4096) (z : Fin 1) (h : (i5 (ix3 r z (0 : Fin 1))).toNat < 32000) :
    RefTerm.inBounds i5 (ix2 r z) = 1#1 := by
  rw [inBounds_apply,
    (StableHlo.Predicate.sge_iff_toNat (a := i5 (ix3 r z (0 : Fin 1))) (b := 0#32) (by omega) (by decide)).mpr (by simp),
    (StableHlo.Predicate.sle_iff_toNat (a := i5 (ix3 r z (0 : Fin 1))) (b := 31999#32) (by omega) (by decide)).mpr (by
      show _ ≤ 31999; omega)]
  decide

/-! ## The gather -/

/-- On the batching axis the operand index is the result's row. -/
theorem gather_axis_0 (idx : IVec S4096x1x1 32) (r : Fin 4096) (z : Fin 1) :
    (gather_S4096x32000_S4096x1x1_S4096x1_n_1_0_0_1_2_11.operandIdx (ix2 r z) idx 0).val = r.val := by
  show gather_S4096x32000_S4096x1x1_S4096x1_n_1_0_0_1_2_11.start (ix2 r z) idx 0
    + gather_S4096x32000_S4096x1x1_S4096x1_n_1_0_0_1_2_11.batchCoord (ix2 r z) 0
    + gather_S4096x32000_S4096x1x1_S4096x1_n_1_0_0_1_2_11.offCoord (ix2 r z) 0 = _
  rw [GatherDims.start_batching _ _ _ _
      (show (0 : Fin S4096x32000.rank) ∈ gather_S4096x32000_S4096x1x1_S4096x1_n_1_0_0_1_2_11.operandBatchingDims by decide),
    GatherDims.offCoord_eq_zero _ _ _ (fun hk => ((GatherDims.mem_sKept _ _).mp hk).2 (by decide)),
    Nat.zero_add, Nat.add_zero]
  unfold GatherDims.batchCoord
  rw [dif_pos (show (0 : Fin S4096x32000.rank) ∈ gather_S4096x32000_S4096x1x1_S4096x1_n_1_0_0_1_2_11.operandBatchingDims by decide)]
  rfl

/-- On the collapsed axis the operand index is the start index at (r, z, 0), read signed and clamped into 0..31999. -/
theorem gather_axis_1 (idx : IVec S4096x1x1 32) (r : Fin 4096) (z : Fin 1) :
    (gather_S4096x32000_S4096x1x1_S4096x1_n_1_0_0_1_2_11.operandIdx (ix2 r z) idx 1).val
      = min (idx (ix3 r z (0 : Fin 1))).toInt.toNat 31999 := by
  show gather_S4096x32000_S4096x1x1_S4096x1_n_1_0_0_1_2_11.start (ix2 r z) idx 1
    + gather_S4096x32000_S4096x1x1_S4096x1_n_1_0_0_1_2_11.batchCoord (ix2 r z) 1
    + gather_S4096x32000_S4096x1x1_S4096x1_n_1_0_0_1_2_11.offCoord (ix2 r z) 1 = _
  rw [GatherDims.batchCoord_eq_zero _ _ _
      (show (1 : Fin S4096x32000.rank) ∉ gather_S4096x32000_S4096x1x1_S4096x1_n_1_0_0_1_2_11.operandBatchingDims by decide),
    GatherDims.offCoord_eq_zero _ _ _ (fun hk => ((GatherDims.mem_sKept _ _).mp hk).1 (by decide))]
  simp only [Nat.add_zero]
  unfold GatherDims.start
  rw [dif_pos (show (1 : Fin S4096x32000.rank) ∈ gather_S4096x32000_S4096x1x1_S4096x1_n_1_0_0_1_2_11.startIndexMap by decide)]
  have hsi : gather_S4096x32000_S4096x1x1_S4096x1_n_1_0_0_1_2_11.siIdx (ix2 r z)
      ⟨List.idxOf (1 : Fin S4096x32000.rank) gather_S4096x32000_S4096x1x1_S4096x1_n_1_0_0_1_2_11.startIndexMap,
        List.idxOf_lt_length_iff.2 (by decide)⟩ = ix3 r z (0 : Fin 1) := by
    funext b; refine Fin.ext ?_
    match b with
    | ⟨0, _⟩ => rfl
    | ⟨1, _⟩ => rfl
    | ⟨2, _⟩ => rfl
  rw [hsi]
  rfl

/-- The gather at (r, z): row r of the operand at the start index (r, z, 0), read signed and clamped into 0..31999. -/
theorem gather_apply (lp : FVec Ideal S4096x32000 .f32) (idx : IVec S4096x1x1 32) (r : Fin 4096) (z : Fin 1) :
    Host.gather gather_S4096x32000_S4096x1x1_S4096x1_n_1_0_0_1_2_11 lp idx (ix2 r z)
      = lp (ix2 r ⟨min (idx (ix3 r z (0 : Fin 1))).toInt.toNat 31999, by omega⟩) := by
  unfold Host.gather
  refine congrArg lp (funext fun a => Fin.ext ?_)
  match a with
  | ⟨0, _⟩ => exact gather_axis_0 idx r z
  | ⟨1, _⟩ => exact gather_axis_1 idx r z

/-- For a start index below 32000 the clamp is the identity: the gather reads row r at that column. -/
theorem gather_of_lt (lp : FVec Ideal S4096x32000 .f32) (idx : IVec S4096x1x1 32) (r : Fin 4096) (z : Fin 1)
    (h : (idx (ix3 r z (0 : Fin 1))).toNat < 32000) :
    Host.gather gather_S4096x32000_S4096x1x1_S4096x1_n_1_0_0_1_2_11 lp idx (ix2 r z)
      = lp (ix2 r ⟨(idx (ix3 r z (0 : Fin 1))).toNat, h⟩) := by
  rw [gather_apply]
  refine congrArg (fun v => lp (ix2 r v)) (Fin.ext ?_)
  show min (idx (ix3 r z (0 : Fin 1))).toInt.toNat 31999 = (idx (ix3 r z (0 : Fin 1))).toNat
  rw [StableHlo.Predicate.toInt_eq_toNat_of_lt (by omega), Int.toNat_natCast]
  exact Nat.min_eq_left (by omega)

/-! ## Each row taken at its column -/

/-- Each row of lp taken at that row's column index, at (r, z). -/
theorem take_apply (lp : FVec Ideal S4096x32000 .f32) (i1 : IVec S4096x1 32) (r : Fin 4096) (z : Fin 1) :
    RefTerm.take (F := Ideal) lp i1 (ix2 r z)
      = Scalar.select (RefTerm.inBounds (RefTerm.wrapIdx i1) (ix2 r z))
          (Host.gather gather_S4096x32000_S4096x1x1_S4096x1_n_1_0_0_1_2_11 lp (RefTerm.wrapIdx i1) (ix2 r z))
          (Ideal.ofBits .f32 0x7FC00000#32) := by
  unfold RefTerm.take
  rw [select_apply, broadcastInDim_scalar_apply]
  rfl

/-- For a column word below 32000 the entry taken is row r of lp at that column. -/
theorem take_of_lt (lp : FVec Ideal S4096x32000 .f32) (i1 : IVec S4096x1 32) (r : Fin 4096) (z : Fin 1)
    (h : (i1 (ix2 r (0 : Fin 1))).toNat < 32000) :
    RefTerm.take (F := Ideal) lp i1 (ix2 r z) = lp (ix2 r ⟨(i1 (ix2 r (0 : Fin 1))).toNat, h⟩) := by
  have hw : RefTerm.wrapIdx i1 (ix3 r z (0 : Fin 1)) = i1 (ix2 r (0 : Fin 1)) := wrapIdx_of_lt i1 r z 0 h
  have hlt : (RefTerm.wrapIdx i1 (ix3 r z (0 : Fin 1))).toNat < 32000 := by rw [hw]; exact h
  rw [take_apply, inBounds_of_lt _ r z hlt, select_one, gather_of_lt lp _ r z hlt]
  exact congrArg (fun v => lp (ix2 r v)) (Fin.ext (congrArg BitVec.toNat hw))

/-! ## The token log-probabilities -/

/-- The token log-probabilities at row r: 0 where the label is the ignore label, else the entry taken from row r. -/
theorem tok_apply (lp : FVec Ideal S4096x32000 .f32) (tgt : IVec S4096 32) (r : Fin 4096) :
    RefTerm.tok (F := Ideal) lp tgt (ix1 r)
      = Scalar.select (RefTerm.isIgnore tgt (ix1 r)) (0 : EReal)
          (RefTerm.take lp (broadcastInDim S4096x1 ![0] bcast_S4096_S4096x1_0 (RefTerm.safeTarget tgt)) (ix2 r (0 : Fin 1))) := by
  unfold RefTerm.tok
  rw [select_apply, broadcastInDim_scalar_apply,
    shapeCast_apply _ shapeCasts_S4096x1_S4096 (ix1 r) (ix2 r (0 : Fin 1)) (by
      rw [Shape.rowMajor_val_two, Shape.rowMajor_val_one]
      show r.val * 1 + 0 = r.val
      omega)]
  show Scalar.select _ (Ideal.ofBits .f32 0x00000000#32) _ = _
  rw [Ideal.ofBits_zero_f32]

/-- At the ignore label the token log-probability is 0. -/
theorem tok_of_ignore (lp : FVec Ideal S4096x32000 .f32) (tgt : IVec S4096 32) (r : Fin 4096)
    (h : tgt (ix1 r) = Cert.Dpo.ignoreWord) : RefTerm.tok (F := Ideal) lp tgt (ix1 r) = 0 := by
  rw [tok_apply, isIgnore_of_eq tgt r h, select_one]

/-- At a label inside the vocabulary the token log-probability is row r of lp at the label's column. -/
theorem tok_of_lt (lp : FVec Ideal S4096x32000 .f32) (tgt : IVec S4096 32) (r : Fin 4096)
    (hne : ¬tgt (ix1 r) = Cert.Dpo.ignoreWord) (hlt : (tgt (ix1 r)).toNat < 32000) :
    RefTerm.tok (F := Ideal) lp tgt (ix1 r) = lp (ix2 r ⟨(tgt (ix1 r)).toNat, hlt⟩) := by
  have hcol : broadcastInDim S4096x1 ![0] bcast_S4096_S4096x1_0 (RefTerm.safeTarget tgt) (ix2 r (0 : Fin 1)) = tgt (ix1 r) := by
    rw [broadcastInDim_a_a1_apply, safeTarget_of_ne tgt r hne]
  have hlt' : (broadcastInDim S4096x1 ![0] bcast_S4096_S4096x1_0 (RefTerm.safeTarget tgt) (ix2 r (0 : Fin 1))).toNat < 32000 := by
    rw [hcol]; exact hlt
  rw [tok_apply, isIgnore_of_ne tgt r hne, select_zero, take_of_lt lp _ r 0 hlt']
  exact congrArg (fun v => lp (ix2 r v)) (Fin.ext (congrArg BitVec.toNat hcol))

/-- The reference's token log-probabilities are the specification's, for labels that are the ignore label or lie inside
    the vocabulary. -/
theorem tok_eq (X : FVec Ideal S4096x4096 .f32) (W : FVec Ideal S32000x4096 .f32) (b : FVec Ideal S32000 .f32) (tgt : IVec S4096 32)
    (hrange : ∀ r : Fin 4096, tgt (ix1 r) = 4294967196#32 ∨ (tgt (ix1 r)).toNat < 32000) :
    RefTerm.tok (F := Ideal) (RefTerm.logSoftmax (RefTerm.logits X W b)) tgt = Cert.Dpo.tokVec X W b tgt := by
  funext i
  obtain ⟨r, rfl⟩ : ∃ r : Fin 4096, i = ix1 r := ⟨i 0, eq_ix1 i⟩
  show _ = Cert.Dpo.tokAt (Cert.Dpo.logit X W b r) (tgt (ix1 r))
  unfold Cert.Dpo.tokAt
  by_cases hig : tgt (ix1 r) = Cert.Dpo.ignoreWord
  · rw [tok_of_ignore _ tgt r hig, if_pos hig]
  · have hlt : (tgt (ix1 r)).toNat < 32000 := (hrange r).resolve_left hig
    rw [tok_of_lt _ tgt r hig hlt, if_neg hig, dif_pos hlt, logSoftmax_logits_apply]

end Cert.ReferenceIdeal.RefValue

end
-- ==== Proof.lean ====
/-
  The DPO loss of a fused linear layer: the kernel against its reference, over the extended reals.

  Both programs take a policy (input x, weights W, bias b), a reference model (x', W', b') and 4096 labels, and return
  the scalar  - (sum over the four pairs s of log-sigmoid (beta * ((c_s - c'_s) - (r_s - r'_s)))) / 4,  where c, r are
  the policy's summed token log-probabilities of the chosen and the rejected sequence of a pair and c', r' the
  reference model's. A row's token log-probability is the log-softmax of its 32000 logits x . W(v) + b(v) at the
  row's label, and 0 at the ignore label -100.

  The reference forms each model's whole 4096 x 32000 matrix of logits, takes the log-softmax along each row, and
  reads each row at its label. The kernel never forms the matrix: for each model and each block of 512 rows it sweeps
  the vocabulary in 25 blocks of 1280 columns, carrying per row the maximum so far, the sum of exponentials relative
  to it (rescaled by exp (old maximum - new maximum) whenever the maximum grows) and the logit met at the label's
  column, and at the end of the sweep writes  label's logit - (maximum + log sum).  With every input finite the
  carried numbers are, after the last block, the row's maximum, its sum of exponentials and its label's logit, and
  x - (M + log L) = (x - M) - log L: the two programs agree row by row, and from the two vectors of 4096 token
  log-probabilities on they apply the same operations. The narrowing of the kernel's operands to a 16-bit format
  changes no value over the extended reals.

  The labels must lie in their range, -100 or 0 .. 31999: for another word the kernel's column comparison never
  matches (it adds 0), while the reference's take wraps a negative word by 32000 or reads the fill value.

  Where each part is proved: the sweep's algebra in Sweep; what a grid point computes, read at a row, in KStep, KPay,
  KPieces; the induction along the grid's points and the cover of the output array in KFold and KCover; the operations
  around the kernel's region in KRun, and the kernel's result in KValue; the reference's run in RefRun over the term
  RefTerm, that term read at a row in RefValue; the precondition opened in PreFacts.
-/
import proofs.«406837_j15204184227923_3_alg».proof.Defs
import proofs.«406837_j15204184227923_3_alg».proof.Proof.Gen.Kernel
import proofs.«406837_j15204184227923_3_alg».proof.Proof.Gen.Kernel.Frame
import proofs.«406837_j15204184227923_3_alg».proof.Proof.Gen.KernelIdeal
import proofs.«406837_j15204184227923_3_alg».proof.Proof.Gen.KernelIdeal.Frame
import proofs.«406837_j15204184227923_3_alg».proof.Proof.Gen.ReferenceIdeal
import proofs.«406837_j15204184227923_3_alg».proof.Proof.Gen.Pre_finite_inputs
import proofs.«406837_j15204184227923_3_alg».proof.Proof.KValue
import proofs.«406837_j15204184227923_3_alg».proof.Proof.RefRun
import proofs.«406837_j15204184227923_3_alg».proof.Proof.RefValue
import proofs.«406837_j15204184227923_3_alg».proof.Proof.PreFacts
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as they were: its run with the result dropped. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2)
    (Cert.ReferenceIdeal.RefRun.run (F := Ideal) m ρ)

/-- Both programs end at the loss of the same two vectors of token log-probabilities. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.KValue.run m ρ hpre, ?_⟩
  refine (θ_run (Cert.ReferenceIdeal.defs (F := Ideal)) _ _).mono (fun _ h c => ⟨(h c).1.trans ?_, (h c).2⟩)
    (Cert.ReferenceIdeal.RefRun.run (F := Ideal) m' ρ')
  obtain ⟨a0, a1, a2, a3, a4, a5, a6⟩ := hagree c
  obtain ⟨-, -, -, -, -, -, hrange⟩ := Cert.PreFacts.of_pre _ _ _ _ _ _ _ (hpre c)
  rw [a0, a1, a2, a3, a4, a5, a6]
  unfold Cert.ReferenceIdeal.RefTerm.result
  rw [Cert.ReferenceIdeal.RefValue.tok_eq _ _ _ _ hrange, Cert.ReferenceIdeal.RefValue.tok_eq _ _ _ _ hrange]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
